-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x9 : Shape := ⟨2, ![800000, 9]⟩
abbrev S50000x9 : Shape := ⟨2, ![50000, 9]⟩
abbrev S800000x1 : Shape := ⟨2, ![800000, 1]⟩
abbrev S2x129x64 : Shape := ⟨3, ![2, 129, 64]⟩
abbrev S2x9x64 : Shape := ⟨3, ![2, 9, 64]⟩
abbrev S2x64 : Shape := ⟨2, ![2, 64]⟩
abbrev S2x64x64 : Shape := ⟨3, ![2, 64, 64]⟩
abbrev S2x128x64 : Shape := ⟨3, ![2, 128, 64]⟩
abbrev S2x800000 : Shape := ⟨2, ![2, 800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x9 : S_.BroadcastsInDim S800000x9 (![] : Fin 0 → Fin S800000x9.rank)
  reducesTo_S800000x9_S_d0_1 : S800000x9.ReducesTo [0, 1] S_
  bcast_S_S50000x9 : S_.BroadcastsInDim S50000x9 (![] : Fin 0 → Fin S50000x9.rank)
  reducesTo_S50000x9_S_d0_1 : S50000x9.ReducesTo [0, 1] S_
  bcast_S_S800000x1 : S_.BroadcastsInDim S800000x1 (![] : Fin 0 → Fin S800000x1.rank)
  reducesTo_S800000x1_S_d0_1 : S800000x1.ReducesTo [0, 1] S_
  bcast_S_S2x129x64 : S_.BroadcastsInDim S2x129x64 (![] : Fin 0 → Fin S2x129x64.rank)
  reducesTo_S2x129x64_S_d0_1_2 : S2x129x64.ReducesTo [0, 1, 2] S_
  bcast_S_S2x9x64 : S_.BroadcastsInDim S2x9x64 (![] : Fin 0 → Fin S2x9x64.rank)
  reducesTo_S2x9x64_S_d0_1_2 : S2x9x64.ReducesTo [0, 1, 2] S_
  bcast_S_S2x64 : S_.BroadcastsInDim S2x64 (![] : Fin 0 → Fin S2x64.rank)
  reducesTo_S2x64_S_d0_1 : S2x64.ReducesTo [0, 1] S_
  bcast_S_S2x64x64 : S_.BroadcastsInDim S2x64x64 (![] : Fin 0 → Fin S2x64x64.rank)
  reducesTo_S2x64x64_S_d0_1_2 : S2x64x64.ReducesTo [0, 1, 2] S_
  bcast_S_S2x128x64 : S_.BroadcastsInDim S2x128x64 (![] : Fin 0 → Fin S2x128x64.rank)
  reducesTo_S2x128x64_S_d0_1_2 : S2x128x64.ReducesTo [0, 1, 2] S_
  bcast_S_S2x800000 : S_.BroadcastsInDim S2x800000 (![] : Fin 0 → Fin S2x800000.rank)
  reducesTo_S2x800000_S_d0_1 : S2x800000.ReducesTo [0, 1] S_

variable [Facts]

def fn_part5 {F : FTy → Type} [FloatOps F] (main_v82 : IVec S_ 1) (main_v84 : IVec S2x800000 1) : IVec S_ 1 :=
  let main_c_33 : IVec S_ 1 := constantI S_ 1 1#1
  let main_v85 : IVec S_ 1 := (fun x v => Host.reduce IntOp.andi x v reducesTo_S2x800000_S_d0_1 h_S_) main_v84 main_c_33
  let main_v86 : IVec S_ 1 := andi main_v82 main_v85
  main_v86

def fn_part4 {F : FTy → Type} [FloatOps F] (main_arg14 : FVec F S2x9x64 .f32) (main_arg15 : FVec F S2x64 .f32) (main_arg16 : IVec S2x800000 32) (main_v63 : IVec S_ 1) (main_v67 : IVec S_ 1) : IVec S_ 1 :=
  let main_v68 : IVec S_ 1 := andi main_v63 main_v67
  let main_v69 : FVec F S2x9x64 .f32 := Host.absf main_arg14
  let main_cst_26 : FVec F S_ .f32 := constant S_ .f32 0x7F800000#32
  let main_v70 : FVec F S2x9x64 .f32 := broadcastInDim S2x9x64 ![] bcast_S_S2x9x64 main_cst_26
  let main_v71 : IVec S2x9x64 1 := cmpf .olt main_v69 main_v70
  let main_c_27 : IVec S_ 1 := constantI S_ 1 1#1
  let main_v72 : IVec S_ 1 := (fun x v => Host.reduce IntOp.andi x v reducesTo_S2x9x64_S_d0_1_2 h_S_) main_v71 main_c_27
  let main_v73 : IVec S_ 1 := andi main_v68 main_v72
  let main_v74 : FVec F S2x64 .f32 := Host.absf main_arg15
  let main_cst_28 : FVec F S_ .f32 := constant S_ .f32 0x7F800000#32
  let main_v75 : FVec F S2x64 .f32 := broadcastInDim S2x64 ![] bcast_S_S2x64 main_cst_28
  let main_v76 : IVec S2x64 1 := cmpf .olt main_v74 main_v75
  let main_c_29 : IVec S_ 1 := constantI S_ 1 1#1
  let main_v77 : IVec S_ 1 := (fun x v => Host.reduce IntOp.andi x v reducesTo_S2x64_S_d0_1 h_S_) main_v76 main_c_29
  let main_v78 : IVec S_ 1 := andi main_v73 main_v77
  let main_c_30 : IVec S_ 32 := constantI S_ 32 0#32
  let main_v79 : IVec S2x800000 32 := broadcastInDim S2x800000 ![] bcast_S_S2x800000 main_c_30
  let main_v80 : IVec S2x800000 1 := cmpi .sge main_arg16 main_v79
  let main_c_31 : IVec S_ 1 := constantI S_ 1 1#1
  let main_v81 : IVec S_ 1 := (fun x v => Host.reduce IntOp.andi x v reducesTo_S2x800000_S_d0_1 h_S_) main_v80 main_c_31
  let main_v82 : IVec S_ 1 := andi main_v78 main_v81
  let main_c_32 : IVec S_ 32 := constantI S_ 32 50000#32
  let main_v83 : IVec S2x800000 32 := broadcastInDim S2x800000 ![] bcast_S_S2x800000 main_c_32
  let main_v84 : IVec S2x800000 1 := cmpi .slt main_arg16 main_v83
  fn_part5 (F := F) main_v82 main_v84

def fn_part3 {F : FTy → Type} [FloatOps F] (main_arg11 : FVec F S2x9x64 .f32) (main_arg12 : FVec F S2x64 .f32) (main_arg13 : FVec F S2x64x64 .f32) (main_arg14 : FVec F S2x9x64 .f32) (main_arg15 : FVec F S2x64 .f32) (main_arg16 : IVec S2x800000 32) (main_v48 : IVec S_ 1) (main_v49 : FVec F S2x128x64 .f32) (main_v50 : FVec F S2x128x64 .f32) : IVec S_ 1 :=
  let main_v51 : IVec S2x128x64 1 := cmpf .olt main_v49 main_v50
  let main_c_19 : IVec S_ 1 := constantI S_ 1 1#1
  let main_v52 : IVec S_ 1 := (fun x v => Host.reduce IntOp.andi x v reducesTo_S2x128x64_S_d0_1_2 h_S_) main_v51 main_c_19
  let main_v53 : IVec S_ 1 := andi main_v48 main_v52
  let main_v54 : FVec F S2x9x64 .f32 := Host.absf main_arg11
  let main_cst_20 : FVec F S_ .f32 := constant S_ .f32 0x7F800000#32
  let main_v55 : FVec F S2x9x64 .f32 := broadcastInDim S2x9x64 ![] bcast_S_S2x9x64 main_cst_20
  let main_v56 : IVec S2x9x64 1 := cmpf .olt main_v54 main_v55
  let main_c_21 : IVec S_ 1 := constantI S_ 1 1#1
  let main_v57 : IVec S_ 1 := (fun x v => Host.reduce IntOp.andi x v reducesTo_S2x9x64_S_d0_1_2 h_S_) main_v56 main_c_21
  let main_v58 : IVec S_ 1 := andi main_v53 main_v57
  let main_v59 : FVec F S2x64 .f32 := Host.absf main_arg12
  let main_cst_22 : FVec F S_ .f32 := constant S_ .f32 0x7F800000#32
  let main_v60 : FVec F S2x64 .f32 := broadcastInDim S2x64 ![] bcast_S_S2x64 main_cst_22
  let main_v61 : IVec S2x64 1 := cmpf .olt main_v59 main_v60
  let main_c_23 : IVec S_ 1 := constantI S_ 1 1#1
  let main_v62 : IVec S_ 1 := (fun x v => Host.reduce IntOp.andi x v reducesTo_S2x64_S_d0_1 h_S_) main_v61 main_c_23
  let main_v63 : IVec S_ 1 := andi main_v58 main_v62
  let main_v64 : FVec F S2x64x64 .f32 := Host.absf main_arg13
  let main_cst_24 : FVec F S_ .f32 := constant S_ .f32 0x7F800000#32
  let main_v65 : FVec F S2x64x64 .f32 := broadcastInDim S2x64x64 ![] bcast_S_S2x64x64 main_cst_24
  let main_v66 : IVec S2x64x64 1 := cmpf .olt main_v64 main_v65
  let main_c_25 : IVec S_ 1 := constantI S_ 1 1#1
  let main_v67 : IVec S_ 1 := (fun x v => Host.reduce IntOp.andi x v reducesTo_S2x64x64_S_d0_1_2 h_S_) main_v66 main_c_25
  fn_part4 (F := F) main_arg14 main_arg15 main_arg16 main_v63 main_v67

def fn_part2 {F : FTy → Type} [FloatOps F] (main_arg7 : FVec F S2x64x64 .f32) (main_arg8 : FVec F S2x9x64 .f32) (main_arg9 : FVec F S2x64 .f32) (main_arg10 : FVec F S2x128x64 .f32) (main_arg11 : FVec F S2x9x64 .f32) (main_arg12 : FVec F S2x64 .f32) (main_arg13 : FVec F S2x64x64 .f32) (main_arg14 : FVec F S2x9x64 .f32) (main_arg15 : FVec F S2x64 .f32) (main_arg16 : IVec S2x800000 32) (main_v33 : IVec S_ 1) : IVec S_ 1 :=
  let main_v34 : FVec F S2x64x64 .f32 := Host.absf main_arg7
  let main_cst_12 : FVec F S_ .f32 := constant S_ .f32 0x7F800000#32
  let main_v35 : FVec F S2x64x64 .f32 := broadcastInDim S2x64x64 ![] bcast_S_S2x64x64 main_cst_12
  let main_v36 : IVec S2x64x64 1 := cmpf .olt main_v34 main_v35
  let main_c_13 : IVec S_ 1 := constantI S_ 1 1#1
  let main_v37 : IVec S_ 1 := (fun x v => Host.reduce IntOp.andi x v reducesTo_S2x64x64_S_d0_1_2 h_S_) main_v36 main_c_13
  let main_v38 : IVec S_ 1 := andi main_v33 main_v37
  let main_v39 : FVec F S2x9x64 .f32 := Host.absf main_arg8
  let main_cst_14 : FVec F S_ .f32 := constant S_ .f32 0x7F800000#32
  let main_v40 : FVec F S2x9x64 .f32 := broadcastInDim S2x9x64 ![] bcast_S_S2x9x64 main_cst_14
  let main_v41 : IVec S2x9x64 1 := cmpf .olt main_v39 main_v40
  let main_c_15 : IVec S_ 1 := constantI S_ 1 1#1
  let main_v42 : IVec S_ 1 := (fun x v => Host.reduce IntOp.andi x v reducesTo_S2x9x64_S_d0_1_2 h_S_) main_v41 main_c_15
  let main_v43 : IVec S_ 1 := andi main_v38 main_v42
  let main_v44 : FVec F S2x64 .f32 := Host.absf main_arg9
  let main_cst_16 : FVec F S_ .f32 := constant S_ .f32 0x7F800000#32
  let main_v45 : FVec F S2x64 .f32 := broadcastInDim S2x64 ![] bcast_S_S2x64 main_cst_16
  let main_v46 : IVec S2x64 1 := cmpf .olt main_v44 main_v45
  let main_c_17 : IVec S_ 1 := constantI S_ 1 1#1
  let main_v47 : IVec S_ 1 := (fun x v => Host.reduce IntOp.andi x v reducesTo_S2x64_S_d0_1 h_S_) main_v46 main_c_17
  let main_v48 : IVec S_ 1 := andi main_v43 main_v47
  let main_v49 : FVec F S2x128x64 .f32 := Host.absf main_arg10
  let main_cst_18 : FVec F S_ .f32 := constant S_ .f32 0x7F800000#32
  let main_v50 : FVec F S2x128x64 .f32 := broadcastInDim S2x128x64 ![] bcast_S_S2x128x64 main_cst_18
  fn_part3 (F := F) main_arg11 main_arg12 main_arg13 main_arg14 main_arg15 main_arg16 main_v48 main_v49 main_v50

def fn_part1 {F : FTy → Type} [FloatOps F] (main_arg4 : FVec F S2x129x64 .f32) (main_arg5 : FVec F S2x9x64 .f32) (main_arg6 : FVec F S2x64 .f32) (main_arg7 : FVec F S2x64x64 .f32) (main_arg8 : FVec F S2x9x64 .f32) (main_arg9 : FVec F S2x64 .f32) (main_arg10 : FVec F S2x128x64 .f32) (main_arg11 : FVec F S2x9x64 .f32) (main_arg12 : FVec F S2x64 .f32) (main_arg13 : FVec F S2x64x64 .f32) (main_arg14 : FVec F S2x9x64 .f32) (main_arg15 : FVec F S2x64 .f32) (main_arg16 : IVec S2x800000 32) (main_v13 : IVec S_ 1) (main_v16 : IVec S800000x1 1) : IVec S_ 1 :=
  let main_c_5 : IVec S_ 1 := constantI S_ 1 1#1
  let main_v17 : IVec S_ 1 := (fun x v => Host.reduce IntOp.andi x v reducesTo_S800000x1_S_d0_1 h_S_) main_v16 main_c_5
  let main_v18 : IVec S_ 1 := andi main_v13 main_v17
  let main_v19 : FVec F S2x129x64 .f32 := Host.absf main_arg4
  let main_cst_6 : FVec F S_ .f32 := constant S_ .f32 0x7F800000#32
  let main_v20 : FVec F S2x129x64 .f32 := broadcastInDim S2x129x64 ![] bcast_S_S2x129x64 main_cst_6
  let main_v21 : IVec S2x129x64 1 := cmpf .olt main_v19 main_v20
  let main_c_7 : IVec S_ 1 := constantI S_ 1 1#1
  let main_v22 : IVec S_ 1 := (fun x v => Host.reduce IntOp.andi x v reducesTo_S2x129x64_S_d0_1_2 h_S_) main_v21 main_c_7
  let main_v23 : IVec S_ 1 := andi main_v18 main_v22
  let main_v24 : FVec F S2x9x64 .f32 := Host.absf main_arg5
  let main_cst_8 : FVec F S_ .f32 := constant S_ .f32 0x7F800000#32
  let main_v25 : FVec F S2x9x64 .f32 := broadcastInDim S2x9x64 ![] bcast_S_S2x9x64 main_cst_8
  let main_v26 : IVec S2x9x64 1 := cmpf .olt main_v24 main_v25
  let main_c_9 : IVec S_ 1 := constantI S_ 1 1#1
  let main_v27 : IVec S_ 1 := (fun x v => Host.reduce IntOp.andi x v reducesTo_S2x9x64_S_d0_1_2 h_S_) main_v26 main_c_9
  let main_v28 : IVec S_ 1 := andi main_v23 main_v27
  let main_v29 : FVec F S2x64 .f32 := Host.absf main_arg6
  let main_cst_10 : FVec F S_ .f32 := constant S_ .f32 0x7F800000#32
  let main_v30 : FVec F S2x64 .f32 := broadcastInDim S2x64 ![] bcast_S_S2x64 main_cst_10
  let main_v31 : IVec S2x64 1 := cmpf .olt main_v29 main_v30
  let main_c_11 : IVec S_ 1 := constantI S_ 1 1#1
  let main_v32 : IVec S_ 1 := (fun x v => Host.reduce IntOp.andi x v reducesTo_S2x64_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S50000x64 .f32) (main_arg1 : FVec F S800000x9 .f32) (main_arg2 : FVec F S50000x9 .f32) (main_arg3 : FVec F S800000x1 .f32) (main_arg4 : FVec F S2x129x64 .f32) (main_arg5 : FVec F S2x9x64 .f32) (main_arg6 : FVec F S2x64 .f32) (main_arg7 : FVec F S2x64x64 .f32) (main_arg8 : FVec F S2x9x64 .f32) (main_arg9 : FVec F S2x64 .f32) (main_arg10 : FVec F S2x128x64 .f32) (main_arg11 : FVec F S2x9x64 .f32) (main_arg12 : FVec F S2x64 .f32) (main_arg13 : FVec F S2x64x64 .f32) (main_arg14 : FVec F S2x9x64 .f32) (main_arg15 : FVec F S2x64 .f32) (main_arg16 : IVec S2x800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x9 .f32 := Host.absf main_arg1
  let main_cst_0 : FVec F S_ .f32 := constant S_ .f32 0x7F800000#32
  let main_v5 : FVec F S800000x9 .f32 := broadcastInDim S800000x9 ![] bcast_S_S800000x9 main_cst_0
  let main_v6 : IVec S800000x9 1 := cmpf .olt main_v4 main_v5
  let main_c_1 : IVec S_ 1 := constantI S_ 1 1#1
  let main_v7 : IVec S_ 1 := (fun x v => Host.reduce IntOp.andi x v reducesTo_S800000x9_S_d0_1 h_S_) main_v6 main_c_1
  let main_v8 : IVec S_ 1 := andi main_v3 main_v7
  let main_v9 : FVec F S50000x9 .f32 := Host.absf main_arg2
  let main_cst_2 : FVec F S_ .f32 := constant S_ .f32 0x7F800000#32
  let main_v10 : FVec F S50000x9 .f32 := broadcastInDim S50000x9 ![] bcast_S_S50000x9 main_cst_2
  let main_v11 : IVec S50000x9 1 := cmpf .olt main_v9 main_v10
  let main_c_3 : IVec S_ 1 := constantI S_ 1 1#1
  let main_v12 : IVec S_ 1 := (fun x v => Host.reduce IntOp.andi x v reducesTo_S50000x9_S_d0_1 h_S_) main_v11 main_c_3
  let main_v13 : IVec S_ 1 := andi main_v8 main_v12
  let main_v14 : FVec F S800000x1 .f32 := Host.absf main_arg3
  let main_cst_4 : FVec F S_ .f32 := constant S_ .f32 0x7F800000#32
  let main_v15 : FVec F S800000x1 .f32 := broadcastInDim S800000x1 ![] bcast_S_S800000x1 main_cst_4
  let main_v16 : IVec S800000x1 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S50000x64 : Shape := ⟨2, ![50000, 64]⟩
abbrev S800000x9 : Shape := ⟨2, ![800000, 9]⟩
abbrev S50000x9 : Shape := ⟨2, ![50000, 9]⟩
abbrev S800000x1 : Shape := ⟨2, ![800000, 1]⟩
abbrev S2x129x64 : Shape := ⟨3, ![2, 129, 64]⟩
abbrev S2x9x64 : Shape := ⟨3, ![2, 9, 64]⟩
abbrev S2x64 : Shape := ⟨2, ![2, 64]⟩
abbrev S2x64x64 : Shape := ⟨3, ![2, 64, 64]⟩
abbrev S2x128x64 : Shape := ⟨3, ![2, 128, 64]⟩
abbrev S2x800000 : Shape := ⟨2, ![2, 800000]⟩
abbrev S1x800000 : Shape := ⟨2, ![1, 800000]⟩
abbrev S800000 : Shape := ⟨1, ![800000]⟩
abbrev S1x129x64 : Shape := ⟨3, ![1, 129, 64]⟩
abbrev S129x64 : Shape := ⟨2, ![129, 64]⟩
abbrev S128x64 : Shape := ⟨2, ![128, 64]⟩
abbrev S1x64 : Shape := ⟨2, ![1, 64]⟩
abbrev S64 : Shape := ⟨1, ![64]⟩
abbrev S1x9x64 : Shape := ⟨3, ![1, 9, 64]⟩
abbrev S9x64 : Shape := ⟨2, ![9, 64]⟩
abbrev S1x64x64 : Shape := ⟨3, ![1, 64, 64]⟩
abbrev S64x64 : Shape := ⟨2, ![64, 64]⟩
abbrev S1x128x64 : Shape := ⟨3, ![1, 128, 64]⟩
abbrev S_ : Shape := ⟨0, ![]⟩
abbrev S1 : Shape := ⟨1, ![1]⟩
abbrev S1x1 : Shape := ⟨2, ![1, 1]⟩
abbrev S800000x64 : Shape := ⟨2, ![800000, 64]⟩
abbrev S4000x64 : Shape := ⟨2, ![4000, 64]⟩
abbrev S4000x1 : Shape := ⟨2, ![4000, 1]⟩
abbrev S4000x9 : Shape := ⟨2, ![4000, 9]⟩
abbrev S4000x128 : Shape := ⟨2, ![4000, 128]⟩
abbrev S5000x64 : Shape := ⟨2, ![5000, 64]⟩
abbrev S5000x9 : Shape := ⟨2, ![5000, 9]⟩
abbrev S5000x128 : Shape := ⟨2, ![5000, 128]⟩

abbrev nBuf : Space → Nat
  | .hbm => 179
  | .vmem => 62
  | .smem => 0
  | _ => 0

abbrev hbmTy0_0 (i : Nat) : BufTy := match i % 128 with
  | 0 => ⟨S50000x64, .f32⟩
  | 1 => ⟨S800000x9, .f32⟩
  | 2 => ⟨S50000x9, .f32⟩
  | 3 => ⟨S800000x1, .f32⟩
  | 4 => ⟨S2x129x64, .f32⟩
  | 5 => ⟨S2x9x64, .f32⟩
  | 6 => ⟨S2x64, .f32⟩
  | 7 => ⟨S2x64x64, .f32⟩
  | 8 => ⟨S2x9x64, .f32⟩
  | 9 => ⟨S2x64, .f32⟩
  | 10 => ⟨S2x128x64, .f32⟩
  | 11 => ⟨S2x9x64, .f32⟩
  | 12 => ⟨S2x64, .f32⟩
  | 13 => ⟨S2x64x64, .f32⟩
  | 14 => ⟨S2x9x64, .f32⟩
  | 15 => ⟨S2x64, .f32⟩
  | 16 => ⟨S2x800000, .i32⟩
  | 17 => ⟨S1x800000, .i32⟩
  | 18 => ⟨S800000, .i32⟩
  | 19 => ⟨S1x800000, .i32⟩
  | 20 => ⟨S800000, .i32⟩
  | 21 => ⟨S1x129x64, .f32⟩
  | 22 => ⟨S129x64, .f32⟩
  | 23 => ⟨S128x64, .f32⟩
  | 24 => ⟨S1x64, .f32⟩
  | 25 => ⟨S64, .f32⟩
  | 26 => ⟨S1x9x64, .f32⟩
  | 27 => ⟨S9x64, .f32⟩
  | 28 => ⟨S1x64, .f32⟩
  | 29 => ⟨S64, .f32⟩
  | 30 => ⟨S1x64x64, .f32⟩
  | 31 => ⟨S64x64, .f32⟩
  | 32 => ⟨S1x9x64, .f32⟩
  | 33 => ⟨S9x64, .f32⟩
  | 34 => ⟨S1x64, .f32⟩
  | 35 => ⟨S64, .f32⟩
  | 36 => ⟨S1x128x64, .f32⟩
  | 37 => ⟨S128x64, .f32⟩
  | 38 => ⟨S1x9x64, .f32⟩
  | 39 => ⟨S9x64, .f32⟩
  | 40 => ⟨S1x64, .f32⟩
  | 41 => ⟨S64, .f32⟩
  | 42 => ⟨S1x64x64, .f32⟩
  | 43 => ⟨S64x64, .f32⟩
  | 44 => ⟨S1x9x64, .f32⟩
  | 45 => ⟨S9x64, .f32⟩
  | 46 => ⟨S1x64, .f32⟩
  | 47 => ⟨S64, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S1, .i32⟩
  | 57 => ⟨S_, .i32⟩
  | 58 => ⟨S800000x1, .i32⟩
  | 59 => ⟨S800000x1, .i1⟩
  | 60 => ⟨S1x1, .i32⟩
  | 61 => ⟨S800000x1, .i32⟩
  | 62 => ⟨S800000x1, .i1⟩
  | 63 => ⟨S800000x1, .i1⟩
  | 64 => ⟨S_, .i1⟩
  | 65 => ⟨S800000, .i1⟩
  | 66 => ⟨S800000x64, .f32⟩
  | 67 => ⟨S800000x64, .i1⟩
  | 68 => ⟨S_, .f32⟩
  | 69 => ⟨S800000x64, .f32⟩
  | 70 => ⟨S800000x64, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S1, .i32⟩
  | 80 => ⟨S_, .i32⟩
  | 81 => ⟨S800000x1, .i32⟩
  | 82 => ⟨S800000x1, .i1⟩
  | 83 => ⟨S1x1, .i32⟩
  | 84 => ⟨S800000x1, .i32⟩
  | 85 => ⟨S800000x1, .i1⟩
  | 86 => ⟨S800000x1, .i1⟩
  | 87 => ⟨S_, .i1⟩
  | 88 => ⟨S800000, .i1⟩
  | 89 => ⟨S800000x64, .f32⟩
  | 90 => ⟨S800000x64, .i1⟩
  | 91 => ⟨S_, .f32⟩
  | 92 => ⟨S800000x64, .f32⟩
  | 93 => ⟨S800000x64, .f32⟩
  | 94 => ⟨S800000x64, .f32⟩
  | 95 => ⟨S_, .f32⟩
  | 96 => ⟨S50000x64, .f32⟩
  | 97 => ⟨S800000x1, .i32⟩
  | 98 => ⟨S50000x64, .f32⟩
  | 99 => ⟨S50000x64, .f32⟩
  | 100 => ⟨S1x129x64, .f32⟩
  | 101 => ⟨S129x64, .f32⟩
  | 102 => ⟨S128x64, .f32⟩
  | 103 => ⟨S1x64, .f32⟩
  | 104 => ⟨S64, .f32⟩
  | 105 => ⟨S1x9x64, .f32⟩
  | 106 => ⟨S9x64, .f32⟩
  | 107 => ⟨S1x64, .f32⟩
  | 108 => ⟨S64, .f32⟩
  | 109 => ⟨S1x64x64, .f32⟩
  | 110 => ⟨S64x64, .f32⟩
  | 111 => ⟨S1x9x64, .f32⟩
  | 112 => ⟨S9x64, .f32⟩
  | 113 => ⟨S1x64, .f32⟩
  | 114 => ⟨S64, .f32⟩
  | 115 => ⟨S1x128x64, .f32⟩
  | 116 => ⟨S128x64, .f32⟩
  | 117 => ⟨S1x9x64, .f32⟩
  | 118 => ⟨S9x64, .f32⟩
  | 119 => ⟨S1x64, .f32⟩
  | 120 => ⟨S64, .f32⟩
  | 121 => ⟨S1x64x64, .f32⟩
  | 122 => ⟨S64x64, .f32⟩
  | 123 => ⟨S1x9x64, .f32⟩
  | 124 => ⟨S9x64, .f32⟩
  | 125 => ⟨S1x64, .f32⟩
  | 126 => ⟨S64, .f32⟩
  | 127 => ⟨S_, .i32⟩
  | _ => ⟨S50000x64, .f32⟩

abbrev hbmTy0_1 (i : Nat) : BufTy := match i % 128 with
  | 0 => ⟨S800000, .i32⟩
  | 1 => ⟨S800000, .i1⟩
  | 2 => ⟨S_, .i32⟩
  | 3 => ⟨S800000, .i32⟩
  | 4 => ⟨S800000, .i32⟩
  | 5 => ⟨S800000, .i32⟩
  | 6 => ⟨S800000x1, .i32⟩
  | 7 => ⟨S1, .i32⟩
  | 8 => ⟨S_, .i32⟩
  | 9 => ⟨S800000x1, .i32⟩
  | 10 => ⟨S800000x1, .i1⟩
  | 11 => ⟨S1x1, .i32⟩
  | 12 => ⟨S800000x1, .i32⟩
  | 13 => ⟨S800000x1, .i1⟩
  | 14 => ⟨S800000x1, .i1⟩
  | 15 => ⟨S_, .i1⟩
  | 16 => ⟨S800000, .i1⟩
  | 17 => ⟨S800000x64, .f32⟩
  | 18 => ⟨S800000x64, .i1⟩
  | 19 => ⟨S_, .f32⟩
  | 20 => ⟨S800000x64, .f32⟩
  | 21 => ⟨S800000x64, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S1, .i32⟩
  | 31 => ⟨S_, .i32⟩
  | 32 => ⟨S800000x1, .i32⟩
  | 33 => ⟨S800000x1, .i1⟩
  | 34 => ⟨S1x1, .i32⟩
  | 35 => ⟨S800000x1, .i32⟩
  | 36 => ⟨S800000x1, .i1⟩
  | 37 => ⟨S800000x1, .i1⟩
  | 38 => ⟨S_, .i1⟩
  | 39 => ⟨S800000, .i1⟩
  | 40 => ⟨S800000x64, .f32⟩
  | 41 => ⟨S800000x64, .i1⟩
  | 42 => ⟨S_, .f32⟩
  | 43 => ⟨S800000x64, .f32⟩
  | 44 => ⟨S800000x64, .f32⟩
  | 45 => ⟨S800000x64, .f32⟩
  | 46 => ⟨S_, .f32⟩
  | 47 => ⟨S50000x64, .f32⟩
  | 48 => ⟨S800000x1, .i32⟩
  | 49 => ⟨S50000x64, .f32⟩
  | 50 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x1, .f32⟩
  | .local _ .vmem, ⟨5, _⟩ => ⟨S4000x1, .f32⟩
  | .local _ .vmem, ⟨6, _⟩ => ⟨S4000x9, .f32⟩
  | .local _ .vmem, ⟨7, _⟩ => ⟨S4000x9, .f32⟩
  | .local _ .vmem, ⟨8, _⟩ => ⟨S128x64, .f32⟩
  | .local _ .vmem, ⟨9, _⟩ => ⟨S64, .f32⟩
  | .local _ .vmem, ⟨10, _⟩ => ⟨S9x64, .f32⟩
  | .local _ .vmem, ⟨11, _⟩ => ⟨S64, .f32⟩
  | .local _ .vmem, ⟨12, _⟩ => ⟨S64x64, .f32⟩
  | .local _ .vmem, ⟨13, _⟩ => ⟨S9x64, .f32⟩
  | .local _ .vmem, ⟨14, _⟩ => ⟨S64, .f32⟩
  | .local _ .vmem, ⟨15, _⟩ => ⟨S4000x64, .f32⟩
  | .local _ .vmem, ⟨16, _⟩ => ⟨S4000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x9, .f32⟩
  | .local _ .vmem, ⟨22, _⟩ => ⟨S5000x9, .f32⟩
  | .local _ .vmem, ⟨23, _⟩ => ⟨S128x64, .f32⟩
  | .local _ .vmem, ⟨24, _⟩ => ⟨S9x64, .f32⟩
  | .local _ .vmem, ⟨25, _⟩ => ⟨S64, .f32⟩
  | .local _ .vmem, ⟨26, _⟩ => ⟨S64x64, .f32⟩
  | .local _ .vmem, ⟨27, _⟩ => ⟨S9x64, .f32⟩
  | .local _ .vmem, ⟨28, _⟩ => ⟨S64, .f32⟩
  | .local _ .vmem, ⟨29, _⟩ => ⟨S5000x64, .f32⟩
  | .local _ .vmem, ⟨30, _⟩ => ⟨S5000x64, .f32⟩
  | .local _ .vmem, ⟨31, _⟩ => ⟨S4000x64, .f32⟩
  | .local _ .vmem, ⟨32, _⟩ => ⟨S4000x64, .f32⟩
  | .local _ .vmem, ⟨33, _⟩ => ⟨S4000x64, .f32⟩
  | .local _ .vmem, ⟨34, _⟩ => ⟨S4000x64, .f32⟩
  | .local _ .vmem, ⟨35, _⟩ => ⟨S4000x1, .f32⟩
  | .local _ .vmem, ⟨36, _⟩ => ⟨S4000x1, .f32⟩
  | .local _ .vmem, ⟨37, _⟩ => ⟨S4000x9, .f32⟩
  | .local _ .vmem, ⟨38, _⟩ => ⟨S4000x9, .f32⟩
  | .local _ .vmem, ⟨39, _⟩ => ⟨S128x64, .f32⟩
  | .local _ .vmem, ⟨40, _⟩ => ⟨S64, .f32⟩
  | .local _ .vmem, ⟨41, _⟩ => ⟨S9x64, .f32⟩
  | .local _ .vmem, ⟨42, _⟩ => ⟨S64, .f32⟩
  | .local _ .vmem, ⟨43, _⟩ => ⟨S64x64, .f32⟩
  | .local _ .vmem, ⟨44, _⟩ => ⟨S9x64, .f32⟩
  | .local _ .vmem, ⟨45, _⟩ => ⟨S64, .f32⟩
  | .local _ .vmem, ⟨46, _⟩ => ⟨S4000x64, .f32⟩
  | .local _ .vmem, ⟨47, _⟩ => ⟨S4000x64, .f32⟩
  | .local _ .vmem, ⟨48, _⟩ => ⟨S5000x64, .f32⟩
  | .local _ .vmem, ⟨49, _⟩ => ⟨S5000x64, .f32⟩
  | .local _ .vmem, ⟨50, _⟩ => ⟨S5000x64, .f32⟩
  | .local _ .vmem, ⟨51, _⟩ => ⟨S5000x64, .f32⟩
  | .local _ .vmem, ⟨52, _⟩ => ⟨S5000x9, .f32⟩
  | .local _ .vmem, ⟨53, _⟩ => ⟨S5000x9, .f32⟩
  | .local _ .vmem, ⟨54, _⟩ => ⟨S128x64, .f32⟩
  | .local _ .vmem, ⟨55, _⟩ => ⟨S9x64, .f32⟩
  | .local _ .vmem, ⟨56, _⟩ => ⟨S64, .f32⟩
  | .local _ .vmem, ⟨57, _⟩ => ⟨S64x64, .f32⟩
  | .local _ .vmem, ⟨58, _⟩ => ⟨S9x64, .f32⟩
  | .local _ .vmem, ⟨59, _⟩ => ⟨S64, .f32⟩
  | .local _ .vmem, ⟨60, _⟩ => ⟨S5000x64, .f32⟩
  | .local _ .vmem, ⟨61, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_c : Ref sig .tc := ⟨.hbm, 48, rfl⟩
abbrev main_call0_v0 : Ref sig .tc := ⟨.hbm, 49, rfl⟩
abbrev main_call0_v1 : Ref sig .tc := ⟨.hbm, 50, rfl⟩
abbrev main_call0_c_0 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_c_1 : Ref sig .tc := ⟨.hbm, 56, rfl⟩
abbrev main_call0_c_2 : Ref sig .tc := ⟨.hbm, 57, rfl⟩
abbrev main_call0_v6 : Ref sig .tc := ⟨.hbm, 58, rfl⟩
abbrev main_call0_v7 : Ref sig .tc := ⟨.hbm, 59, rfl⟩
abbrev main_call0_v8 : Ref sig .tc := ⟨.hbm, 60, rfl⟩
abbrev main_call0_v9 : Ref sig .tc := ⟨.hbm, 61, rfl⟩
abbrev main_call0_v10 : Ref sig .tc := ⟨.hbm, 62, rfl⟩
abbrev main_call0_v11 : Ref sig .tc := ⟨.hbm, 63, rfl⟩
abbrev main_call0_c_3 : Ref sig .tc := ⟨.hbm, 64, rfl⟩
abbrev main_call0_v12 : Ref sig .tc := ⟨.hbm, 65, rfl⟩
abbrev main_call0_v13 : Ref sig .tc := ⟨.hbm, 66, rfl⟩
abbrev main_call0_v14 : Ref sig .tc := ⟨.hbm, 67, rfl⟩
abbrev main_call0_cst : Ref sig .tc := ⟨.hbm, 68, rfl⟩
abbrev main_call0_v15 : Ref sig .tc := ⟨.hbm, 69, rfl⟩
abbrev main_v31 : Ref sig .tc := ⟨.hbm, 70, rfl⟩
abbrev main_call1_c : Ref sig .tc := ⟨.hbm, 71, rfl⟩
abbrev main_call1_v0 : Ref sig .tc := ⟨.hbm, 72, rfl⟩
abbrev main_call1_v1 : Ref sig .tc := ⟨.hbm, 73, rfl⟩
abbrev main_call1_c_0 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_call1_v5 : Ref sig .tc := ⟨.hbm, 78, rfl⟩
abbrev main_call1_c_1 : Ref sig .tc := ⟨.hbm, 79, rfl⟩
abbrev main_call1_c_2 : Ref sig .tc := ⟨.hbm, 80, rfl⟩
abbrev main_call1_v6 : Ref sig .tc := ⟨.hbm, 81, rfl⟩
abbrev main_call1_v7 : Ref sig .tc := ⟨.hbm, 82, rfl⟩
abbrev main_call1_v8 : Ref sig .tc := ⟨.hbm, 83, rfl⟩
abbrev main_call1_v9 : Ref sig .tc := ⟨.hbm, 84, rfl⟩
abbrev main_call1_v10 : Ref sig .tc := ⟨.hbm, 85, rfl⟩
abbrev main_call1_v11 : Ref sig .tc := ⟨.hbm, 86, rfl⟩
abbrev main_call1_c_3 : Ref sig .tc := ⟨.hbm, 87, rfl⟩
abbrev main_call1_v12 : Ref sig .tc := ⟨.hbm, 88, rfl⟩
abbrev main_call1_v13 : Ref sig .tc := ⟨.hbm, 89, rfl⟩
abbrev main_call1_v14 : Ref sig .tc := ⟨.hbm, 90, rfl⟩
abbrev main_call1_cst : Ref sig .tc := ⟨.hbm, 91, rfl⟩
abbrev main_call1_v15 : Ref sig .tc := ⟨.hbm, 92, rfl⟩
abbrev main_v32 : Ref sig .tc := ⟨.hbm, 93, rfl⟩
abbrev main_v33 : Ref sig .tc := ⟨.hbm, 94, rfl⟩
abbrev main_cst : Ref sig .tc := ⟨.hbm, 95, rfl⟩
abbrev main_v34 : Ref sig .tc := ⟨.hbm, 96, rfl⟩
abbrev main_v35 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_call2_c : Ref sig .tc := ⟨.hbm, 127, rfl⟩
abbrev main_call2_v0 : Ref sig .tc := ⟨.hbm, 128, rfl⟩
abbrev main_call2_v1 : Ref sig .tc := ⟨.hbm, 129, rfl⟩
abbrev main_call2_c_0 : Ref sig .tc := ⟨.hbm, 130, rfl⟩
abbrev main_call2_v2 : Ref sig .tc := ⟨.hbm, 131, rfl⟩
abbrev main_call2_v3 : Ref sig .tc := ⟨.hbm, 132, rfl⟩
abbrev main_call2_v4 : Ref sig .tc := ⟨.hbm, 133, rfl⟩
abbrev main_call2_v5 : Ref sig .tc := ⟨.hbm, 134, rfl⟩
abbrev main_call2_c_1 : Ref sig .tc := ⟨.hbm, 135, rfl⟩
abbrev main_call2_c_2 : Ref sig .tc := ⟨.hbm, 136, rfl⟩
abbrev main_call2_v6 : Ref sig .tc := ⟨.hbm, 137, rfl⟩
abbrev main_call2_v7 : Ref sig .tc := ⟨.hbm, 138, rfl⟩
abbrev main_call2_v8 : Ref sig .tc := ⟨.hbm, 139, rfl⟩
abbrev main_call2_v9 : Ref sig .tc := ⟨.hbm, 140, rfl⟩
abbrev main_call2_v10 : Ref sig .tc := ⟨.hbm, 141, rfl⟩
abbrev main_call2_v11 : Ref sig .tc := ⟨.hbm, 142, rfl⟩
abbrev main_call2_c_3 : Ref sig .tc := ⟨.hbm, 143, rfl⟩
abbrev main_call2_v12 : Ref sig .tc := ⟨.hbm, 144, rfl⟩
abbrev main_call2_v13 : Ref sig .tc := ⟨.hbm, 145, rfl⟩
abbrev main_call2_v14 : Ref sig .tc := ⟨.hbm, 146, rfl⟩
abbrev main_call2_cst : Ref sig .tc := ⟨.hbm, 147, rfl⟩
abbrev main_call2_v15 : Ref sig .tc := ⟨.hbm, 148, rfl⟩
abbrev main_v65 : Ref sig .tc := ⟨.hbm, 149, rfl⟩
abbrev main_call3_c : Ref sig .tc := ⟨.hbm, 150, rfl⟩
abbrev main_call3_v0 : Ref sig .tc := ⟨.hbm, 151, rfl⟩
abbrev main_call3_v1 : Ref sig .tc := ⟨.hbm, 152, rfl⟩
abbrev main_call3_c_0 : Ref sig .tc := ⟨.hbm, 153, rfl⟩
abbrev main_call3_v2 : Ref sig .tc := ⟨.hbm, 154, rfl⟩
abbrev main_call3_v3 : Ref sig .tc := ⟨.hbm, 155, rfl⟩
abbrev main_call3_v4 : Ref sig .tc := ⟨.hbm, 156, rfl⟩
abbrev main_call3_v5 : Ref sig .tc := ⟨.hbm, 157, rfl⟩
abbrev main_call3_c_1 : Ref sig .tc := ⟨.hbm, 158, rfl⟩
abbrev main_call3_c_2 : Ref sig .tc := ⟨.hbm, 159, rfl⟩
abbrev main_call3_v6 : Ref sig .tc := ⟨.hbm, 160, rfl⟩
abbrev main_call3_v7 : Ref sig .tc := ⟨.hbm, 161, rfl⟩
abbrev main_call3_v8 : Ref sig .tc := ⟨.hbm, 162, rfl⟩
abbrev main_call3_v9 : Ref sig .tc := ⟨.hbm, 163, rfl⟩
abbrev main_call3_v10 : Ref sig .tc := ⟨.hbm, 164, rfl⟩
abbrev main_call3_v11 : Ref sig .tc := ⟨.hbm, 165, rfl⟩
abbrev main_call3_c_3 : Ref sig .tc := ⟨.hbm, 166, rfl⟩
abbrev main_call3_v12 : Ref sig .tc := ⟨.hbm, 167, rfl⟩
abbrev main_call3_v13 : Ref sig .tc := ⟨.hbm, 168, rfl⟩
abbrev main_call3_v14 : Ref sig .tc := ⟨.hbm, 169, rfl⟩
abbrev main_call3_cst : Ref sig .tc := ⟨.hbm, 170, rfl⟩
abbrev main_call3_v15 : Ref sig .tc := ⟨.hbm, 171, rfl⟩
abbrev main_v66 : Ref sig .tc := ⟨.hbm, 172, rfl⟩
abbrev main_v67 : Ref sig .tc := ⟨.hbm, 173, rfl⟩
abbrev main_cst_0 : Ref sig .tc := ⟨.hbm, 174, rfl⟩
abbrev main_v68 : Ref sig .tc := ⟨.hbm, 175, rfl⟩
abbrev main_v69 : Ref sig .tc := ⟨.hbm, 176, rfl⟩
abbrev main_v70 : Ref sig .tc := ⟨.hbm, 177, rfl⟩
abbrev main_v71 : Ref sig .tc := ⟨.hbm, 178, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg9_1 : Ref sig .tc := ⟨.vmem, 30, rfl⟩
abbrev cc2_stg0_0 : Ref sig .tc := ⟨.vmem, 31, rfl⟩
abbrev cc2_stg0_1 : Ref sig .tc := ⟨.vmem, 32, rfl⟩
abbrev cc2_stg1_0 : Ref sig .tc := ⟨.vmem, 33, rfl⟩
abbrev cc2_stg1_1 : Ref sig .tc := ⟨.vmem, 34, rfl⟩
abbrev cc2_stg2_0 : Ref sig .tc := ⟨.vmem, 35, rfl⟩
abbrev cc2_stg2_1 : Ref sig .tc := ⟨.vmem, 36, rfl⟩
abbrev cc2_stg3_0 : Ref sig .tc := ⟨.vmem, 37, rfl⟩
abbrev cc2_stg3_1 : Ref sig .tc := ⟨.vmem, 38, rfl⟩
abbrev cc2_stg4_0 : Ref sig .tc := ⟨.vmem, 39, rfl⟩
abbrev cc2_stg5_0 : Ref sig .tc := ⟨.vmem, 40, rfl⟩
abbrev cc2_stg6_0 : Ref sig .tc := ⟨.vmem, 41, rfl⟩
abbrev cc2_stg7_0 : Ref sig .tc := ⟨.vmem, 42, rfl⟩
abbrev cc2_stg8_0 : Ref sig .tc := ⟨.vmem, 43, rfl⟩
abbrev cc2_stg9_0 : Ref sig .tc := ⟨.vmem, 44, rfl⟩
abbrev cc2_stg10_0 : Ref sig .tc := ⟨.vmem, 45, rfl⟩
abbrev cc2_stg11_0 : Ref sig .tc := ⟨.vmem, 46, rfl⟩
abbrev cc2_stg11_1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg1_1 : Ref sig .tc := ⟨.vmem, 51, rfl⟩
abbrev cc3_stg2_0 : Ref sig .tc := ⟨.vmem, 52, rfl⟩
abbrev cc3_stg2_1 : Ref sig .tc := ⟨.vmem, 53, rfl⟩
abbrev cc3_stg3_0 : Ref sig .tc := ⟨.vmem, 54, rfl⟩
abbrev cc3_stg4_0 : Ref sig .tc := ⟨.vmem, 55, rfl⟩
abbrev cc3_stg5_0 : Ref sig .tc := ⟨.vmem, 56, rfl⟩
abbrev cc3_stg6_0 : Ref sig .tc := ⟨.vmem, 57, rfl⟩
abbrev cc3_stg7_0 : Ref sig .tc := ⟨.vmem, 58, rfl⟩
abbrev cc3_stg8_0 : Ref sig .tc := ⟨.vmem, 59, rfl⟩
abbrev cc3_stg9_0 : Ref sig .tc := ⟨.vmem, 60, rfl⟩
abbrev cc3_stg9_1 : Ref sig .tc := ⟨.vmem, 61, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem2_1 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem9_0 : DmaSem sig := 29
abbrev cc1_sem9_1 : DmaSem sig := 30
abbrev cc2_sem0_0 : DmaSem sig := 31
abbrev cc2_sem0_1 : DmaSem sig := 32
abbrev cc2_sem1_0 : DmaSem sig := 33
abbrev cc2_sem1_1 : DmaSem sig := 34
abbrev cc2_sem2_0 : DmaSem sig := 35
abbrev cc2_sem2_1 : DmaSem sig := 36
abbrev cc2_sem3_0 : DmaSem sig := 37
abbrev cc2_sem3_1 : DmaSem sig := 38
abbrev cc2_sem4_0 : DmaSem sig := 39
abbrev cc2_sem5_0 : DmaSem sig := 40
abbrev cc2_sem6_0 : DmaSem sig := 41
abbrev cc2_sem7_0 : DmaSem sig := 42
abbrev cc2_sem8_0 : DmaSem sig := 43
abbrev cc2_sem9_0 : DmaSem sig := 44
abbrev cc2_sem10_0 : DmaSem sig := 45
abbrev cc2_sem11_0 : DmaSem sig := 46
abbrev cc2_sem11_1 : DmaSem sig := 47
abbrev cc3_sem0_0 : DmaSem sig := 48
abbrev cc3_sem0_1 : DmaSem sig := 49
abbrev cc3_sem1_0 : DmaSem sig := 50
abbrev cc3_sem1_1 : DmaSem sig := 51
abbrev cc3_sem2_0 : DmaSem sig := 52
abbrev cc3_sem2_1 : DmaSem sig := 53
abbrev cc3_sem3_0 : DmaSem sig := 54
abbrev cc3_sem4_0 : DmaSem sig := 55
abbrev cc3_sem5_0 : DmaSem sig := 56
abbrev cc3_sem6_0 : DmaSem sig := 57
abbrev cc3_sem7_0 : DmaSem sig := 58
abbrev cc3_sem8_0 : DmaSem sig := 59
abbrev cc3_sem9_0 : DmaSem sig := 60
abbrev cc3_sem9_1 : DmaSem sig := 61

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x9 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S9x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S9x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4000x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x9 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S9x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S9x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x9 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S9x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S9x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S4000x64 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x9 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S9x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S9x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S5000x64 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S2x129x64_S1x129x64_0_0_0 : S2x129x64.Slices ![0, 0, 0] S1x129x64
  shapeCasts_S1x129x64_S129x64 : S1x129x64.ShapeCasts S129x64
  slices_S129x64_S128x64_0_0 : S129x64.Slices ![0, 0] S128x64
  slices_S129x64_S1x64_128_0 : S129x64.Slices ![128, 0] S1x64
  shapeCasts_S1x64_S64 : S1x64.ShapeCasts S64
  slices_S2x9x64_S1x9x64_0_0_0 : S2x9x64.Slices ![0, 0, 0] S1x9x64
  shapeCasts_S1x9x64_S9x64 : S1x9x64.ShapeCasts S9x64
  slices_S2x64_S1x64_0_0 : S2x64.Slices ![0, 0] S1x64
  slices_S2x64x64_S1x64x64_0_0_0 : S2x64x64.Slices ![0, 0, 0] S1x64x64
  shapeCasts_S1x64x64_S64x64 : S1x64x64.ShapeCasts S64x64
  slices_S2x128x64_S1x128x64_0_0_0 : S2x128x64.Slices ![0, 0, 0] S1x128x64
  shapeCasts_S1x128x64_S128x64 : S1x128x64.ShapeCasts S128x64
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x1_S4000x1_0_0 : ∀ a, (![0, 0] : Fin 2 → Nat) a + S4000x1.size a ≤ S4000x1.size a
  h_S4000x1 : 0 < S4000x1.numel
  inb_S4000x9_S4000x9_0_0 : ∀ a, (![0, 0] : Fin 2 → Nat) a + S4000x9.size a ≤ S4000x9.size a
  h_S4000x9 : 0 < S4000x9.numel
  concatenates_S4000x64_S4000x64_S4000x128_d1 : Shape.Concatenates [S4000x64, S4000x64] S4000x128 1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S64 : S64.ShapeCasts S64
  inb_S9x64_S9x64_0_0 : ∀ a, (![0, 0] : Fin 2 → Nat) a + S9x64.size a ≤ S9x64.size a
  h_S9x64 : 0 < S9x64.numel
  shapeCasts_S9x64_S9x64 : S9x64.ShapeCasts S9x64
  bitsLt_bf16_f32 : FTy.bits .bf16 < FTy.bits .f32
  shapeCasts_S4000x1_S4000x1 : S4000x1.ShapeCasts S4000x1
  broadcasts_S4000x1_S4000x64 : S4000x1.Broadcasts S4000x64
  shapeCasts_S64_S1x64 : S64.ShapeCasts S1x64
  shapeCasts_S1x64_S1x64 : S1x64.ShapeCasts S1x64
  broadcasts_S1x64_S4000x64 : S1x64.Broadcasts S4000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S50000x64 : S_.BroadcastsInDim S50000x64 (![] : Fin 0 → Fin S50000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x9_S5000x9_0_0 : ∀ a, (![0, 0] : Fin 2 → Nat) a + S5000x9.size a ≤ S5000x9.size a
  h_S5000x9 : 0 < S5000x9.numel
  concatenates_S5000x64_S5000x64_S5000x128_d1 : Shape.Concatenates [S5000x64, S5000x64] S5000x128 1
  broadcasts_S1x64_S5000x64 : S1x64.Broadcasts S5000x64
  slices_S2x129x64_S1x129x64_1_0_0 : S2x129x64.Slices ![1, 0, 0] S1x129x64
  slices_S2x9x64_S1x9x64_1_0_0 : S2x9x64.Slices ![1, 0, 0] S1x9x64
  slices_S2x64_S1x64_1_0 : S2x64.Slices ![1, 0] S1x64
  slices_S2x64x64_S1x64x64_1_0_0 : S2x64x64.Slices ![1, 0, 0] S1x64x64
  slices_S2x128x64_S1x128x64_1_0_0 : S2x128x64.Slices ![1, 0, 0] S1x128x64
  gather_S50000x64_S800000x1_S800000x64_1_0_n_n_0_1_164_wf : GatherDims.WF S50000x64 S800000x1 S800000x64 [1] [0] [] [0] [] 1 ![1, 64]
  dot_S4000x128_S128x64_S4000x64_1_0_0_1_n_n_wf : DotDims.WF S4000x128 S128x64 S4000x64 [1] [0] [0] [1] [] []
  dot_S4000x9_S9x64_S4000x64_1_0_0_1_n_n_wf : DotDims.WF S4000x9 S9x64 S4000x64 [1] [0] [0] [1] [] []
  dot_S4000x64_S64x64_S4000x64_1_0_0_1_n_n_wf : DotDims.WF S4000x64 S64x64 S4000x64 [1] [0] [0] [1] [] []
  scatter_S50000x64_S800000x1_S800000x64_1_0_0_1_wf : ScatterDims.WF S50000x64 S800000x1 S800000x64 [1] [0] [0] 1
  dot_S5000x128_S128x64_S5000x64_1_0_0_1_n_n_wf : DotDims.WF S5000x128 S128x64 S5000x64 [1] [0] [0] [1] [] []
  dot_S5000x9_S9x64_S5000x64_1_0_0_1_n_n_wf : DotDims.WF S5000x9 S9x64 S5000x64 [1] [0] [0] [1] [] []
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S800000x64.size a
  hwx0_0 : ∀ i : grid0.Coords, EltTy.bits .f32 = 32 ∨ (Rect.block (s := S800000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S800000x64.size a
  hwx0_1 : ∀ i : grid0.Coords, EltTy.bits .f32 = 32 ∨ (Rect.block (s := S800000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S800000x1.size a
  hwx0_2 : ∀ i : grid0.Coords, EltTy.bits .f32 = 32 ∨ (Rect.block (s := S800000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x9.size a ≤ S800000x9.size a
  hwx0_3 : ∀ i : grid0.Coords, EltTy.bits .f32 = 32 ∨ (Rect.block (s := S800000x9) S4000x9.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S9x64.size a ≤ S9x64.size a
  hwx0_6 : ∀ i : grid0.Coords, EltTy.bits .f32 = 32 ∨ (Rect.block (s := S9x64) S9x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S9x64.size a ≤ S9x64.size a
  hwx0_9 : ∀ i : grid0.Coords, EltTy.bits .f32 = 32 ∨ (Rect.block (s := S9x64) S9x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64.size a ≤ S64.size a
  hwx0_10 : ∀ i : grid0.Coords, EltTy.bits .f32 = 32 ∨ (Rect.block (s := S64) S64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x64.size a ≤ S800000x64.size a
  hwx0_11 : ∀ i : grid0.Coords, EltTy.bits .f32 = 32 ∨ (Rect.block (s := S800000x64) S4000x64.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x9.size a ≤ S50000x9.size a
  hwx1_2 : ∀ i : grid1.Coords, EltTy.bits .f32 = 32 ∨ (Rect.block (s := S50000x9) S5000x9.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S9x64.size a ≤ S9x64.size a
  hwx1_4 : ∀ i : grid1.Coords, EltTy.bits .f32 = 32 ∨ (Rect.block (s := S9x64) S9x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .f32 = 32 ∨ (Rect.block (s := S64x64) S64x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S9x64.size a ≤ S9x64.size a
  hwx1_7 : ∀ i : grid1.Coords, EltTy.bits .f32 = 32 ∨ (Rect.block (s := S9x64) S9x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64.size a ≤ S64.size a
  hwx1_8 : ∀ i : grid1.Coords, EltTy.bits .f32 = 32 ∨ (Rect.block (s := S64) S64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x64.size a ≤ S50000x64.size a
  hwx1_9 : ∀ i : grid1.Coords, EltTy.bits .f32 = 32 ∨ (Rect.block (s := S50000x64) S5000x64.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S800000x64.size a
  hwx2_0 : ∀ i : grid2.Coords, EltTy.bits .f32 = 32 ∨ (Rect.block (s := S800000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S800000x64.size a
  hwx2_1 : ∀ i : grid2.Coords, EltTy.bits .f32 = 32 ∨ (Rect.block (s := S800000x64) S4000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S800000x1.size a
  hwx2_2 : ∀ i : grid2.Coords, EltTy.bits .f32 = 32 ∨ (Rect.block (s := S800000x1) S4000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x9.size a ≤ S800000x9.size a
  hwx2_3 : ∀ i : grid2.Coords, EltTy.bits .f32 = 32 ∨ (Rect.block (s := S800000x9) S4000x9.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .f32 = 32 ∨ (Rect.block (s := S128x64) S128x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S9x64.size a ≤ S9x64.size a
  hwx2_6 : ∀ i : grid2.Coords, EltTy.bits .f32 = 32 ∨ (Rect.block (s := S9x64) S9x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64.size a ≤ S64.size a
  hwx2_7 : ∀ i : grid2.Coords, EltTy.bits .f32 = 32 ∨ (Rect.block (s := S64) S64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64x64.size a ≤ S64x64.size a
  hwx2_8 : ∀ i : grid2.Coords, EltTy.bits .f32 = 32 ∨ (Rect.block (s := S64x64) S64x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S9x64.size a ≤ S9x64.size a
  hwx2_9 : ∀ i : grid2.Coords, EltTy.bits .f32 = 32 ∨ (Rect.block (s := S9x64) S9x64.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S64.size a ≤ S64.size a
  hwx2_10 : ∀ i : grid2.Coords, EltTy.bits .f32 = 32 ∨ (Rect.block (s := S64) S64.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S4000x64.size a ≤ S800000x64.size a
  hwx2_11 : ∀ i : grid2.Coords, EltTy.bits .f32 = 32 ∨ (Rect.block (s := S800000x64) S4000x64.size (cc2_transform_11 i) (hinb2_11 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x9.size a ≤ S50000x9.size a
  hwx3_2 : ∀ i : grid3.Coords, EltTy.bits .f32 = 32 ∨ (Rect.block (s := S50000x9) S5000x9.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x64.size a ≤ S128x64.size a
  hwx3_3 : ∀ i : grid3.Coords, EltTy.bits .f32 = 32 ∨ (Rect.block (s := S128x64) S128x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S9x64.size a ≤ S9x64.size a
  hwx3_4 : ∀ i : grid3.Coords, EltTy.bits .f32 = 32 ∨ (Rect.block (s := S9x64) S9x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64.size a ≤ S64.size a
  hwx3_5 : ∀ i : grid3.Coords, EltTy.bits .f32 = 32 ∨ (Rect.block (s := S64) S64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64x64.size a ≤ S64x64.size a
  hwx3_6 : ∀ i : grid3.Coords, EltTy.bits .f32 = 32 ∨ (Rect.block (s := S64x64) S64x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S9x64.size a ≤ S9x64.size a
  hwx3_7 : ∀ i : grid3.Coords, EltTy.bits .f32 = 32 ∨ (Rect.block (s := S9x64) S9x64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S64.size a ≤ S64.size a
  hwx3_8 : ∀ i : grid3.Coords, EltTy.bits .f32 = 32 ∨ (Rect.block (s := S64) S64.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S5000x64.size a ≤ S50000x64.size a
  hwx3_9 : ∀ i : grid3.Coords, EltTy.bits .f32 = 32 ∨ (Rect.block (s := S50000x64) S5000x64.size (cc3_transform_9 i) (hinb3_9 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def dot_S4000x9_S9x64_S4000x64_1_0_0_1_n_n : DotDims S4000x9 S9x64 S4000x64 where
  lhsContracting := [1]
  rhsContracting := [0]
  lhsNonContracting := [0]
  rhsNonContracting := [1]
  lhsBatch := []
  rhsBatch := []
  wf := dot_S4000x9_S9x64_S4000x64_1_0_0_1_n_n_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x9_S9x64_S5000x64_1_0_0_1_n_n : DotDims S5000x9 S9x64 S5000x64 where
  lhsContracting := [1]
  rhsContracting := [0]
  lhsNonContracting := [0]
  rhsNonContracting := [1]
  lhsBatch := []
  rhsBatch := []
  wf := dot_S5000x9_S9x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v31) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S4000x9.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S9x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v16) S9x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v18) S64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v33) S4000x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S5000x9.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S9x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v28) S9x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v30) S64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v37) S5000x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v65) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v66) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg1) S4000x9.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v40) S128x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v44) S9x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v46) S64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v48) S64x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v50) S9x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v52) S64.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v67) S4000x64.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

abbrev win3_0 : Pipeline.Window sig grid3 :=
  Pipeline.Window.ofSpec (Memref.whole main_v37) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v70) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg2) S5000x9.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v54) S128x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v56) S9x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v58) S64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v60) S64x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v62) S9x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v64) S64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v71) S5000x64.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S50000x64 : Shape := ⟨2, ![50000, 64]⟩
abbrev S800000x9 : Shape := ⟨2, ![800000, 9]⟩
abbrev S50000x9 : Shape := ⟨2, ![50000, 9]⟩
abbrev S800000x1 : Shape := ⟨2, ![800000, 1]⟩
abbrev S2x129x64 : Shape := ⟨3, ![2, 129, 64]⟩
abbrev S2x9x64 : Shape := ⟨3, ![2, 9, 64]⟩
abbrev S2x64 : Shape := ⟨2, ![2, 64]⟩
abbrev S2x64x64 : Shape := ⟨3, ![2, 64, 64]⟩
abbrev S2x128x64 : Shape := ⟨3, ![2, 128, 64]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x64 : Shape := ⟨2, ![800000, 64]⟩
abbrev S800000x129 : Shape := ⟨2, ![800000, 129]⟩
abbrev S1x129x64 : Shape := ⟨3, ![1, 129, 64]⟩
abbrev S129x64 : Shape := ⟨2, ![129, 64]⟩
abbrev S1x9x64 : Shape := ⟨3, ![1, 9, 64]⟩
abbrev S9x64 : Shape := ⟨2, ![9, 64]⟩
abbrev S1x64 : Shape := ⟨2, ![1, 64]⟩
abbrev S64 : Shape := ⟨1, ![64]⟩
abbrev S1x64x64 : Shape := ⟨3, ![1, 64, 64]⟩
abbrev S64x64 : Shape := ⟨2, ![64, 64]⟩
abbrev S50000x128 : Shape := ⟨2, ![50000, 128]⟩
abbrev S1x128x64 : Shape := ⟨3, ![1, 128, 64]⟩
abbrev S128x64 : Shape := ⟨2, ![128, 64]⟩

abbrev nBuf : Space → Nat
  | .hbm => 233
  | .vmem => 0
  | .smem => 0
  | _ => 0

abbrev hbmTy0_0 (i : Nat) : BufTy := match i % 128 with
  | 0 => ⟨S50000x64, .f32⟩
  | 1 => ⟨S800000x9, .f32⟩
  | 2 => ⟨S50000x9, .f32⟩
  | 3 => ⟨S800000x1, .f32⟩
  | 4 => ⟨S2x129x64, .f32⟩
  | 5 => ⟨S2x9x64, .f32⟩
  | 6 => ⟨S2x64, .f32⟩
  | 7 => ⟨S2x64x64, .f32⟩
  | 8 => ⟨S2x9x64, .f32⟩
  | 9 => ⟨S2x64, .f32⟩
  | 10 => ⟨S2x128x64, .f32⟩
  | 11 => ⟨S2x9x64, .f32⟩
  | 12 => ⟨S2x64, .f32⟩
  | 13 => ⟨S2x64x64, .f32⟩
  | 14 => ⟨S2x9x64, .f32⟩
  | 15 => ⟨S2x64, .f32⟩
  | 16 => ⟨S2x800000, .i32⟩
  | 17 => ⟨S1x800000, .i32⟩
  | 18 => ⟨S800000, .i32⟩
  | 19 => ⟨S1x800000, .i32⟩
  | 20 => ⟨S800000, .i32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x64, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x64, .f32⟩
  | 39 => ⟨S800000x129, .f32⟩
  | 40 => ⟨S1x129x64, .f32⟩
  | 41 => ⟨S129x64, .f32⟩
  | 42 => ⟨S1x9x64, .f32⟩
  | 43 => ⟨S9x64, .f32⟩
  | 44 => ⟨S1x64, .f32⟩
  | 45 => ⟨S64, .f32⟩
  | 46 => ⟨S800000x64, .f32⟩
  | 47 => ⟨S800000x64, .f32⟩
  | 48 => ⟨S800000x64, .f32⟩
  | 49 => ⟨S1x64, .f32⟩
  | 50 => ⟨S800000x64, .f32⟩
  | 51 => ⟨S800000x64, .f32⟩
  | 52 => ⟨S800000x64, .f32⟩
  | 53 => ⟨S800000x64, .f32⟩
  | 54 => ⟨S_, .f32⟩
  | 55 => ⟨S800000x64, .f32⟩
  | 56 => ⟨S800000x64, .f32⟩
  | 57 => ⟨S_, .f32⟩
  | 58 => ⟨S800000x64, .f32⟩
  | 59 => ⟨S800000x64, .f32⟩
  | 60 => ⟨S800000x64, .f32⟩
  | 61 => ⟨S1x64x64, .f32⟩
  | 62 => ⟨S64x64, .f32⟩
  | 63 => ⟨S1x9x64, .f32⟩
  | 64 => ⟨S9x64, .f32⟩
  | 65 => ⟨S1x64, .f32⟩
  | 66 => ⟨S64, .f32⟩
  | 67 => ⟨S800000x64, .f32⟩
  | 68 => ⟨S800000x64, .f32⟩
  | 69 => ⟨S800000x64, .f32⟩
  | 70 => ⟨S1x64, .f32⟩
  | 71 => ⟨S800000x64, .f32⟩
  | 72 => ⟨S800000x64, .f32⟩
  | 73 => ⟨S800000x64, .f32⟩
  | 74 => ⟨S800000x64, .f32⟩
  | 75 => ⟨S_, .f32⟩
  | 76 => ⟨S800000x64, .f32⟩
  | 77 => ⟨S800000x64, .f32⟩
  | 78 => ⟨S_, .f32⟩
  | 79 => ⟨S800000x64, .f32⟩
  | 80 => ⟨S800000x64, .f32⟩
  | 81 => ⟨S800000x64, .f32⟩
  | 82 => ⟨S_, .f32⟩
  | 83 => ⟨S50000x64, .f32⟩
  | 84 => ⟨S800000x1, .i32⟩
  | 85 => ⟨S50000x64, .f32⟩
  | 86 => ⟨S50000x128, .f32⟩
  | 87 => ⟨S1x128x64, .f32⟩
  | 88 => ⟨S128x64, .f32⟩
  | 89 => ⟨S1x9x64, .f32⟩
  | 90 => ⟨S9x64, .f32⟩
  | 91 => ⟨S1x64, .f32⟩
  | 92 => ⟨S64, .f32⟩
  | 93 => ⟨S50000x64, .f32⟩
  | 94 => ⟨S50000x64, .f32⟩
  | 95 => ⟨S50000x64, .f32⟩
  | 96 => ⟨S1x64, .f32⟩
  | 97 => ⟨S50000x64, .f32⟩
  | 98 => ⟨S50000x64, .f32⟩
  | 99 => ⟨S50000x64, .f32⟩
  | 100 => ⟨S50000x64, .f32⟩
  | 101 => ⟨S_, .f32⟩
  | 102 => ⟨S50000x64, .f32⟩
  | 103 => ⟨S50000x64, .f32⟩
  | 104 => ⟨S_, .f32⟩
  | 105 => ⟨S50000x64, .f32⟩
  | 106 => ⟨S50000x64, .f32⟩
  | 107 => ⟨S50000x64, .f32⟩
  | 108 => ⟨S1x64x64, .f32⟩
  | 109 => ⟨S64x64, .f32⟩
  | 110 => ⟨S1x9x64, .f32⟩
  | 111 => ⟨S9x64, .f32⟩
  | 112 => ⟨S1x64, .f32⟩
  | 113 => ⟨S64, .f32⟩
  | 114 => ⟨S50000x64, .f32⟩
  | 115 => ⟨S50000x64, .f32⟩
  | 116 => ⟨S50000x64, .f32⟩
  | 117 => ⟨S1x64, .f32⟩
  | 118 => ⟨S50000x64, .f32⟩
  | 119 => ⟨S50000x64, .f32⟩
  | 120 => ⟨S_, .f32⟩
  | 121 => ⟨S50000x64, .f32⟩
  | 122 => ⟨S50000x64, .f32⟩
  | 123 => ⟨S_, .f32⟩
  | 124 => ⟨S50000x64, .f32⟩
  | 125 => ⟨S50000x64, .f32⟩
  | 126 => ⟨S50000x64, .f32⟩
  | 127 => ⟨S_, .i32⟩
  | _ => ⟨S50000x64, .f32⟩

abbrev hbmTy0_1 (i : Nat) : BufTy := match i % 128 with
  | 0 => ⟨S800000, .i32⟩
  | 1 => ⟨S800000, .i1⟩
  | 2 => ⟨S_, .i32⟩
  | 3 => ⟨S800000, .i32⟩
  | 4 => ⟨S800000, .i32⟩
  | 5 => ⟨S800000, .i32⟩
  | 6 => ⟨S800000x1, .i32⟩
  | 7 => ⟨S800000x64, .f32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S800000x64, .f32⟩
  | 17 => ⟨S800000x129, .f32⟩
  | 18 => ⟨S1x129x64, .f32⟩
  | 19 => ⟨S129x64, .f32⟩
  | 20 => ⟨S1x9x64, .f32⟩
  | 21 => ⟨S9x64, .f32⟩
  | 22 => ⟨S1x64, .f32⟩
  | 23 => ⟨S64, .f32⟩
  | 24 => ⟨S800000x64, .f32⟩
  | 25 => ⟨S800000x64, .f32⟩
  | 26 => ⟨S800000x64, .f32⟩
  | 27 => ⟨S1x64, .f32⟩
  | 28 => ⟨S800000x64, .f32⟩
  | 29 => ⟨S800000x64, .f32⟩
  | 30 => ⟨S800000x64, .f32⟩
  | 31 => ⟨S800000x64, .f32⟩
  | 32 => ⟨S_, .f32⟩
  | 33 => ⟨S800000x64, .f32⟩
  | 34 => ⟨S800000x64, .f32⟩
  | 35 => ⟨S_, .f32⟩
  | 36 => ⟨S800000x64, .f32⟩
  | 37 => ⟨S800000x64, .f32⟩
  | 38 => ⟨S800000x64, .f32⟩
  | 39 => ⟨S1x64x64, .f32⟩
  | 40 => ⟨S64x64, .f32⟩
  | 41 => ⟨S1x9x64, .f32⟩
  | 42 => ⟨S9x64, .f32⟩
  | 43 => ⟨S1x64, .f32⟩
  | 44 => ⟨S64, .f32⟩
  | 45 => ⟨S800000x64, .f32⟩
  | 46 => ⟨S800000x64, .f32⟩
  | 47 => ⟨S800000x64, .f32⟩
  | 48 => ⟨S1x64, .f32⟩
  | 49 => ⟨S800000x64, .f32⟩
  | 50 => ⟨S800000x64, .f32⟩
  | 51 => ⟨S800000x64, .f32⟩
  | 52 => ⟨S800000x64, .f32⟩
  | 53 => ⟨S_, .f32⟩
  | 54 => ⟨S800000x64, .f32⟩
  | 55 => ⟨S800000x64, .f32⟩
  | 56 => ⟨S_, .f32⟩
  | 57 => ⟨S800000x64, .f32⟩
  | 58 => ⟨S800000x64, .f32⟩
  | 59 => ⟨S800000x64, .f32⟩
  | 60 => ⟨S_, .f32⟩
  | 61 => ⟨S50000x64, .f32⟩
  | 62 => ⟨S800000x1, .i32⟩
  | 63 => ⟨S50000x64, .f32⟩
  | 64 => ⟨S50000x128, .f32⟩
  | 65 => ⟨S1x128x64, .f32⟩
  | 66 => ⟨S128x64, .f32⟩
  | 67 => ⟨S1x9x64, .f32⟩
  | 68 => ⟨S9x64, .f32⟩
  | 69 => ⟨S1x64, .f32⟩
  | 70 => ⟨S64, .f32⟩
  | 71 => ⟨S50000x64, .f32⟩
  | 72 => ⟨S50000x64, .f32⟩
  | 73 => ⟨S50000x64, .f32⟩
  | 74 => ⟨S1x64, .f32⟩
  | 75 => ⟨S50000x64, .f32⟩
  | 76 => ⟨S50000x64, .f32⟩
  | 77 => ⟨S50000x64, .f32⟩
  | 78 => ⟨S50000x64, .f32⟩
  | 79 => ⟨S_, .f32⟩
  | 80 => ⟨S50000x64, .f32⟩
  | 81 => ⟨S50000x64, .f32⟩
  | 82 => ⟨S_, .f32⟩
  | 83 => ⟨S50000x64, .f32⟩
  | 84 => ⟨S50000x64, .f32⟩
  | 85 => ⟨S50000x64, .f32⟩
  | 86 => ⟨S1x64x64, .f32⟩
  | 87 => ⟨S64x64, .f32⟩
  | 88 => ⟨S1x9x64, .f32⟩
  | 89 => ⟨S9x64, .f32⟩
  | 90 => ⟨S1x64, .f32⟩
  | 91 => ⟨S64, .f32⟩
  | 92 => ⟨S50000x64, .f32⟩
  | 93 => ⟨S50000x64, .f32⟩
  | 94 => ⟨S50000x64, .f32⟩
  | 95 => ⟨S1x64, .f32⟩
  | 96 => ⟨S50000x64, .f32⟩
  | 97 => ⟨S50000x64, .f32⟩
  | 98 => ⟨S_, .f32⟩
  | 99 => ⟨S50000x64, .f32⟩
  | 100 => ⟨S50000x64, .f32⟩
  | 101 => ⟨S_, .f32⟩
  | 102 => ⟨S50000x64, .f32⟩
  | 103 => ⟨S50000x64, .f32⟩
  | 104 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c_1 : Ref sig .tc := ⟨.hbm, 30, rfl⟩
abbrev main_v11 : Ref sig .tc := ⟨.hbm, 31, rfl⟩
abbrev main_v12 : Ref sig .tc := ⟨.hbm, 32, rfl⟩
abbrev main_c_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst : Ref sig .tc := ⟨.hbm, 54, rfl⟩
abbrev main_v33 : Ref sig .tc := ⟨.hbm, 55, rfl⟩
abbrev main_v34 : Ref sig .tc := ⟨.hbm, 56, rfl⟩
abbrev main_cst_3 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_4 : Ref sig .tc := ⟨.hbm, 75, rfl⟩
abbrev main_v52 : Ref sig .tc := ⟨.hbm, 76, rfl⟩
abbrev main_v53 : Ref sig .tc := ⟨.hbm, 77, rfl⟩
abbrev main_cst_5 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_6 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_7 : Ref sig .tc := ⟨.hbm, 101, rfl⟩
abbrev main_v75 : Ref sig .tc := ⟨.hbm, 102, rfl⟩
abbrev main_v76 : Ref sig .tc := ⟨.hbm, 103, rfl⟩
abbrev main_cst_8 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_9 : Ref sig .tc := ⟨.hbm, 120, rfl⟩
abbrev main_v92 : Ref sig .tc := ⟨.hbm, 121, rfl⟩
abbrev main_v93 : Ref sig .tc := ⟨.hbm, 122, rfl⟩
abbrev main_cst_10 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_c_11 : Ref sig .tc := ⟨.hbm, 127, rfl⟩
abbrev main_v97 : Ref sig .tc := ⟨.hbm, 128, rfl⟩
abbrev main_v98 : Ref sig .tc := ⟨.hbm, 129, rfl⟩
abbrev main_c_12 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_c_13 : Ref sig .tc := ⟨.hbm, 136, rfl⟩
abbrev main_v104 : Ref sig .tc := ⟨.hbm, 137, rfl⟩
abbrev main_v105 : Ref sig .tc := ⟨.hbm, 138, rfl⟩
abbrev main_c_14 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_cst_15 : Ref sig .tc := ⟨.hbm, 160, rfl⟩
abbrev main_v126 : Ref sig .tc := ⟨.hbm, 161, rfl⟩
abbrev main_v127 : Ref sig .tc := ⟨.hbm, 162, rfl⟩
abbrev main_cst_16 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_cst_17 : Ref sig .tc := ⟨.hbm, 181, rfl⟩
abbrev main_v145 : Ref sig .tc := ⟨.hbm, 182, rfl⟩
abbrev main_v146 : Ref sig .tc := ⟨.hbm, 183, rfl⟩
abbrev main_cst_18 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_cst_19 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_cst_20 : Ref sig .tc := ⟨.hbm, 207, rfl⟩
abbrev main_v168 : Ref sig .tc := ⟨.hbm, 208, rfl⟩
abbrev main_v169 : Ref sig .tc := ⟨.hbm, 209, rfl⟩
abbrev main_cst_21 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_cst_22 : Ref sig .tc := ⟨.hbm, 226, rfl⟩
abbrev main_v185 : Ref sig .tc := ⟨.hbm, 227, rfl⟩
abbrev main_v186 : Ref sig .tc := ⟨.hbm, 228, rfl⟩
abbrev main_cst_23 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x1_S800000x129_d1 : Shape.Concatenates [S800000x64, S800000x64, S800000x1] S800000x129 1
  slices_S2x129x64_S1x129x64_0_0_0 : S2x129x64.Slices ![0, 0, 0] S1x129x64
  shapeCasts_S1x129x64_S129x64 : S1x129x64.ShapeCasts S129x64
  slices_S2x9x64_S1x9x64_0_0_0 : S2x9x64.Slices ![0, 0, 0] S1x9x64
  shapeCasts_S1x9x64_S9x64 : S1x9x64.ShapeCasts S9x64
  slices_S2x64_S1x64_0_0 : S2x64.Slices ![0, 0] S1x64
  shapeCasts_S1x64_S64 : S1x64.ShapeCasts S64
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  slices_S2x64x64_S1x64x64_0_0_0 : S2x64x64.Slices ![0, 0, 0] S1x64x64
  shapeCasts_S1x64x64_S64x64 : S1x64x64.ShapeCasts S64x64
  bcast_S_S50000x64 : S_.BroadcastsInDim S50000x64 (![] : Fin 0 → Fin S50000x64.rank)
  concatenates_S50000x64_S50000x64_S50000x128_d1 : Shape.Concatenates [S50000x64, S50000x64] S50000x128 1
  slices_S2x128x64_S1x128x64_0_0_0 : S2x128x64.Slices ![0, 0, 0] S1x128x64
  shapeCasts_S1x128x64_S128x64 : S1x128x64.ShapeCasts S128x64
  bcast_S1x64_S50000x64_0_1 : S1x64.BroadcastsInDim S50000x64 (![0, 1] : Fin 2 → Fin S50000x64.rank)
  slices_S2x129x64_S1x129x64_1_0_0 : S2x129x64.Slices ![1, 0, 0] S1x129x64
  slices_S2x9x64_S1x9x64_1_0_0 : S2x9x64.Slices ![1, 0, 0] S1x9x64
  slices_S2x64_S1x64_1_0 : S2x64.Slices ![1, 0] S1x64
  slices_S2x64x64_S1x64x64_1_0_0 : S2x64x64.Slices ![1, 0, 0] S1x64x64
  slices_S2x128x64_S1x128x64_1_0_0 : S2x128x64.Slices ![1, 0, 0] S1x128x64
  gather_S50000x64_S800000x1_S800000x64_1_0_n_n_0_1_164_wf : GatherDims.WF S50000x64 S800000x1 S800000x64 [1] [0] [] [0] [] 1 ![1, 64]
  dot_S800000x129_S129x64_S800000x64_1_0_0_1_n_n_wf : DotDims.WF S800000x129 S129x64 S800000x64 [1] [0] [0] [1] [] []
  dot_S800000x9_S9x64_S800000x64_1_0_0_1_n_n_wf : DotDims.WF S800000x9 S9x64 S800000x64 [1] [0] [0] [1] [] []
  dot_S800000x64_S64x64_S800000x64_1_0_0_1_n_n_wf : DotDims.WF S800000x64 S64x64 S800000x64 [1] [0] [0] [1] [] []
  scatter_S50000x64_S800000x1_S800000x64_1_0_0_1_wf : ScatterDims.WF S50000x64 S800000x1 S800000x64 [1] [0] [0] 1
  dot_S50000x128_S128x64_S50000x64_1_0_0_1_n_n_wf : DotDims.WF S50000x128 S128x64 S50000x64 [1] [0] [0] [1] [] []
  dot_S50000x9_S9x64_S50000x64_1_0_0_1_n_n_wf : DotDims.WF S50000x9 S9x64 S50000x64 [1] [0] [0] [1] [] []
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x129_S129x64_S800000x64_1_0_0_1_n_n : DotDims S800000x129 S129x64 S800000x64 where
  lhsContracting := [1]
  rhsContracting := [0]
  lhsNonContracting := [0]
  rhsNonContracting := [1]
  lhsBatch := []
  rhsBatch := []
  wf := dot_S800000x129_S129x64_S800000x64_1_0_0_1_n_n_wf
def dot_S800000x9_S9x64_S800000x64_1_0_0_1_n_n : DotDims S800000x9 S9x64 S800000x64 where
  lhsContracting := [1]
  rhsContracting := [0]
  lhsNonContracting := [0]
  rhsNonContracting := [1]
  lhsBatch := []
  rhsBatch := []
  wf := dot_S800000x9_S9x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x9_S9x64_S50000x64_1_0_0_1_n_n : DotDims S50000x9 S9x64 S50000x64 where
  lhsContracting := [1]
  rhsContracting := [0]
  lhsNonContracting := [0]
  rhsNonContracting := [1]
  lhsBatch := []
  rhsBatch := []
  wf := dot_S50000x9_S9x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KernelKeep.lean ====
/-
  Which buffers each stretch of host operations of the program writes, and hence which buffers keep their contents
  across a stretch, across a launch, and from the program's start to each launch's entry.
-/
import proofs.«416160_j23089744183881_1_alg».proof.Proof.Gen.KernelIdeal.Frame

set_option maxRecDepth 16384

noncomputable section

namespace Cert.KernelIdeal.Keep

open Idealize.ShloMosaic Idealize.ShloMosaic.TcCoe Idealize.SL.Sem
open Cert.KernelIdeal Cert.KernelIdeal.Gen

variable {F : FTy → Type} [FloatOps F]

/-- The buffers that the stretch `hostOps0` writes. -/
abbrev WL0 : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30]
theorem hostOps0_writes : (hostOps0 : List (HloOp τ sig (Elt F))).Forall fun op => op.writes ⊆ ((WL0).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))

/-- The buffers that the stretch `hostOps0_1` writes. -/
abbrev WL0_1 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v31]
theorem hostOps0_1_writes : (hostOps0_1 : List (HloOp τ sig (Elt F))).Forall fun op => op.writes ⊆ ((WL0_1).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))

/-- The buffers that the stretch `hostOps0_2` writes. -/
abbrev WL0_2 : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v32]
theorem hostOps0_2_writes : (hostOps0_2 : List (HloOp τ sig (Elt F))).Forall fun op => op.writes ⊆ ((WL0_2).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))

/-- The buffers that the stretch `hostOps1` writes. -/
abbrev WL1 : List (Ref sig .tc) := [main_cst, main_v34, main_v35, main_v36]
theorem hostOps1_writes : (hostOps1 : List (HloOp τ sig (Elt F))).Forall fun op => op.writes ⊆ ((WL1).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))

/-- The buffers that the stretch `hostOps2` writes. -/
abbrev WL2 : List (Ref sig .tc) := [main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64]
theorem hostOps2_writes : (hostOps2 : List (HloOp τ sig (Elt F))).Forall fun op => op.writes ⊆ ((WL2).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))

/-- The buffers that the stretch `hostOps2_1` writes. -/
abbrev WL2_1 : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v65]
theorem hostOps2_1_writes : (hostOps2_1 : List (HloOp τ sig (Elt F))).Forall fun op => op.writes ⊆ ((WL2_1).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))

/-- The buffers that the stretch `hostOps2_2` writes. -/
abbrev WL2_2 : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v66]
theorem hostOps2_2_writes : (hostOps2_2 : List (HloOp τ sig (Elt F))).Forall fun op => op.writes ⊆ ((WL2_2).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))

/-- The buffers that the stretch `hostOps3` writes. -/
abbrev WL3 : List (Ref sig .tc) := [main_cst_0, main_v68, main_v69, main_v70]
theorem hostOps3_writes : (hostOps3 : List (HloOp τ sig (Elt F))).Forall fun op => op.writes ⊆ ((WL3).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))

variable (m : (ℓ : Loc nD τ sig) → Buf (Elt F) ℓ) (ρ : Dev nD → PrngReg) (c : Dev nD)

/-- A buffer none of the first three stretches writes holds at the first launch's entry what it held at the start. -/
theorem W3_keep (r : Ref sig .tc) (h0 : r ∉ WL0) (h1 : r ∉ WL0_1) (h2 : r ∉ WL0_2) :
    W3 m ρ c (Proc.devRef .tc r) = W0 m ρ c (Proc.devRef .tc r) :=
  (StableHlo.after_of_writes_sub hostOps0_2 _ hostOps0_2_writes h2).trans
    ((StableHlo.after_of_writes_sub hostOps0_1 _ hostOps0_1_writes h1).trans
      (StableHlo.after_of_writes_sub hostOps0 _ hostOps0_writes h0))
/-- A buffer the first two stretches' successor does not write: the second gather's stretch keeps it. -/
theorem W3_keep2 (r : Ref sig .tc) (h2 : r ∉ WL0_2) : W3 m ρ c (Proc.devRef .tc r) = W2 m ρ c (Proc.devRef .tc r) :=
  StableHlo.after_of_writes_sub hostOps0_2 _ hostOps0_2_writes h2
theorem W2_keep (r : Ref sig .tc) (h1 : r ∉ WL0_1) : W2 m ρ c (Proc.devRef .tc r) = W1 m ρ c (Proc.devRef .tc r) :=
  StableHlo.after_of_writes_sub hostOps0_1 _ hostOps0_1_writes h1
theorem W1_keep (r : Ref sig .tc) (h0 : r ∉ WL0) : W1 m ρ c (Proc.devRef .tc r) = W0 m ρ c (Proc.devRef .tc r) :=
  StableHlo.after_of_writes_sub hostOps0 _ hostOps0_writes h0
/-- Across the stretch between the first and the second launch. -/
theorem W5_keep (r : Ref sig .tc) (h : r ∉ WL1) : W5 m ρ c (Proc.devRef .tc r) = W4 m ρ c (Proc.devRef .tc r) :=
  StableHlo.after_of_writes_sub hostOps1 _ hostOps1_writes h
/-- Across the three stretches between the second and the third launch. -/
theorem W9_keep (r : Ref sig .tc) (h0 : r ∉ WL2) (h1 : r ∉ WL2_1) (h2 : r ∉ WL2_2) :
    W9 m ρ c (Proc.devRef .tc r) = W6 m ρ c (Proc.devRef .tc r) :=
  (StableHlo.after_of_writes_sub hostOps2_2 _ hostOps2_2_writes h2).trans
    ((StableHlo.after_of_writes_sub hostOps2_1 _ hostOps2_1_writes h1).trans
      (StableHlo.after_of_writes_sub hostOps2 _ hostOps2_writes h0))
theorem W9_keep2 (r : Ref sig .tc) (h2 : r ∉ WL2_2) : W9 m ρ c (Proc.devRef .tc r) = W8 m ρ c (Proc.devRef .tc r) :=
  StableHlo.after_of_writes_sub hostOps2_2 _ hostOps2_2_writes h2
theorem W8_keep (r : Ref sig .tc) (h1 : r ∉ WL2_1) : W8 m ρ c (Proc.devRef .tc r) = W7 m ρ c (Proc.devRef .tc r) :=
  StableHlo.after_of_writes_sub hostOps2_1 _ hostOps2_1_writes h1
theorem W7_keep (r : Ref sig .tc) (h0 : r ∉ WL2) : W7 m ρ c (Proc.devRef .tc r) = W6 m ρ c (Proc.devRef .tc r) :=
  StableHlo.after_of_writes_sub hostOps2 _ hostOps2_writes h0
/-- Across the stretch between the third and the fourth launch. -/
theorem W11_keep (r : Ref sig .tc) (h : r ∉ WL3) : W11 m ρ c (Proc.devRef .tc r) = W10 m ρ c (Proc.devRef .tc r) :=
  StableHlo.after_of_writes_sub hostOps3 _ hostOps3_writes h

end Cert.KernelIdeal.Keep

end
-- ==== Proof.KernelCarry.lean ====
/-
  Across a launch every buffer but the launch's output array keeps its contents: an input array is read, never written
  back, and a buffer that is no array of the launch is untouched.
-/
import proofs.«416160_j23089744183881_1_alg».proof.Proof.KernelKeep

set_option maxRecDepth 16384

noncomputable section

namespace Cert.KernelIdeal.Keep

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg) (c : Dev nD)

theorem in0 : ∀ w : Fin cfg0.W, w ≠ 11 → (cfg0.win w).isOut = false := by decide
theorem in1 : ∀ w : Fin cfg1.W, w ≠ 9 → (cfg1.win w).isOut = false := by decide
theorem in2 : ∀ w : Fin cfg2.W, w ≠ 11 → (cfg2.win w).isOut = false := by decide
theorem in3 : ∀ w : Fin cfg3.W, w ≠ 9 → (cfg3.win w).isOut = false := by decide

/-- Across the first launch. -/
theorem W4_eq (r : Ref sig .tc) (h : r ≠ main_v33) : W4 m ρ c (Proc.devRef .tc r) = W3 m ρ c (Proc.devRef .tc r) := by
  by_cases hw : ∃ w, Pipeline.arrRef spec0 w = r
  · obtain ⟨w, rfl⟩ := hw
    have hw11 : w ≠ 11 := fun e => h (by subst e; rfl)
    rw [W4_arr]
    exact ((dat0 (V3 m ρ) c).arrAt_in w (in0 w hw11) _).trans (A_eq0 (V3 m ρ) c w)
  · exact W4_of_ne m ρ c r (fun w e => hw ⟨w, e⟩)
/-- Across the second launch. -/
theorem W6_eq (r : Ref sig .tc) (h : r ≠ main_v37) : W6 m ρ c (Proc.devRef .tc r) = W5 m ρ c (Proc.devRef .tc r) := by
  by_cases hw : ∃ w, Pipeline.arrRef spec1 w = r
  · obtain ⟨w, rfl⟩ := hw
    have hw9 : w ≠ 9 := fun e => h (by subst e; rfl)
    rw [W6_arr]
    exact ((dat1 (V5 m ρ) c).arrAt_in w (in1 w hw9) _).trans (A_eq1 (V5 m ρ) c w)
  · exact W6_of_ne m ρ c r (fun w e => hw ⟨w, e⟩)
/-- Across the third launch. -/
theorem W10_eq (r : Ref sig .tc) (h : r ≠ main_v67) : W10 m ρ c (Proc.devRef .tc r) = W9 m ρ c (Proc.devRef .tc r) := by
  by_cases hw : ∃ w, Pipeline.arrRef spec2 w = r
  · obtain ⟨w, rfl⟩ := hw
    have hw11 : w ≠ 11 := fun e => h (by subst e; rfl)
    rw [W10_arr]
    exact ((dat2 (V9 m ρ) c).arrAt_in w (in2 w hw11) _).trans (A_eq2 (V9 m ρ) c w)
  · exact W10_of_ne m ρ c r (fun w e => hw ⟨w, e⟩)

/-- The output arrays of the four launches. -/
theorem W4_out : W4 m ρ c (Proc.devRef .tc main_v33) = (dat0 (V3 m ρ) c).arrAt 11 cfg0.N := W4_arr m ρ c 11
theorem W6_out : W6 m ρ c (Proc.devRef .tc main_v37) = (dat1 (V5 m ρ) c).arrAt 9 cfg1.N := W6_arr m ρ c 9
theorem W10_out : W10 m ρ c (Proc.devRef .tc main_v67) = (dat2 (V9 m ρ) c).arrAt 11 cfg2.N := W10_arr m ρ c 11
theorem W12_out : W12 m ρ c (Proc.devRef .tc main_v71) = (dat3 (V11 m ρ) c).arrAt 9 cfg3.N := W12_arr m ρ c 9

end Cert.KernelIdeal.Keep

end
-- ==== Proof.KerDefs.lean ====
/-
  The kernel program's host steps around its launches, written once as functions of whole arrays.

  Between its launches the program gathers node rows along an edge-index row, filling a gathered row with the
  not-a-number word when the (wrapped) index falls outside 0..49999, and sums the messages into their target nodes.
-/
import proofs.«416160_j23089744183881_1_alg».proof.Proof.Gen.KernelIdeal
import Idealize.ShloMosaic.PureOps.Ideal

noncomputable section

namespace Cert.KernelIdeal.Layers

open Cert.KernelIdeal Cert.KernelIdeal.Gen Idealize.ShloMosaic

/-- An edge-index row with a negative entry moved up by the number of nodes, as a column. -/
def wrapIdx (idx : IVec S800000 32) : IVec S800000x1 32 :=
  broadcastInDim S800000x1 ![0] bcast_S800000_S800000x1_0 (select (cmpi .slt idx (broadcastInDim S800000 ![] bcast_S_S800000 (constantI S_ 32 0#32))) (addi idx (broadcastInDim S800000 ![] bcast_S_S800000 (constantI S_ 32 50000#32))) idx)
/-- Per edge, whether the wrapped index lies in 0..49999. -/
def inRange (idx : IVec S800000 32) : IVec S800000 1 :=
  (fun x v => Host.reduce IntOp.andi x v reducesTo_S800000x1_S800000_d1 h_S_) (andi (cmpi .sge (wrapIdx idx) (broadcastInDim S800000x1 ![] bcast_S_S800000x1 (constantI S_ 32 0#32))) (cmpi .sle (wrapIdx idx) (broadcastInDim S800000x1 ![0, 1] bcast_S1x1_S800000x1_0_1 (broadcastInDim S1x1 ![1] bcast_S1_S1x1_1 (constantI S1 32 49999#32))))) (constantI S_ 1 1#1)
/-- The node rows gathered along an edge-index row, a row out of range replaced by the not-a-number word. -/
def takeK (X : FVec Ideal S50000x64 .f32) (idx : IVec S800000 32) : FVec Ideal S800000x64 .f32 :=
  select (broadcastInDim S800000x64 ![0] bcast_S800000_S800000x64_0 (inRange idx)) ((fun x i => Host.gather gather_S50000x64_S800000x1_S800000x64_1_0_n_n_0_1_164 x i) X (wrapIdx idx)) (broadcastInDim S800000x64 ![] bcast_S_S800000x64 (constant S_ .f32 0x7FC00000#32))
/-- The messages summed into their target nodes. -/
def aggK (dst : IVec S800000 32) (M : FVec Ideal S800000x64 .f32) : FVec Ideal S50000x64 .f32 :=
  (fun x i u => Host.scatterAdd scatter_S50000x64_S800000x1_S800000x64_1_0_0_1 x i u) (broadcastInDim S50000x64 ![] bcast_S_S50000x64 (constant S_ .f32 0x00000000#32)) (broadcastInDim S800000x1 ![0] bcast_S800000_S800000x1_0 dst) M

end Cert.KernelIdeal.Layers

end
-- ==== Proof.KerWeights.lean ====
/-
  The arrays the program derives from its arguments alone, in the kernel program's spelling: the two rows of the
  edge-index array and, per layer, the slices of the twelve stacked weight arrays.
-/
import proofs.«416160_j23089744183881_1_alg».proof.Proof.KerDefs

noncomputable section

namespace Cert.KernelIdeal.Read

open Idealize.ShloMosaic Idealize.ShloMosaic.TcCoe Idealize.SL.Sem
open Cert.KernelIdeal Cert.KernelIdeal.Gen

variable (m : (ℓ : Loc nD τ sig) → Buf (Elt Ideal) ℓ) (c : Dev nD)

/-- Row 1 of the edge-index array: the edges' target nodes. -/
def dstK : IVec S800000 32 :=
  shapeCast _ (extractStridedSlice S1x800000 ![1, 0] (m ((c : Thread nD τ).loc main_arg16)) slices_S2x800000_S1x800000_1_0) shapeCasts_S1x800000_S800000
/-- Row 0 of the edge-index array: the edges' source nodes. -/
def srcK : IVec S800000 32 :=
  shapeCast _ (extractStridedSlice S1x800000 ![0, 0] (m ((c : Thread nD τ).loc main_arg16)) slices_S2x800000_S1x800000_0_0) shapeCasts_S1x800000_S800000
/-- Layer 0: the message stage's first weight matrix (129 rows). -/
def W129K0 : FVec Ideal S129x64 .f32 :=
  shapeCast _ (extractStridedSlice S1x129x64 ![0, 0, 0] (m ((c : Thread nD τ).loc main_arg4)) slices_S2x129x64_S1x129x64_0_0_0) shapeCasts_S1x129x64_S129x64
/-- Layer 0: the message stage's first attribute matrix. -/
def V1K0 : FVec Ideal S9x64 .f32 :=
  shapeCast _ (extractStridedSlice S1x9x64 ![0, 0, 0] (m ((c : Thread nD τ).loc main_arg5)) slices_S2x9x64_S1x9x64_0_0_0) shapeCasts_S1x9x64_S9x64
/-- Layer 0: the message stage's first bias row. -/
def b1K0 : FVec Ideal S64 .f32 :=
  shapeCast _ (extractStridedSlice S1x64 ![0, 0] (m ((c : Thread nD τ).loc main_arg6)) slices_S2x64_S1x64_0_0) shapeCasts_S1x64_S64
/-- Layer 0: the message stage's second weight matrix. -/
def W2K0 : FVec Ideal S64x64 .f32 :=
  shapeCast _ (extractStridedSlice S1x64x64 ![0, 0, 0] (m ((c : Thread nD τ).loc main_arg7)) slices_S2x64x64_S1x64x64_0_0_0) shapeCasts_S1x64x64_S64x64
/-- Layer 0: the message stage's second attribute matrix. -/
def V2K0 : FVec Ideal S9x64 .f32 :=
  shapeCast _ (extractStridedSlice S1x9x64 ![0, 0, 0] (m ((c : Thread nD τ).loc main_arg8)) slices_S2x9x64_S1x9x64_0_0_0) shapeCasts_S1x9x64_S9x64
/-- Layer 0: the message stage's second bias row. -/
def b2K0 : FVec Ideal S64 .f32 :=
  shapeCast _ (extractStridedSlice S1x64 ![0, 0] (m ((c : Thread nD τ).loc main_arg9)) slices_S2x64_S1x64_0_0) shapeCasts_S1x64_S64
/-- Layer 0: the update stage's first weight matrix. -/
def Wu1K0 : FVec Ideal S128x64 .f32 :=
  shapeCast _ (extractStridedSlice S1x128x64 ![0, 0, 0] (m ((c : Thread nD τ).loc main_arg10)) slices_S2x128x64_S1x128x64_0_0_0) shapeCasts_S1x128x64_S128x64
/-- Layer 0: the update stage's first attribute matrix. -/
def Vu1K0 : FVec Ideal S9x64 .f32 :=
  shapeCast _ (extractStridedSlice S1x9x64 ![0, 0, 0] (m ((c : Thread nD τ).loc main_arg11)) slices_S2x9x64_S1x9x64_0_0_0) shapeCasts_S1x9x64_S9x64
/-- Layer 0: the update stage's first bias row. -/
def bu1K0 : FVec Ideal S64 .f32 :=
  shapeCast _ (extractStridedSlice S1x64 ![0, 0] (m ((c : Thread nD τ).loc main_arg12)) slices_S2x64_S1x64_0_0) shapeCasts_S1x64_S64
/-- Layer 0: the update stage's second weight matrix. -/
def Wu2K0 : FVec Ideal S64x64 .f32 :=
  shapeCast _ (extractStridedSlice S1x64x64 ![0, 0, 0] (m ((c : Thread nD τ).loc main_arg13)) slices_S2x64x64_S1x64x64_0_0_0) shapeCasts_S1x64x64_S64x64
/-- Layer 0: the update stage's second attribute matrix. -/
def Vu2K0 : FVec Ideal S9x64 .f32 :=
  shapeCast _ (extractStridedSlice S1x9x64 ![0, 0, 0] (m ((c : Thread nD τ).loc main_arg14)) slices_S2x9x64_S1x9x64_0_0_0) shapeCasts_S1x9x64_S9x64
/-- Layer 0: the update stage's second bias row. -/
def bu2K0 : FVec Ideal S64 .f32 :=
  shapeCast _ (extractStridedSlice S1x64 ![0, 0] (m ((c : Thread nD τ).loc main_arg15)) slices_S2x64_S1x64_0_0) shapeCasts_S1x64_S64
/-- Layer 1: the message stage's first weight matrix (129 rows). -/
def W129K1 : FVec Ideal S129x64 .f32 :=
  shapeCast _ (extractStridedSlice S1x129x64 ![1, 0, 0] (m ((c : Thread nD τ).loc main_arg4)) slices_S2x129x64_S1x129x64_1_0_0) shapeCasts_S1x129x64_S129x64
/-- Layer 1: the message stage's first attribute matrix. -/
def V1K1 : FVec Ideal S9x64 .f32 :=
  shapeCast _ (extractStridedSlice S1x9x64 ![1, 0, 0] (m ((c : Thread nD τ).loc main_arg5)) slices_S2x9x64_S1x9x64_1_0_0) shapeCasts_S1x9x64_S9x64
/-- Layer 1: the message stage's first bias row. -/
def b1K1 : FVec Ideal S64 .f32 :=
  shapeCast _ (extractStridedSlice S1x64 ![1, 0] (m ((c : Thread nD τ).loc main_arg6)) slices_S2x64_S1x64_1_0) shapeCasts_S1x64_S64
/-- Layer 1: the message stage's second weight matrix. -/
def W2K1 : FVec Ideal S64x64 .f32 :=
  shapeCast _ (extractStridedSlice S1x64x64 ![1, 0, 0] (m ((c : Thread nD τ).loc main_arg7)) slices_S2x64x64_S1x64x64_1_0_0) shapeCasts_S1x64x64_S64x64
/-- Layer 1: the message stage's second attribute matrix. -/
def V2K1 : FVec Ideal S9x64 .f32 :=
  shapeCast _ (extractStridedSlice S1x9x64 ![1, 0, 0] (m ((c : Thread nD τ).loc main_arg8)) slices_S2x9x64_S1x9x64_1_0_0) shapeCasts_S1x9x64_S9x64
/-- Layer 1: the message stage's second bias row. -/
def b2K1 : FVec Ideal S64 .f32 :=
  shapeCast _ (extractStridedSlice S1x64 ![1, 0] (m ((c : Thread nD τ).loc main_arg9)) slices_S2x64_S1x64_1_0) shapeCasts_S1x64_S64
/-- Layer 1: the update stage's first weight matrix. -/
def Wu1K1 : FVec Ideal S128x64 .f32 :=
  shapeCast _ (extractStridedSlice S1x128x64 ![1, 0, 0] (m ((c : Thread nD τ).loc main_arg10)) slices_S2x128x64_S1x128x64_1_0_0) shapeCasts_S1x128x64_S128x64
/-- Layer 1: the update stage's first attribute matrix. -/
def Vu1K1 : FVec Ideal S9x64 .f32 :=
  shapeCast _ (extractStridedSlice S1x9x64 ![1, 0, 0] (m ((c : Thread nD τ).loc main_arg11)) slices_S2x9x64_S1x9x64_1_0_0) shapeCasts_S1x9x64_S9x64
/-- Layer 1: the update stage's first bias row. -/
def bu1K1 : FVec Ideal S64 .f32 :=
  shapeCast _ (extractStridedSlice S1x64 ![1, 0] (m ((c : Thread nD τ).loc main_arg12)) slices_S2x64_S1x64_1_0) shapeCasts_S1x64_S64
/-- Layer 1: the update stage's second weight matrix. -/
def Wu2K1 : FVec Ideal S64x64 .f32 :=
  shapeCast _ (extractStridedSlice S1x64x64 ![1, 0, 0] (m ((c : Thread nD τ).loc main_arg13)) slices_S2x64x64_S1x64x64_1_0_0) shapeCasts_S1x64x64_S64x64
/-- Layer 1: the update stage's second attribute matrix. -/
def Vu2K1 : FVec Ideal S9x64 .f32 :=
  shapeCast _ (extractStridedSlice S1x9x64 ![1, 0, 0] (m ((c : Thread nD τ).loc main_arg14)) slices_S2x9x64_S1x9x64_1_0_0) shapeCasts_S1x9x64_S9x64
/-- Layer 1: the update stage's second bias row. -/
def bu2K1 : FVec Ideal S64 .f32 :=
  shapeCast _ (extractStridedSlice S1x64 ![1, 0] (m ((c : Thread nD τ).loc main_arg15)) slices_S2x64_S1x64_1_0) shapeCasts_S1x64_S64

/-- The first 128 rows of a 129-row weight matrix: the part that multiplies the two node rows laid side by side. -/
def top128 (W : FVec Ideal S129x64 .f32) : FVec Ideal S128x64 .f32 := extractStridedSlice S128x64 ![0, 0] W slices_S129x64_S128x64_0_0
/-- The last row of a 129-row weight matrix: the part that multiplies the edge's extra feature. -/
def lastRow (W : FVec Ideal S129x64 .f32) : FVec Ideal S64 .f32 := shapeCast _ (extractStridedSlice S1x64 ![128, 0] W slices_S129x64_S1x64_128_0) shapeCasts_S1x64_S64

end Cert.KernelIdeal.Read

end
-- ==== Proof.KernelRead0.lean ====
/-
  What the first launch (the message stage of the first layer) finds in its input arrays.

  Before the first launch the program cuts the edge-index array into its two rows, cuts layer 0's slice out of each of
  the twelve stacked weight arrays (and the 129-row matrix further into its first 128 rows and its last row), and
  gathers the node rows along each of the two edge-index rows, a row whose index falls outside 0..49999 replaced by the
  not-a-number word.  Each fact below says what one buffer holds once these steps have run: a slice is the slice of the
  argument array the program started with, a gathered array is the guarded gather of the node-feature argument along
  the edge-index row, and an argument array no step writes still holds what it held at the start.
-/
import proofs.«416160_j23089744183881_1_alg».proof.Proof.KernelCarry
import proofs.«416160_j23089744183881_1_alg».proof.Proof.KerDefs
import proofs.«416160_j23089744183881_1_alg».proof.Proof.KerWeights

set_option maxRecDepth 16384

noncomputable section

namespace Cert.KernelIdeal.Read

open Idealize.ShloMosaic Idealize.ShloMosaic.TcCoe Idealize.SL.Sem Idealize.ShloMosaic.StableHlo
open Cert.KernelIdeal Cert.KernelIdeal.Gen Cert.KernelIdeal.Keep Cert.KernelIdeal.Layers

variable (m : (ℓ : Loc nD τ sig) → Buf (Elt Ideal) ℓ) (ρ : Dev nD → PrngReg) (c : Dev nD)

/-! ## After the slicing steps -/

set_option maxHeartbeats 2000000 in
/-- After the slicing steps the buffer holds row 1 of the edge-index array, the edges' target nodes. -/
theorem W1_v3 : W1 m ρ c (Proc.devRef .tc main_v3) = dstK m c := by
  show StableHlo.after hostOps0 (W0 m ρ c) (Proc.devRef .tc main_v3) = _
  simp only [hostOps0]
  after_results_simp
  rfl

set_option maxHeartbeats 2000000 in
/-- After the slicing steps the buffer holds row 0 of the edge-index array, the edges' source nodes. -/
theorem W1_v1 : W1 m ρ c (Proc.devRef .tc main_v1) = srcK m c := by
  show StableHlo.after hostOps0 (W0 m ρ c) (Proc.devRef .tc main_v1) = _
  simp only [hostOps0]
  after_results_simp
  rfl

set_option maxHeartbeats 2000000 in
/-- After the slicing steps the buffer holds the first 128 rows of layer 0's 129-row weight matrix. -/
theorem W1_v6 : W1 m ρ c (Proc.devRef .tc main_v6) = top128 (W129K0 m c) := by
  show StableHlo.after hostOps0 (W0 m ρ c) (Proc.devRef .tc main_v6) = _
  simp only [hostOps0]
  after_results_simp
  rfl

set_option maxHeartbeats 2000000 in
/-- After the slicing steps the buffer holds the last row of layer 0's 129-row weight matrix. -/
theorem W1_v8 : W1 m ρ c (Proc.devRef .tc main_v8) = lastRow (W129K0 m c) := by
  show StableHlo.after hostOps0 (W0 m ρ c) (Proc.devRef .tc main_v8) = _
  simp only [hostOps0]
  after_results_simp
  rfl

set_option maxHeartbeats 2000000 in
/-- After the slicing steps the buffer holds layer 0's first attribute matrix of the message stage. -/
theorem W1_v10 : W1 m ρ c (Proc.devRef .tc main_v10) = V1K0 m c := by
  show StableHlo.after hostOps0 (W0 m ρ c) (Proc.devRef .tc main_v10) = _
  simp only [hostOps0]
  after_results_simp
  rfl

set_option maxHeartbeats 2000000 in
/-- After the slicing steps the buffer holds layer 0's first bias row of the message stage. -/
theorem W1_v12 : W1 m ρ c (Proc.devRef .tc main_v12) = b1K0 m c := by
  show StableHlo.after hostOps0 (W0 m ρ c) (Proc.devRef .tc main_v12) = _
  simp only [hostOps0]
  after_results_simp
  rfl

set_option maxHeartbeats 2000000 in
/-- After the slicing steps the buffer holds layer 0's second weight matrix of the message stage. -/
theorem W1_v14 : W1 m ρ c (Proc.devRef .tc main_v14) = W2K0 m c := by
  show StableHlo.after hostOps0 (W0 m ρ c) (Proc.devRef .tc main_v14) = _
  simp only [hostOps0]
  after_results_simp
  rfl

set_option maxHeartbeats 2000000 in
/-- After the slicing steps the buffer holds layer 0's second attribute matrix of the message stage. -/
theorem W1_v16 : W1 m ρ c (Proc.devRef .tc main_v16) = V2K0 m c := by
  show StableHlo.after hostOps0 (W0 m ρ c) (Proc.devRef .tc main_v16) = _
  simp only [hostOps0]
  after_results_simp
  rfl

set_option maxHeartbeats 2000000 in
/-- After the slicing steps the buffer holds layer 0's second bias row of the message stage. -/
theorem W1_v18 : W1 m ρ c (Proc.devRef .tc main_v18) = b2K0 m c := by
  show StableHlo.after hostOps0 (W0 m ρ c) (Proc.devRef .tc main_v18) = _
  simp only [hostOps0]
  after_results_simp
  rfl

set_option maxHeartbeats 2000000 in
/-- After the slicing steps the buffer holds layer 0's first weight matrix of the update stage. -/
theorem W1_v20 : W1 m ρ c (Proc.devRef .tc main_v20) = Wu1K0 m c := by
  show StableHlo.after hostOps0 (W0 m ρ c) (Proc.devRef .tc main_v20) = _
  simp only [hostOps0]
  after_results_simp
  rfl

set_option maxHeartbeats 2000000 in
/-- After the slicing steps the buffer holds layer 0's first attribute matrix of the update stage. -/
theorem W1_v22 : W1 m ρ c (Proc.devRef .tc main_v22) = Vu1K0 m c := by
  show StableHlo.after hostOps0 (W0 m ρ c) (Proc.devRef .tc main_v22) = _
  simp only [hostOps0]
  after_results_simp
  rfl

set_option maxHeartbeats 2000000 in
/-- After the slicing steps the buffer holds layer 0's first bias row of the update stage. -/
theorem W1_v24 : W1 m ρ c (Proc.devRef .tc main_v24) = bu1K0 m c := by
  show StableHlo.after hostOps0 (W0 m ρ c) (Proc.devRef .tc main_v24) = _
  simp only [hostOps0]
  after_results_simp
  rfl

set_option maxHeartbeats 2000000 in
/-- After the slicing steps the buffer holds layer 0's second weight matrix of the update stage. -/
theorem W1_v26 : W1 m ρ c (Proc.devRef .tc main_v26) = Wu2K0 m c := by
  show StableHlo.after hostOps0 (W0 m ρ c) (Proc.devRef .tc main_v26) = _
  simp only [hostOps0]
  after_results_simp
  rfl

set_option maxHeartbeats 2000000 in
/-- After the slicing steps the buffer holds layer 0's second attribute matrix of the update stage. -/
theorem W1_v28 : W1 m ρ c (Proc.devRef .tc main_v28) = Vu2K0 m c := by
  show StableHlo.after hostOps0 (W0 m ρ c) (Proc.devRef .tc main_v28) = _
  simp only [hostOps0]
  after_results_simp
  rfl

set_option maxHeartbeats 2000000 in
/-- After the slicing steps the buffer holds layer 0's second bias row of the update stage. -/
theorem W1_v30 : W1 m ρ c (Proc.devRef .tc main_v30) = bu2K0 m c := by
  show StableHlo.after hostOps0 (W0 m ρ c) (Proc.devRef .tc main_v30) = _
  simp only [hostOps0]
  after_results_simp
  rfl

/-! ## At the first launch's entry: the slices, which the two gathers leave alone -/

/-- At the first launch's entry the buffer still holds row 1 of the edge-index array, the edges' target nodes. -/
theorem W3_v3 : W3 m ρ c (Proc.devRef .tc main_v3) = dstK m c :=
  (W3_keep2 m ρ c main_v3 (by decide)).trans ((W2_keep m ρ c main_v3 (by decide)).trans (W1_v3 m ρ c))

/-- At the first launch's entry the buffer still holds row 0 of the edge-index array, the edges' source nodes. -/
theorem W3_v1 : W3 m ρ c (Proc.devRef .tc main_v1) = srcK m c :=
  (W3_keep2 m ρ c main_v1 (by decide)).trans ((W2_keep m ρ c main_v1 (by decide)).trans (W1_v1 m ρ c))

/-- At the first launch's entry the buffer still holds the first 128 rows of layer 0's 129-row weight matrix. -/
theorem W3_v6 : W3 m ρ c (Proc.devRef .tc main_v6) = top128 (W129K0 m c) :=
  (W3_keep2 m ρ c main_v6 (by decide)).trans ((W2_keep m ρ c main_v6 (by decide)).trans (W1_v6 m ρ c))

/-- At the first launch's entry the buffer still holds the last row of layer 0's 129-row weight matrix. -/
theorem W3_v8 : W3 m ρ c (Proc.devRef .tc main_v8) = lastRow (W129K0 m c) :=
  (W3_keep2 m ρ c main_v8 (by decide)).trans ((W2_keep m ρ c main_v8 (by decide)).trans (W1_v8 m ρ c))

/-- At the first launch's entry the buffer still holds layer 0's first attribute matrix of the message stage. -/
theorem W3_v10 : W3 m ρ c (Proc.devRef .tc main_v10) = V1K0 m c :=
  (W3_keep2 m ρ c main_v10 (by decide)).trans ((W2_keep m ρ c main_v10 (by decide)).trans (W1_v10 m ρ c))

/-- At the first launch's entry the buffer still holds layer 0's first bias row of the message stage. -/
theorem W3_v12 : W3 m ρ c (Proc.devRef .tc main_v12) = b1K0 m c :=
  (W3_keep2 m ρ c main_v12 (by decide)).trans ((W2_keep m ρ c main_v12 (by decide)).trans (W1_v12 m ρ c))

/-- At the first launch's entry the buffer still holds layer 0's second weight matrix of the message stage. -/
theorem W3_v14 : W3 m ρ c (Proc.devRef .tc main_v14) = W2K0 m c :=
  (W3_keep2 m ρ c main_v14 (by decide)).trans ((W2_keep m ρ c main_v14 (by decide)).trans (W1_v14 m ρ c))

/-- At the first launch's entry the buffer still holds layer 0's second attribute matrix of the message stage. -/
theorem W3_v16 : W3 m ρ c (Proc.devRef .tc main_v16) = V2K0 m c :=
  (W3_keep2 m ρ c main_v16 (by decide)).trans ((W2_keep m ρ c main_v16 (by decide)).trans (W1_v16 m ρ c))

/-- At the first launch's entry the buffer still holds layer 0's second bias row of the message stage. -/
theorem W3_v18 : W3 m ρ c (Proc.devRef .tc main_v18) = b2K0 m c :=
  (W3_keep2 m ρ c main_v18 (by decide)).trans ((W2_keep m ρ c main_v18 (by decide)).trans (W1_v18 m ρ c))

/-- At the first launch's entry the buffer still holds layer 0's first weight matrix of the update stage. -/
theorem W3_v20 : W3 m ρ c (Proc.devRef .tc main_v20) = Wu1K0 m c :=
  (W3_keep2 m ρ c main_v20 (by decide)).trans ((W2_keep m ρ c main_v20 (by decide)).trans (W1_v20 m ρ c))

/-- At the first launch's entry the buffer still holds layer 0's first attribute matrix of the update stage. -/
theorem W3_v22 : W3 m ρ c (Proc.devRef .tc main_v22) = Vu1K0 m c :=
  (W3_keep2 m ρ c main_v22 (by decide)).trans ((W2_keep m ρ c main_v22 (by decide)).trans (W1_v22 m ρ c))

/-- At the first launch's entry the buffer still holds layer 0's first bias row of the update stage. -/
theorem W3_v24 : W3 m ρ c (Proc.devRef .tc main_v24) = bu1K0 m c :=
  (W3_keep2 m ρ c main_v24 (by decide)).trans ((W2_keep m ρ c main_v24 (by decide)).trans (W1_v24 m ρ c))

/-- At the first launch's entry the buffer still holds layer 0's second weight matrix of the update stage. -/
theorem W3_v26 : W3 m ρ c (Proc.devRef .tc main_v26) = Wu2K0 m c :=
  (W3_keep2 m ρ c main_v26 (by decide)).trans ((W2_keep m ρ c main_v26 (by decide)).trans (W1_v26 m ρ c))

/-- At the first launch's entry the buffer still holds layer 0's second attribute matrix of the update stage. -/
theorem W3_v28 : W3 m ρ c (Proc.devRef .tc main_v28) = Vu2K0 m c :=
  (W3_keep2 m ρ c main_v28 (by decide)).trans ((W2_keep m ρ c main_v28 (by decide)).trans (W1_v28 m ρ c))

/-- At the first launch's entry the buffer still holds layer 0's second bias row of the update stage. -/
theorem W3_v30 : W3 m ρ c (Proc.devRef .tc main_v30) = bu2K0 m c :=
  (W3_keep2 m ρ c main_v30 (by decide)).trans ((W2_keep m ρ c main_v30 (by decide)).trans (W1_v30 m ρ c))

/-! ## At the first launch's entry: the argument arrays, which no step writes -/

/-- No step before the first launch writes argument 0. -/
theorem W3_arg0 : W3 m ρ c (Proc.devRef .tc main_arg0) = m ((c : Thread nD τ).loc main_arg0) :=
  (W3_keep m ρ c main_arg0 (by decide) (by decide) (by decide)).trans rfl

/-- No step before the first launch writes argument 1. -/
theorem W3_arg1 : W3 m ρ c (Proc.devRef .tc main_arg1) = m ((c : Thread nD τ).loc main_arg1) :=
  (W3_keep m ρ c main_arg1 (by decide) (by decide) (by decide)).trans rfl

/-- No step before the first launch writes argument 2. -/
theorem W3_arg2 : W3 m ρ c (Proc.devRef .tc main_arg2) = m ((c : Thread nD τ).loc main_arg2) :=
  (W3_keep m ρ c main_arg2 (by decide) (by decide) (by decide)).trans rfl

/-- No step before the first launch writes argument 3. -/
theorem W3_arg3 : W3 m ρ c (Proc.devRef .tc main_arg3) = m ((c : Thread nD τ).loc main_arg3) :=
  (W3_keep m ρ c main_arg3 (by decide) (by decide) (by decide)).trans rfl

/-- No step before the first launch writes argument 4. -/
theorem W3_arg4 : W3 m ρ c (Proc.devRef .tc main_arg4) = m ((c : Thread nD τ).loc main_arg4) :=
  (W3_keep m ρ c main_arg4 (by decide) (by decide) (by decide)).trans rfl

/-- No step before the first launch writes argument 5. -/
theorem W3_arg5 : W3 m ρ c (Proc.devRef .tc main_arg5) = m ((c : Thread nD τ).loc main_arg5) :=
  (W3_keep m ρ c main_arg5 (by decide) (by decide) (by decide)).trans rfl

/-- No step before the first launch writes argument 6. -/
theorem W3_arg6 : W3 m ρ c (Proc.devRef .tc main_arg6) = m ((c : Thread nD τ).loc main_arg6) :=
  (W3_keep m ρ c main_arg6 (by decide) (by decide) (by decide)).trans rfl

/-- No step before the first launch writes argument 7. -/
theorem W3_arg7 : W3 m ρ c (Proc.devRef .tc main_arg7) = m ((c : Thread nD τ).loc main_arg7) :=
  (W3_keep m ρ c main_arg7 (by decide) (by decide) (by decide)).trans rfl

/-- No step before the first launch writes argument 8. -/
theorem W3_arg8 : W3 m ρ c (Proc.devRef .tc main_arg8) = m ((c : Thread nD τ).loc main_arg8) :=
  (W3_keep m ρ c main_arg8 (by decide) (by decide) (by decide)).trans rfl

/-- No step before the first launch writes argument 9. -/
theorem W3_arg9 : W3 m ρ c (Proc.devRef .tc main_arg9) = m ((c : Thread nD τ).loc main_arg9) :=
  (W3_keep m ρ c main_arg9 (by decide) (by decide) (by decide)).trans rfl

/-- No step before the first launch writes argument 10. -/
theorem W3_arg10 : W3 m ρ c (Proc.devRef .tc main_arg10) = m ((c : Thread nD τ).loc main_arg10) :=
  (W3_keep m ρ c main_arg10 (by decide) (by decide) (by decide)).trans rfl

/-- No step before the first launch writes argument 11. -/
theorem W3_arg11 : W3 m ρ c (Proc.devRef .tc main_arg11) = m ((c : Thread nD τ).loc main_arg11) :=
  (W3_keep m ρ c main_arg11 (by decide) (by decide) (by decide)).trans rfl

/-- No step before the first launch writes argument 12. -/
theorem W3_arg12 : W3 m ρ c (Proc.devRef .tc main_arg12) = m ((c : Thread nD τ).loc main_arg12) :=
  (W3_keep m ρ c main_arg12 (by decide) (by decide) (by decide)).trans rfl

/-- No step before the first launch writes argument 13. -/
theorem W3_arg13 : W3 m ρ c (Proc.devRef .tc main_arg13) = m ((c : Thread nD τ).loc main_arg13) :=
  (W3_keep m ρ c main_arg13 (by decide) (by decide) (by decide)).trans rfl

/-- No step before the first launch writes argument 14. -/
theorem W3_arg14 : W3 m ρ c (Proc.devRef .tc main_arg14) = m ((c : Thread nD τ).loc main_arg14) :=
  (W3_keep m ρ c main_arg14 (by decide) (by decide) (by decide)).trans rfl

/-- No step before the first launch writes argument 15. -/
theorem W3_arg15 : W3 m ρ c (Proc.devRef .tc main_arg15) = m ((c : Thread nD τ).loc main_arg15) :=
  (W3_keep m ρ c main_arg15 (by decide) (by decide) (by decide)).trans rfl

/-! ## The two gathers

Each gather is written over references that carry the type of the value they hold; a value moved to such a
reference's buffer type and back is the value, and at a literal reference the move is the identity. -/

/-- A value moved to a typed reference's buffer type and back is the value. -/
theorem ofBuf_toBuf0 {T : BufTy} (x : StableHlo.TRef sig T) (v : T.Contents (Elt Ideal)) : x.ofBuf (x.toBuf v) = v := by
  obtain ⟨r, h, _, _⟩ := x
  subst h
  rfl

/-- Reading the target-node row's buffer at its own type is the identity. -/
theorem ofBuf0_v3 (p : main_v3.ty = ⟨S800000, .i32⟩) (q : main_v3.space ≠ .host) (r : main_v3.isScoped = false)
    (v : IVec S800000 32) : (StableHlo.TRef.of main_v3 p q r).ofBuf (Val := Elt Ideal) v = v := rfl
/-- Reading the source-node row's buffer at its own type is the identity. -/
theorem ofBuf0_v1 (p : main_v1.ty = ⟨S800000, .i32⟩) (q : main_v1.space ≠ .host) (r : main_v1.isScoped = false)
    (v : IVec S800000 32) : (StableHlo.TRef.of main_v1 p q r).ofBuf (Val := Elt Ideal) v = v := rfl
/-- Reading the node-feature argument's buffer at its own type is the identity. -/
theorem ofBuf0_arg0 (p : main_arg0.ty = ⟨S50000x64, .f32⟩) (q : main_arg0.space ≠ .host) (r : main_arg0.isScoped = false)
    (v : FVec Ideal S50000x64 .f32) : (StableHlo.TRef.of main_arg0 p q r).ofBuf (Val := Elt Ideal) v = v := rfl
/-- Writing the first gather's result at its own type is the identity. -/
theorem toBuf0_v31 (p : main_v31.ty = ⟨S800000x64, .f32⟩) (q : main_v31.space ≠ .host) (r : main_v31.isScoped = false)
    (v : FVec Ideal S800000x64 .f32) : (StableHlo.TRef.of main_v31 p q r).toBuf (Val := Elt Ideal) v = v := rfl
/-- Writing the second gather's result at its own type is the identity. -/
theorem toBuf0_v32 (p : main_v32.ty = ⟨S800000x64, .f32⟩) (q : main_v32.space ≠ .host) (r : main_v32.isScoped = false)
    (v : FVec Ideal S800000x64 .f32) : (StableHlo.TRef.of main_v32 p q r).toBuf (Val := Elt Ideal) v = v := rfl

set_option maxHeartbeats 2000000 in
/-- After the first gather its result is the guarded gather of the node features along the target-node row. -/
theorem W2_v31 : W2 m ρ c (Proc.devRef .tc main_v31) = takeK (m ((c : Thread nD τ).loc main_arg0)) (dstK m c) := by
  show StableHlo.after hostOps0_1 (W1 m ρ c) (Proc.devRef .tc main_v31) = _
  have h3 := W1_v3 m ρ c
  have h0 : W1 m ρ c (Proc.devRef .tc main_arg0) = m ((c : Thread nD τ).loc main_arg0) :=
    (W1_keep m ρ c main_arg0 (by decide)).trans rfl
  generalize W1 m ρ c = U at h3 h0 ⊢
  simp only [hostOps0_1]
  after_results_simp
  simp only [ofBuf_toBuf0]
  rw [h3, h0, toBuf0_v31, ofBuf0_v3, ofBuf0_arg0]
  unfold takeK inRange wrapIdx
  rfl

set_option maxHeartbeats 2000000 in
/-- After the second gather its result is the guarded gather of the node features along the source-node row. -/
theorem W3_v32 : W3 m ρ c (Proc.devRef .tc main_v32) = takeK (m ((c : Thread nD τ).loc main_arg0)) (srcK m c) := by
  show StableHlo.after hostOps0_2 (W2 m ρ c) (Proc.devRef .tc main_v32) = _
  have h1 : W2 m ρ c (Proc.devRef .tc main_v1) = srcK m c :=
    (W2_keep m ρ c main_v1 (by decide)).trans (W1_v1 m ρ c)
  have h0 : W2 m ρ c (Proc.devRef .tc main_arg0) = m ((c : Thread nD τ).loc main_arg0) :=
    (W2_keep m ρ c main_arg0 (by decide)).trans ((W1_keep m ρ c main_arg0 (by decide)).trans rfl)
  generalize W2 m ρ c = U at h1 h0 ⊢
  simp only [hostOps0_2]
  after_results_simp
  simp only [ofBuf_toBuf0]
  rw [h1, h0, toBuf0_v32, ofBuf0_v1, ofBuf0_arg0]
  unfold takeK inRange wrapIdx
  rfl

/-! ## The first launch's eleven input arrays -/

/-- The node rows gathered along the target-node row. -/
theorem V3_v31 : V3 m ρ c main_v31 = takeK (m ((c : Thread nD τ).loc main_arg0)) (dstK m c) :=
  (W3_keep2 m ρ c main_v31 (by decide)).trans (W2_v31 m ρ c)
/-- The node rows gathered along the source-node row. -/
theorem V3_v32 : V3 m ρ c main_v32 = takeK (m ((c : Thread nD τ).loc main_arg0)) (srcK m c) := W3_v32 m ρ c
/-- The edges' extra feature. -/
theorem V3_arg3 : V3 m ρ c main_arg3 = m ((c : Thread nD τ).loc main_arg3) := W3_arg3 m ρ c
/-- The edges' nine attributes. -/
theorem V3_arg1 : V3 m ρ c main_arg1 = m ((c : Thread nD τ).loc main_arg1) := W3_arg1 m ρ c
/-- The first 128 rows of layer 0's 129-row weight matrix. -/
theorem V3_v6 : V3 m ρ c main_v6 = top128 (W129K0 m c) := W3_v6 m ρ c
/-- The last row of layer 0's 129-row weight matrix. -/
theorem V3_v8 : V3 m ρ c main_v8 = lastRow (W129K0 m c) := W3_v8 m ρ c
/-- Layer 0's first attribute matrix of the message stage. -/
theorem V3_v10 : V3 m ρ c main_v10 = V1K0 m c := W3_v10 m ρ c
/-- Layer 0's first bias row of the message stage. -/
theorem V3_v12 : V3 m ρ c main_v12 = b1K0 m c := W3_v12 m ρ c
/-- Layer 0's second weight matrix of the message stage. -/
theorem V3_v14 : V3 m ρ c main_v14 = W2K0 m c := W3_v14 m ρ c
/-- Layer 0's second attribute matrix of the message stage. -/
theorem V3_v16 : V3 m ρ c main_v16 = V2K0 m c := W3_v16 m ρ c
/-- Layer 0's second bias row of the message stage. -/
theorem V3_v18 : V3 m ρ c main_v18 = b2K0 m c := W3_v18 m ρ c

end Cert.KernelIdeal.Read

end
-- ==== Proof.KernelRead1.lean ====
/-
  What the second launch — the first layer's update kernel — finds in its nine input arrays.

  Between the first launch's exit and the second launch's entry the program runs one stretch of host operations: a zero
  array of 50000 x 64 numbers, the target-node row of the edge-index array as a column, and the sum of the first launch's
  800000 x 64 messages into their target nodes.  So at the second launch's entry

    * the summed-messages array holds aggK of the target-node row and of what the first launch left in its output array;
    * every other input array of the second launch — the node features, the node attributes, the six weight slices of
      the first layer's update stage — is written neither by the first launch (whose only output is the messages array)
      nor by that stretch, and holds what it held at the first launch's entry.

  What the buffers held at the first launch's entry is taken as a hypothesis, theorem by theorem.
-/
import proofs.«416160_j23089744183881_1_alg».proof.Proof.KernelCarry
import proofs.«416160_j23089744183881_1_alg».proof.Proof.KerDefs
import proofs.«416160_j23089744183881_1_alg».proof.Proof.KerWeights
import Idealize.ShloMosaic.Lib.StableHlo.Run

set_option maxRecDepth 16384

noncomputable section

namespace Cert.KernelIdeal.Read

open Idealize.ShloMosaic Idealize.ShloMosaic.TcCoe Idealize.SL.Sem Idealize.ShloMosaic.StableHlo
open Cert.KernelIdeal Cert.KernelIdeal.Gen Cert.KernelIdeal.Keep Cert.KernelIdeal.Layers

variable (m : (ℓ : Loc nD τ sig) → Buf (Elt Ideal) ℓ) (ρ : Dev nD → PrngReg) (c : Dev nD)

/-- A buffer that is neither the first launch's output array nor written by the stretch after it holds at the second
    launch's entry what it held at the first launch's entry. -/
theorem W5_carry (r : Ref sig .tc) (h1 : r ∉ WL1) (h : r ≠ main_v33) :
    W5 m ρ c (Proc.devRef .tc r) = W3 m ρ c (Proc.devRef .tc r) :=
  (W5_keep m ρ c r h1).trans (W4_eq m ρ c r h)

/-- The target-node row of the edge-index array is still there. -/
theorem W5_v3 (h3_v3 : W3 m ρ c (Proc.devRef .tc main_v3) = dstK m c) :
    W5 m ρ c (Proc.devRef .tc main_v3) = dstK m c :=
  (W5_carry m ρ c main_v3 (by decide) (by decide)).trans h3_v3

/-- The node features are the program's first argument. -/
theorem V5_arg0 (h3_arg0 : W3 m ρ c (Proc.devRef .tc main_arg0) = m ((c : Thread nD τ).loc main_arg0)) :
    V5 m ρ c main_arg0 = m ((c : Thread nD τ).loc main_arg0) :=
  (W5_carry m ρ c main_arg0 (by decide) (by decide)).trans h3_arg0

set_option maxHeartbeats 2000000 in
/-- The summed messages: the first launch's output array, summed into the target nodes from a zero array. -/
theorem V5_v36 (h3_v3 : W3 m ρ c (Proc.devRef .tc main_v3) = dstK m c) :
    V5 m ρ c main_v36 = aggK (dstK m c) ((dat0 (V3 m ρ) c).arrAt 11 cfg0.N) := by
  show StableHlo.after hostOps1 (W4 m ρ c) (Proc.devRef .tc main_v36) = _
  simp only [hostOps1]
  after_results_simp
  rw [W4_eq m ρ c main_v3 (by decide), h3_v3, W4_out]
  rfl

/-- The node attributes are the program's third argument. -/
theorem V5_arg2 (h3_arg2 : W3 m ρ c (Proc.devRef .tc main_arg2) = m ((c : Thread nD τ).loc main_arg2)) :
    V5 m ρ c main_arg2 = m ((c : Thread nD τ).loc main_arg2) :=
  (W5_carry m ρ c main_arg2 (by decide) (by decide)).trans h3_arg2

/-- The first layer's update stage: its first weight matrix. -/
theorem V5_v20 (h3_v20 : W3 m ρ c (Proc.devRef .tc main_v20) = Wu1K0 m c) : V5 m ρ c main_v20 = Wu1K0 m c :=
  (W5_carry m ρ c main_v20 (by decide) (by decide)).trans h3_v20
/-- Its first attribute matrix. -/
theorem V5_v22 (h3_v22 : W3 m ρ c (Proc.devRef .tc main_v22) = Vu1K0 m c) : V5 m ρ c main_v22 = Vu1K0 m c :=
  (W5_carry m ρ c main_v22 (by decide) (by decide)).trans h3_v22
/-- Its first bias row. -/
theorem V5_v24 (h3_v24 : W3 m ρ c (Proc.devRef .tc main_v24) = bu1K0 m c) : V5 m ρ c main_v24 = bu1K0 m c :=
  (W5_carry m ρ c main_v24 (by decide) (by decide)).trans h3_v24
/-- Its second weight matrix. -/
theorem V5_v26 (h3_v26 : W3 m ρ c (Proc.devRef .tc main_v26) = Wu2K0 m c) : V5 m ρ c main_v26 = Wu2K0 m c :=
  (W5_carry m ρ c main_v26 (by decide) (by decide)).trans h3_v26
/-- Its second attribute matrix. -/
theorem V5_v28 (h3_v28 : W3 m ρ c (Proc.devRef .tc main_v28) = Vu2K0 m c) : V5 m ρ c main_v28 = Vu2K0 m c :=
  (W5_carry m ρ c main_v28 (by decide) (by decide)).trans h3_v28
/-- Its second bias row. -/
theorem V5_v30 (h3_v30 : W3 m ρ c (Proc.devRef .tc main_v30) = bu2K0 m c) : V5 m ρ c main_v30 = bu2K0 m c :=
  (W5_carry m ρ c main_v30 (by decide) (by decide)).trans h3_v30

end Cert.KernelIdeal.Read

end
-- ==== Proof.KernelRead2.lean ====
/-
  What the message stage of the second layer finds in its input arrays.

  The program runs its two layers one after the other; the second layer's message stage starts from the node features
  X1 that the first layer's update stage left.  Before it starts, the program has gathered the rows of X1 along the two
  edge-index rows (targets and sources), a row replaced by the not-a-number word where its wrapped index is out of
  range, and has cut layer 1's slices out of the stacked weight arrays.  The edge-index rows, the edges' attributes and
  extra feature and the stacked weight arrays themselves are written by no step in between, so they hold at this point
  what they held when the first layer's message stage started.
-/
import proofs.«416160_j23089744183881_1_alg».proof.Proof.KernelCarry
import proofs.«416160_j23089744183881_1_alg».proof.Proof.KerDefs
import proofs.«416160_j23089744183881_1_alg».proof.Proof.KerWeights

set_option maxRecDepth 16384

noncomputable section

namespace Cert.KernelIdeal.Read

open Idealize.ShloMosaic Idealize.ShloMosaic.TcCoe Idealize.SL.Sem Idealize.ShloMosaic.StableHlo
open Cert.KernelIdeal Cert.KernelIdeal.Gen Cert.KernelIdeal.Keep Cert.KernelIdeal.Layers

variable (m : (ℓ : Loc nD τ sig) → Buf (Elt Ideal) ℓ) (ρ : Dev nD → PrngReg) (c : Dev nD)

/-! ## From the first launch's entry to the second launch's exit

Neither the first two launches nor the host steps between them write the edge-index rows or the argument arrays. -/

/-- The edges' target nodes. -/
theorem W6_v3 (h3_v3 : W3 m ρ c (Proc.devRef .tc main_v3) = dstK m c) :
    W6 m ρ c (Proc.devRef .tc main_v3) = dstK m c :=
  (W6_eq m ρ c main_v3 (by decide)).trans ((W5_keep m ρ c main_v3 (by decide)).trans
    ((W4_eq m ρ c main_v3 (by decide)).trans h3_v3))

/-- The edges' source nodes. -/
theorem W6_v1 (h3_v1 : W3 m ρ c (Proc.devRef .tc main_v1) = srcK m c) :
    W6 m ρ c (Proc.devRef .tc main_v1) = srcK m c :=
  (W6_eq m ρ c main_v1 (by decide)).trans ((W5_keep m ρ c main_v1 (by decide)).trans
    ((W4_eq m ρ c main_v1 (by decide)).trans h3_v1))

/-- Argument 1: the edges' nine attributes. -/
theorem W6_arg1 (h3_arg1 : W3 m ρ c (Proc.devRef .tc main_arg1) = m ((c : Thread nD τ).loc main_arg1)) :
    W6 m ρ c (Proc.devRef .tc main_arg1) = m ((c : Thread nD τ).loc main_arg1) :=
  (W6_eq m ρ c main_arg1 (by decide)).trans ((W5_keep m ρ c main_arg1 (by decide)).trans
    ((W4_eq m ρ c main_arg1 (by decide)).trans h3_arg1))

/-- Argument 3: the edges' one extra feature. -/
theorem W6_arg3 (h3_arg3 : W3 m ρ c (Proc.devRef .tc main_arg3) = m ((c : Thread nD τ).loc main_arg3)) :
    W6 m ρ c (Proc.devRef .tc main_arg3) = m ((c : Thread nD τ).loc main_arg3) :=
  (W6_eq m ρ c main_arg3 (by decide)).trans ((W5_keep m ρ c main_arg3 (by decide)).trans
    ((W4_eq m ρ c main_arg3 (by decide)).trans h3_arg3))

/-- Argument 4: the stacked first weight matrices of the message stage. -/
theorem W6_arg4 (h3_arg4 : W3 m ρ c (Proc.devRef .tc main_arg4) = m ((c : Thread nD τ).loc main_arg4)) :
    W6 m ρ c (Proc.devRef .tc main_arg4) = m ((c : Thread nD τ).loc main_arg4) :=
  (W6_eq m ρ c main_arg4 (by decide)).trans ((W5_keep m ρ c main_arg4 (by decide)).trans
    ((W4_eq m ρ c main_arg4 (by decide)).trans h3_arg4))

/-- Argument 5: the stacked first attribute matrices of the message stage. -/
theorem W6_arg5 (h3_arg5 : W3 m ρ c (Proc.devRef .tc main_arg5) = m ((c : Thread nD τ).loc main_arg5)) :
    W6 m ρ c (Proc.devRef .tc main_arg5) = m ((c : Thread nD τ).loc main_arg5) :=
  (W6_eq m ρ c main_arg5 (by decide)).trans ((W5_keep m ρ c main_arg5 (by decide)).trans
    ((W4_eq m ρ c main_arg5 (by decide)).trans h3_arg5))

/-- Argument 6: the stacked first bias rows of the message stage. -/
theorem W6_arg6 (h3_arg6 : W3 m ρ c (Proc.devRef .tc main_arg6) = m ((c : Thread nD τ).loc main_arg6)) :
    W6 m ρ c (Proc.devRef .tc main_arg6) = m ((c : Thread nD τ).loc main_arg6) :=
  (W6_eq m ρ c main_arg6 (by decide)).trans ((W5_keep m ρ c main_arg6 (by decide)).trans
    ((W4_eq m ρ c main_arg6 (by decide)).trans h3_arg6))

/-- Argument 7: the stacked second weight matrices of the message stage. -/
theorem W6_arg7 (h3_arg7 : W3 m ρ c (Proc.devRef .tc main_arg7) = m ((c : Thread nD τ).loc main_arg7)) :
    W6 m ρ c (Proc.devRef .tc main_arg7) = m ((c : Thread nD τ).loc main_arg7) :=
  (W6_eq m ρ c main_arg7 (by decide)).trans ((W5_keep m ρ c main_arg7 (by decide)).trans
    ((W4_eq m ρ c main_arg7 (by decide)).trans h3_arg7))

/-- Argument 8: the stacked second attribute matrices of the message stage. -/
theorem W6_arg8 (h3_arg8 : W3 m ρ c (Proc.devRef .tc main_arg8) = m ((c : Thread nD τ).loc main_arg8)) :
    W6 m ρ c (Proc.devRef .tc main_arg8) = m ((c : Thread nD τ).loc main_arg8) :=
  (W6_eq m ρ c main_arg8 (by decide)).trans ((W5_keep m ρ c main_arg8 (by decide)).trans
    ((W4_eq m ρ c main_arg8 (by decide)).trans h3_arg8))

/-- Argument 9: the stacked second bias rows of the message stage. -/
theorem W6_arg9 (h3_arg9 : W3 m ρ c (Proc.devRef .tc main_arg9) = m ((c : Thread nD τ).loc main_arg9)) :
    W6 m ρ c (Proc.devRef .tc main_arg9) = m ((c : Thread nD τ).loc main_arg9) :=
  (W6_eq m ρ c main_arg9 (by decide)).trans ((W5_keep m ρ c main_arg9 (by decide)).trans
    ((W4_eq m ρ c main_arg9 (by decide)).trans h3_arg9))

/-! ## A typed reference's transport is the identity

A host step of a module-local function reads and writes its buffers through references that carry the tensor type; the
value moved to the buffer's own type and back is the value. -/

/-- Moved to the buffer's type and back. -/
theorem ofBuf_toBuf {Val : EltTy → Type} {T : BufTy} (x : TRef sig T) (v : T.Contents Val) : x.ofBuf (x.toBuf v) = v := by
  obtain ⟨r, h, _, _⟩ := x
  subst h
  rfl

/-- Read from the buffer of the edges' target row. -/
theorem ofBuf_v3 (p : main_v3.ty = ⟨S800000, .i32⟩) (q : main_v3.space ≠ .host) (r : main_v3.isScoped = false)
    (v : IVec S800000 32) : (TRef.of main_v3 p q r).ofBuf (Val := Elt Ideal) v = v := rfl

/-- Read from the buffer of the edges' source row. -/
theorem ofBuf_v1 (p : main_v1.ty = ⟨S800000, .i32⟩) (q : main_v1.space ≠ .host) (r : main_v1.isScoped = false)
    (v : IVec S800000 32) : (TRef.of main_v1 p q r).ofBuf (Val := Elt Ideal) v = v := rfl

/-- Read from the buffer of the first layer's new node features. -/
theorem ofBuf_v37 (p : main_v37.ty = ⟨S50000x64, .f32⟩) (q : main_v37.space ≠ .host) (r : main_v37.isScoped = false)
    (v : FVec Ideal S50000x64 .f32) : (TRef.of main_v37 p q r).ofBuf (Val := Elt Ideal) v = v := rfl

/-- Written to the buffer of the rows gathered along the target row. -/
theorem toBuf_v65 (p : main_v65.ty = ⟨S800000x64, .f32⟩) (q : main_v65.space ≠ .host) (r : main_v65.isScoped = false)
    (v : FVec Ideal S800000x64 .f32) : (TRef.of main_v65 p q r).toBuf (Val := Elt Ideal) v = v := rfl

/-- Written to the buffer of the rows gathered along the source row. -/
theorem toBuf_v66 (p : main_v66.ty = ⟨S800000x64, .f32⟩) (q : main_v66.space ≠ .host) (r : main_v66.isScoped = false)
    (v : FVec Ideal S800000x64 .f32) : (TRef.of main_v66 p q r).toBuf (Val := Elt Ideal) v = v := rfl

/-! ## The gathered node rows -/

set_option maxHeartbeats 2000000 in
/-- After the first gather: the rows of X1 along the target row. -/
theorem W8_v65 (h3_v3 : W3 m ρ c (Proc.devRef .tc main_v3) = dstK m c) :
    W8 m ρ c (Proc.devRef .tc main_v65) = takeK ((dat1 (V5 m ρ) c).arrAt 9 cfg1.N) (dstK m c) := by
  show StableHlo.after hostOps2_1 (W7 m ρ c) (Proc.devRef .tc main_v65) = _
  simp only [hostOps2_1]
  after_results_simp
  rw [W6_out m ρ c, W6_v3 m ρ c h3_v3]
  simp only [ofBuf_toBuf]
  rw [toBuf_v65, ofBuf_v3, ofBuf_v37]
  unfold takeK inRange wrapIdx
  rfl

/-- At the third launch's entry: the rows of X1 along the target row. -/
theorem V9_v65 (h3_v3 : W3 m ρ c (Proc.devRef .tc main_v3) = dstK m c) :
    V9 m ρ c main_v65 = takeK ((dat1 (V5 m ρ) c).arrAt 9 cfg1.N) (dstK m c) :=
  (W9_keep2 m ρ c main_v65 (by decide)).trans (W8_v65 m ρ c h3_v3)

set_option maxHeartbeats 2000000 in
/-- At the third launch's entry: the rows of X1 along the source row. -/
theorem V9_v66 (h3_v1 : W3 m ρ c (Proc.devRef .tc main_v1) = srcK m c) :
    V9 m ρ c main_v66 = takeK ((dat1 (V5 m ρ) c).arrAt 9 cfg1.N) (srcK m c) := by
  show StableHlo.after hostOps2_2 (W8 m ρ c) (Proc.devRef .tc main_v66) = _
  simp only [hostOps2_2]
  after_results_simp
  rw [W6_out m ρ c, W6_v1 m ρ c h3_v1]
  simp only [ofBuf_toBuf]
  rw [toBuf_v66, ofBuf_v1, ofBuf_v37]
  unfold takeK inRange wrapIdx
  rfl

/-! ## The edges' own arrays -/

/-- The edges' one extra feature. -/
theorem V9_arg3 (h3_arg3 : W3 m ρ c (Proc.devRef .tc main_arg3) = m ((c : Thread nD τ).loc main_arg3)) :
    V9 m ρ c main_arg3 = m ((c : Thread nD τ).loc main_arg3) :=
  (W9_keep m ρ c main_arg3 (by decide) (by decide) (by decide)).trans (W6_arg3 m ρ c h3_arg3)

/-- The edges' nine attributes. -/
theorem V9_arg1 (h3_arg1 : W3 m ρ c (Proc.devRef .tc main_arg1) = m ((c : Thread nD τ).loc main_arg1)) :
    V9 m ρ c main_arg1 = m ((c : Thread nD τ).loc main_arg1) :=
  (W9_keep m ρ c main_arg1 (by decide) (by decide) (by decide)).trans (W6_arg1 m ρ c h3_arg1)

/-! ## Layer 1's slices of the message stage's weight arrays -/

set_option maxHeartbeats 2000000 in
/-- After the slicing step: the first 128 rows of the first weight matrix. -/
theorem W7_v40 (h3_arg4 : W3 m ρ c (Proc.devRef .tc main_arg4) = m ((c : Thread nD τ).loc main_arg4)) :
    W7 m ρ c (Proc.devRef .tc main_v40) = top128 (W129K1 m c) := by
  show StableHlo.after hostOps2 (W6 m ρ c) (Proc.devRef .tc main_v40) = _
  simp only [hostOps2]
  after_results_simp
  rw [W6_arg4 m ρ c h3_arg4]
  rfl

/-- At the third launch's entry: the first 128 rows of the first weight matrix. -/
theorem V9_v40 (h3_arg4 : W3 m ρ c (Proc.devRef .tc main_arg4) = m ((c : Thread nD τ).loc main_arg4)) :
    V9 m ρ c main_v40 = top128 (W129K1 m c) :=
  (W9_keep2 m ρ c main_v40 (by decide)).trans ((W8_keep m ρ c main_v40 (by decide)).trans (W7_v40 m ρ c h3_arg4))

set_option maxHeartbeats 2000000 in
/-- After the slicing step: the last row of the first weight matrix. -/
theorem W7_v42 (h3_arg4 : W3 m ρ c (Proc.devRef .tc main_arg4) = m ((c : Thread nD τ).loc main_arg4)) :
    W7 m ρ c (Proc.devRef .tc main_v42) = lastRow (W129K1 m c) := by
  show StableHlo.after hostOps2 (W6 m ρ c) (Proc.devRef .tc main_v42) = _
  simp only [hostOps2]
  after_results_simp
  rw [W6_arg4 m ρ c h3_arg4]
  rfl

/-- At the third launch's entry: the last row of the first weight matrix. -/
theorem V9_v42 (h3_arg4 : W3 m ρ c (Proc.devRef .tc main_arg4) = m ((c : Thread nD τ).loc main_arg4)) :
    V9 m ρ c main_v42 = lastRow (W129K1 m c) :=
  (W9_keep2 m ρ c main_v42 (by decide)).trans ((W8_keep m ρ c main_v42 (by decide)).trans (W7_v42 m ρ c h3_arg4))

set_option maxHeartbeats 2000000 in
/-- After the slicing step: the first attribute matrix. -/
theorem W7_v44 (h3_arg5 : W3 m ρ c (Proc.devRef .tc main_arg5) = m ((c : Thread nD τ).loc main_arg5)) :
    W7 m ρ c (Proc.devRef .tc main_v44) = V1K1 m c := by
  show StableHlo.after hostOps2 (W6 m ρ c) (Proc.devRef .tc main_v44) = _
  simp only [hostOps2]
  after_results_simp
  rw [W6_arg5 m ρ c h3_arg5]
  rfl

/-- At the third launch's entry: the first attribute matrix. -/
theorem V9_v44 (h3_arg5 : W3 m ρ c (Proc.devRef .tc main_arg5) = m ((c : Thread nD τ).loc main_arg5)) :
    V9 m ρ c main_v44 = V1K1 m c :=
  (W9_keep2 m ρ c main_v44 (by decide)).trans ((W8_keep m ρ c main_v44 (by decide)).trans (W7_v44 m ρ c h3_arg5))

set_option maxHeartbeats 2000000 in
/-- After the slicing step: the first bias row. -/
theorem W7_v46 (h3_arg6 : W3 m ρ c (Proc.devRef .tc main_arg6) = m ((c : Thread nD τ).loc main_arg6)) :
    W7 m ρ c (Proc.devRef .tc main_v46) = b1K1 m c := by
  show StableHlo.after hostOps2 (W6 m ρ c) (Proc.devRef .tc main_v46) = _
  simp only [hostOps2]
  after_results_simp
  rw [W6_arg6 m ρ c h3_arg6]
  rfl

/-- At the third launch's entry: the first bias row. -/
theorem V9_v46 (h3_arg6 : W3 m ρ c (Proc.devRef .tc main_arg6) = m ((c : Thread nD τ).loc main_arg6)) :
    V9 m ρ c main_v46 = b1K1 m c :=
  (W9_keep2 m ρ c main_v46 (by decide)).trans ((W8_keep m ρ c main_v46 (by decide)).trans (W7_v46 m ρ c h3_arg6))

set_option maxHeartbeats 2000000 in
/-- After the slicing step: the second weight matrix. -/
theorem W7_v48 (h3_arg7 : W3 m ρ c (Proc.devRef .tc main_arg7) = m ((c : Thread nD τ).loc main_arg7)) :
    W7 m ρ c (Proc.devRef .tc main_v48) = W2K1 m c := by
  show StableHlo.after hostOps2 (W6 m ρ c) (Proc.devRef .tc main_v48) = _
  simp only [hostOps2]
  after_results_simp
  rw [W6_arg7 m ρ c h3_arg7]
  rfl

/-- At the third launch's entry: the second weight matrix. -/
theorem V9_v48 (h3_arg7 : W3 m ρ c (Proc.devRef .tc main_arg7) = m ((c : Thread nD τ).loc main_arg7)) :
    V9 m ρ c main_v48 = W2K1 m c :=
  (W9_keep2 m ρ c main_v48 (by decide)).trans ((W8_keep m ρ c main_v48 (by decide)).trans (W7_v48 m ρ c h3_arg7))

set_option maxHeartbeats 2000000 in
/-- After the slicing step: the second attribute matrix. -/
theorem W7_v50 (h3_arg8 : W3 m ρ c (Proc.devRef .tc main_arg8) = m ((c : Thread nD τ).loc main_arg8)) :
    W7 m ρ c (Proc.devRef .tc main_v50) = V2K1 m c := by
  show StableHlo.after hostOps2 (W6 m ρ c) (Proc.devRef .tc main_v50) = _
  simp only [hostOps2]
  after_results_simp
  rw [W6_arg8 m ρ c h3_arg8]
  rfl

/-- At the third launch's entry: the second attribute matrix. -/
theorem V9_v50 (h3_arg8 : W3 m ρ c (Proc.devRef .tc main_arg8) = m ((c : Thread nD τ).loc main_arg8)) :
    V9 m ρ c main_v50 = V2K1 m c :=
  (W9_keep2 m ρ c main_v50 (by decide)).trans ((W8_keep m ρ c main_v50 (by decide)).trans (W7_v50 m ρ c h3_arg8))

set_option maxHeartbeats 2000000 in
/-- After the slicing step: the second bias row. -/
theorem W7_v52 (h3_arg9 : W3 m ρ c (Proc.devRef .tc main_arg9) = m ((c : Thread nD τ).loc main_arg9)) :
    W7 m ρ c (Proc.devRef .tc main_v52) = b2K1 m c := by
  show StableHlo.after hostOps2 (W6 m ρ c) (Proc.devRef .tc main_v52) = _
  simp only [hostOps2]
  after_results_simp
  rw [W6_arg9 m ρ c h3_arg9]
  rfl

/-- At the third launch's entry: the second bias row. -/
theorem V9_v52 (h3_arg9 : W3 m ρ c (Proc.devRef .tc main_arg9) = m ((c : Thread nD τ).loc main_arg9)) :
    V9 m ρ c main_v52 = b2K1 m c :=
  (W9_keep2 m ρ c main_v52 (by decide)).trans ((W8_keep m ρ c main_v52 (by decide)).trans (W7_v52 m ρ c h3_arg9))

end Cert.KernelIdeal.Read

end
-- ==== Proof.KernelRead3.lean ====
/-
  What the fourth launch (the second layer's update stage) finds in its input arrays.

  Between the program's start and that launch's entry a buffer changes only where a stretch of host operations writes it
  or a launch writes it back as its output array.  So an argument array still holds the launch memory, the row of target
  nodes still holds row 1 of the edge-index array, the second launch's output array is still what that launch left, the
  second layer's weight slices are the slices of the stacked weight arguments, and the summed messages are the sum, into
  their target nodes, of what the third launch left.
-/
import proofs.«416160_j23089744183881_1_alg».proof.Proof.KernelCarry
import proofs.«416160_j23089744183881_1_alg».proof.Proof.KerDefs
import proofs.«416160_j23089744183881_1_alg».proof.Proof.KerWeights

set_option maxRecDepth 16384

noncomputable section

namespace Cert.KernelIdeal.Read

open Idealize.ShloMosaic Idealize.ShloMosaic.TcCoe Idealize.SL.Sem Idealize.ShloMosaic.StableHlo
open Cert.KernelIdeal Cert.KernelIdeal.Gen Cert.KernelIdeal.Keep Cert.KernelIdeal.Layers

variable (m : (ℓ : Loc nD τ sig) → Buf (Elt Ideal) ℓ) (ρ : Dev nD → PrngReg) (c : Dev nD)

/-! ## From the first launch's entry to the second launch's exit -/

/-- A buffer that is the output array of neither of the first two launches, and that the stretch between them does not
    write, holds at the second launch's exit what it held at the first launch's entry. -/
theorem W6_of_W3 (r : Ref sig .tc) (h37 : r ≠ main_v37) (h1 : r ∉ WL1) (h33 : r ≠ main_v33) :
    W6 m ρ c (Proc.devRef .tc r) = W3 m ρ c (Proc.devRef .tc r) :=
  (W6_eq m ρ c r h37).trans ((W5_keep m ρ c r h1).trans (W4_eq m ρ c r h33))

/-- The row of target nodes, at the second launch's exit. -/
theorem W6_v3' (h3_v3 : W3 m ρ c (Proc.devRef .tc main_v3) = dstK m c) : W6 m ρ c (Proc.devRef .tc main_v3) = dstK m c :=
  (W6_of_W3 m ρ c main_v3 (by decide) (by decide) (by decide)).trans h3_v3
/-- Argument 2, at the second launch's exit. -/
theorem W6_arg2' (h3_arg2 : W3 m ρ c (Proc.devRef .tc main_arg2) = m ((c : Thread nD τ).loc main_arg2)) :
    W6 m ρ c (Proc.devRef .tc main_arg2) = m ((c : Thread nD τ).loc main_arg2) :=
  (W6_of_W3 m ρ c main_arg2 (by decide) (by decide) (by decide)).trans h3_arg2
/-- Argument 10, at the second launch's exit. -/
theorem W6_arg10' (h3_arg10 : W3 m ρ c (Proc.devRef .tc main_arg10) = m ((c : Thread nD τ).loc main_arg10)) :
    W6 m ρ c (Proc.devRef .tc main_arg10) = m ((c : Thread nD τ).loc main_arg10) :=
  (W6_of_W3 m ρ c main_arg10 (by decide) (by decide) (by decide)).trans h3_arg10
/-- Argument 11, at the second launch's exit. -/
theorem W6_arg11' (h3_arg11 : W3 m ρ c (Proc.devRef .tc main_arg11) = m ((c : Thread nD τ).loc main_arg11)) :
    W6 m ρ c (Proc.devRef .tc main_arg11) = m ((c : Thread nD τ).loc main_arg11) :=
  (W6_of_W3 m ρ c main_arg11 (by decide) (by decide) (by decide)).trans h3_arg11
/-- Argument 12, at the second launch's exit. -/
theorem W6_arg12' (h3_arg12 : W3 m ρ c (Proc.devRef .tc main_arg12) = m ((c : Thread nD τ).loc main_arg12)) :
    W6 m ρ c (Proc.devRef .tc main_arg12) = m ((c : Thread nD τ).loc main_arg12) :=
  (W6_of_W3 m ρ c main_arg12 (by decide) (by decide) (by decide)).trans h3_arg12
/-- Argument 13, at the second launch's exit. -/
theorem W6_arg13' (h3_arg13 : W3 m ρ c (Proc.devRef .tc main_arg13) = m ((c : Thread nD τ).loc main_arg13)) :
    W6 m ρ c (Proc.devRef .tc main_arg13) = m ((c : Thread nD τ).loc main_arg13) :=
  (W6_of_W3 m ρ c main_arg13 (by decide) (by decide) (by decide)).trans h3_arg13
/-- Argument 14, at the second launch's exit. -/
theorem W6_arg14' (h3_arg14 : W3 m ρ c (Proc.devRef .tc main_arg14) = m ((c : Thread nD τ).loc main_arg14)) :
    W6 m ρ c (Proc.devRef .tc main_arg14) = m ((c : Thread nD τ).loc main_arg14) :=
  (W6_of_W3 m ρ c main_arg14 (by decide) (by decide) (by decide)).trans h3_arg14
/-- Argument 15, at the second launch's exit. -/
theorem W6_arg15' (h3_arg15 : W3 m ρ c (Proc.devRef .tc main_arg15) = m ((c : Thread nD τ).loc main_arg15)) :
    W6 m ρ c (Proc.devRef .tc main_arg15) = m ((c : Thread nD τ).loc main_arg15) :=
  (W6_of_W3 m ρ c main_arg15 (by decide) (by decide) (by decide)).trans h3_arg15

/-! ## From the second launch's exit to the fourth launch's entry -/

/-- A buffer that none of the four stretches after the second launch writes, and that is not the third launch's output
    array, holds at the fourth launch's entry what it held at the second launch's exit. -/
theorem W11_of_W6 (r : Ref sig .tc) (h3 : r ∉ WL3) (h67 : r ≠ main_v67) (h0 : r ∉ WL2) (h1 : r ∉ WL2_1) (h2 : r ∉ WL2_2) :
    W11 m ρ c (Proc.devRef .tc r) = W6 m ρ c (Proc.devRef .tc r) :=
  (W11_keep m ρ c r h3).trans ((W10_eq m ρ c r h67).trans (W9_keep m ρ c r h0 h1 h2))

/-- A buffer that the second layer's weight-slicing stretch writes and nothing later touches holds at the fourth
    launch's entry what that stretch left. -/
theorem W11_of_W7 (r : Ref sig .tc) (h3 : r ∉ WL3) (h67 : r ≠ main_v67) (h2 : r ∉ WL2_2) (h1 : r ∉ WL2_1) :
    W11 m ρ c (Proc.devRef .tc r) = W7 m ρ c (Proc.devRef .tc r) :=
  (W11_keep m ρ c r h3).trans ((W10_eq m ρ c r h67).trans ((W9_keep2 m ρ c r h2).trans (W8_keep m ρ c r h1)))

/-- The second launch's output array is still what that launch left. -/
theorem V11_v37 : V11 m ρ c main_v37 = (dat1 (V5 m ρ) c).arrAt 9 cfg1.N :=
  (W11_of_W6 m ρ c main_v37 (by decide) (by decide) (by decide) (by decide) (by decide)).trans (W6_out m ρ c)

/-- The node features argument still holds the launch memory. -/
theorem V11_arg2 (h3_arg2 : W3 m ρ c (Proc.devRef .tc main_arg2) = m ((c : Thread nD τ).loc main_arg2)) :
    V11 m ρ c main_arg2 = m ((c : Thread nD τ).loc main_arg2) :=
  (W11_of_W6 m ρ c main_arg2 (by decide) (by decide) (by decide) (by decide) (by decide)).trans (W6_arg2' m ρ c h3_arg2)

set_option maxHeartbeats 2000000 in
/-- The summed messages: the third launch's output summed into the target nodes. -/
theorem V11_v70 (h3_v3 : W3 m ρ c (Proc.devRef .tc main_v3) = dstK m c) :
    V11 m ρ c main_v70 = aggK (dstK m c) ((dat2 (V9 m ρ) c).arrAt 11 cfg2.N) := by
  show StableHlo.after hostOps3 (W10 m ρ c) (Proc.devRef .tc main_v70) = _
  simp only [hostOps3]
  after_results_simp
  rw [W10_out m ρ c, W10_eq m ρ c main_v3 (by decide), W9_keep m ρ c main_v3 (by decide) (by decide) (by decide),
    W6_v3' m ρ c h3_v3]
  rfl

/-! ## The second layer's update-stage weight slices -/

set_option maxHeartbeats 2000000 in
/-- After the slicing stretch: the update stage's first weight matrix, layer 1. -/
theorem W7_v54 (h6 : W6 m ρ c (Proc.devRef .tc main_arg10) = m ((c : Thread nD τ).loc main_arg10)) :
    W7 m ρ c (Proc.devRef .tc main_v54) = Wu1K1 m c := by
  show StableHlo.after hostOps2 (W6 m ρ c) (Proc.devRef .tc main_v54) = _
  simp only [hostOps2]
  after_results_simp
  rw [h6]
  rfl
/-- At the fourth launch's entry: the update stage's first weight matrix, layer 1. -/
theorem V11_v54 (h3_arg10 : W3 m ρ c (Proc.devRef .tc main_arg10) = m ((c : Thread nD τ).loc main_arg10)) :
    V11 m ρ c main_v54 = Wu1K1 m c :=
  (W11_of_W7 m ρ c main_v54 (by decide) (by decide) (by decide) (by decide)).trans (W7_v54 m ρ c (W6_arg10' m ρ c h3_arg10))

set_option maxHeartbeats 2000000 in
/-- After the slicing stretch: the update stage's first attribute matrix, layer 1. -/
theorem W7_v56 (h6 : W6 m ρ c (Proc.devRef .tc main_arg11) = m ((c : Thread nD τ).loc main_arg11)) :
    W7 m ρ c (Proc.devRef .tc main_v56) = Vu1K1 m c := by
  show StableHlo.after hostOps2 (W6 m ρ c) (Proc.devRef .tc main_v56) = _
  simp only [hostOps2]
  after_results_simp
  rw [h6]
  rfl
/-- At the fourth launch's entry: the update stage's first attribute matrix, layer 1. -/
theorem V11_v56 (h3_arg11 : W3 m ρ c (Proc.devRef .tc main_arg11) = m ((c : Thread nD τ).loc main_arg11)) :
    V11 m ρ c main_v56 = Vu1K1 m c :=
  (W11_of_W7 m ρ c main_v56 (by decide) (by decide) (by decide) (by decide)).trans (W7_v56 m ρ c (W6_arg11' m ρ c h3_arg11))

set_option maxHeartbeats 2000000 in
/-- After the slicing stretch: the update stage's first bias row, layer 1. -/
theorem W7_v58 (h6 : W6 m ρ c (Proc.devRef .tc main_arg12) = m ((c : Thread nD τ).loc main_arg12)) :
    W7 m ρ c (Proc.devRef .tc main_v58) = bu1K1 m c := by
  show StableHlo.after hostOps2 (W6 m ρ c) (Proc.devRef .tc main_v58) = _
  simp only [hostOps2]
  after_results_simp
  rw [h6]
  rfl
/-- At the fourth launch's entry: the update stage's first bias row, layer 1. -/
theorem V11_v58 (h3_arg12 : W3 m ρ c (Proc.devRef .tc main_arg12) = m ((c : Thread nD τ).loc main_arg12)) :
    V11 m ρ c main_v58 = bu1K1 m c :=
  (W11_of_W7 m ρ c main_v58 (by decide) (by decide) (by decide) (by decide)).trans (W7_v58 m ρ c (W6_arg12' m ρ c h3_arg12))

set_option maxHeartbeats 2000000 in
/-- After the slicing stretch: the update stage's second weight matrix, layer 1. -/
theorem W7_v60 (h6 : W6 m ρ c (Proc.devRef .tc main_arg13) = m ((c : Thread nD τ).loc main_arg13)) :
    W7 m ρ c (Proc.devRef .tc main_v60) = Wu2K1 m c := by
  show StableHlo.after hostOps2 (W6 m ρ c) (Proc.devRef .tc main_v60) = _
  simp only [hostOps2]
  after_results_simp
  rw [h6]
  rfl
/-- At the fourth launch's entry: the update stage's second weight matrix, layer 1. -/
theorem V11_v60 (h3_arg13 : W3 m ρ c (Proc.devRef .tc main_arg13) = m ((c : Thread nD τ).loc main_arg13)) :
    V11 m ρ c main_v60 = Wu2K1 m c :=
  (W11_of_W7 m ρ c main_v60 (by decide) (by decide) (by decide) (by decide)).trans (W7_v60 m ρ c (W6_arg13' m ρ c h3_arg13))

set_option maxHeartbeats 2000000 in
/-- After the slicing stretch: the update stage's second attribute matrix, layer 1. -/
theorem W7_v62 (h6 : W6 m ρ c (Proc.devRef .tc main_arg14) = m ((c : Thread nD τ).loc main_arg14)) :
    W7 m ρ c (Proc.devRef .tc main_v62) = Vu2K1 m c := by
  show StableHlo.after hostOps2 (W6 m ρ c) (Proc.devRef .tc main_v62) = _
  simp only [hostOps2]
  after_results_simp
  rw [h6]
  rfl
/-- At the fourth launch's entry: the update stage's second attribute matrix, layer 1. -/
theorem V11_v62 (h3_arg14 : W3 m ρ c (Proc.devRef .tc main_arg14) = m ((c : Thread nD τ).loc main_arg14)) :
    V11 m ρ c main_v62 = Vu2K1 m c :=
  (W11_of_W7 m ρ c main_v62 (by decide) (by decide) (by decide) (by decide)).trans (W7_v62 m ρ c (W6_arg14' m ρ c h3_arg14))

set_option maxHeartbeats 2000000 in
/-- After the slicing stretch: the update stage's second bias row, layer 1. -/
theorem W7_v64 (h6 : W6 m ρ c (Proc.devRef .tc main_arg15) = m ((c : Thread nD τ).loc main_arg15)) :
    W7 m ρ c (Proc.devRef .tc main_v64) = bu2K1 m c := by
  show StableHlo.after hostOps2 (W6 m ρ c) (Proc.devRef .tc main_v64) = _
  simp only [hostOps2]
  after_results_simp
  rw [h6]
  rfl
/-- At the fourth launch's entry: the update stage's second bias row, layer 1. -/
theorem V11_v64 (h3_arg15 : W3 m ρ c (Proc.devRef .tc main_arg15) = m ((c : Thread nD τ).loc main_arg15)) :
    V11 m ρ c main_v64 = bu2K1 m c :=
  (W11_of_W7 m ρ c main_v64 (by decide) (by decide) (by decide) (by decide)).trans (W7_v64 m ρ c (W6_arg15' m ρ c h3_arg15))

end Cert.KernelIdeal.Read

end
-- ==== Proof.Spec.lean ====
/-
  The mathematics both programs compute, as plain functions over the extended reals.

  A graph network over N nodes and E edges with 64 features per node.  One layer has two row-wise stages.

  The MESSAGE stage works on one edge e at a time.  From the feature rows xi(e), xj(e) of the edge's two end nodes, laid
  side by side as one row of 128 numbers, the edge's one extra feature a(e) and its nine attributes ea(e), it forms

      t(q)  = ((sum over k < 128 of cat(xi, xj)(e, k) * W(k, q)) + a(e) * wa(q)) * (sum over r < 9 of ea(e, r) * V1(r, q)) + b1(q)
      m1(q) = swish(t(q)),     swish(t) = t * (1 / (1 + exp(-t)))
      m2(h) = swish((sum over k < 64 of m1(k) * W2(k, h)) * (sum over r < 9 of ea(e, r) * V2(r, h)) + b2(h)).

  The UPDATE stage works on one node n at a time.  From the node's row x(n), the row agg(n) of summed messages, laid side
  by side, and the node's nine attributes na(n), it forms

      u(q)  = swish((sum over k < 128 of cat(x, agg)(n, k) * Wu1(k, q)) * (sum over r < 9 of na(n, r) * Vu1(r, q)) + bu1(q))
      u2(h) = (sum over k < 64 of u(k) * Wu2(k, h)) * (sum over r < 9 of na(n, r) * Vu2(r, h)) + bu2(h)
      out(n, h) = c7 * x(n, h) + c3 * u2(h)

  with c7, c3 the two single-precision constants nearest 0.7 and 0.3 (kept as the words they are; both programs carry
  the same words).

  Every function below takes the number R of rows as a parameter, so that one definition reads a block of rows of a
  tiled computation and the whole array alike; each output row depends on the same row of the row-indexed inputs only
  (the *_congr lemmas), which is what lets a tiling by blocks of rows be read back as the whole array.
-/
import Idealize.ShloMosaic.PureOps.Ideal
import Idealize.ShloMosaic.Lib.ValueIdx

noncomputable section

namespace MsgPass

open Idealize.ShloMosaic Idealize.ShloMosaic.ValueIdx

/-- A two-axis array of extended reals. -/
abbrev Arr (n0 n1 : Nat) : Type := (⟨2, ![n0, n1]⟩ : Shape).Idx → EReal
/-- A one-axis array of extended reals. -/
abbrev Vec1 (n : Nat) : Type := (⟨1, ![n]⟩ : Shape).Idx → EReal

/-- swish(t) = t * logistic(t), with logistic(t) = 1 / (1 + exp(-t)). -/
def swish (t : EReal) : EReal := t * Ideal.logistic t

/-- The constant both programs multiply the old features by: the single-precision word nearest 0.7. -/
def c7 : EReal := Ideal.ofBits .f32 0x3F333333#32
/-- The constant both programs multiply the new features by: the single-precision word nearest 0.3. -/
def c3 : EReal := Ideal.ofBits .f32 0x3E99999A#32

variable {R : Nat}

/-- Row e of two 64-column arrays laid side by side: columns 0..63 from A, columns 64..127 from B. -/
def cat2 (A B : Arr R 64) (e : Fin R) (k : Fin 128) : EReal :=
  if h : k.val < 64 then A (ix2 e ⟨k.val, h⟩) else B (ix2 e ⟨k.val - 64, by have := k.isLt; omega⟩)

/-- The message stage's hidden row m1 of edge e, entry q. -/
def msgHidden (XI XJ : Arr R 64) (AMF : Arr R 1) (EA : Arr R 9) (W : Arr 128 64) (wa : Vec1 64) (V1 : Arr 9 64) (b1 : Vec1 64)
    (e : Fin R) (q : Fin 64) : EReal :=
  swish (((∑ k : Fin 128, cat2 XI XJ e k * W (ix2 k q)) + AMF (ix2 e (0 : Fin 1)) * wa (ix1 q))
    * (∑ r : Fin 9, EA (ix2 e r) * V1 (ix2 r q)) + b1 (ix1 q))

/-- The message of edge e, entry h. -/
def msgAt (XI XJ : Arr R 64) (AMF : Arr R 1) (EA : Arr R 9) (W : Arr 128 64) (wa : Vec1 64) (V1 : Arr 9 64) (b1 : Vec1 64)
    (W2 : Arr 64 64) (V2 : Arr 9 64) (b2 : Vec1 64) (e : Fin R) (h : Fin 64) : EReal :=
  swish ((∑ k : Fin 64, msgHidden XI XJ AMF EA W wa V1 b1 e k * W2 (ix2 k h))
    * (∑ r : Fin 9, EA (ix2 e r) * V2 (ix2 r h)) + b2 (ix1 h))

/-- The messages of all R edges, as an array. -/
def msgOut (XI XJ : Arr R 64) (AMF : Arr R 1) (EA : Arr R 9) (W : Arr 128 64) (wa : Vec1 64) (V1 : Arr 9 64) (b1 : Vec1 64)
    (W2 : Arr 64 64) (V2 : Arr 9 64) (b2 : Vec1 64) : Arr R 64 :=
  fun j => msgAt XI XJ AMF EA W wa V1 b1 W2 V2 b2 (j 0) (j 1)

/-- The update stage's hidden row u of node n, entry q. -/
def updHidden (X AGG : Arr R 64) (NA : Arr R 9) (Wu1 : Arr 128 64) (Vu1 : Arr 9 64) (bu1 : Vec1 64)
    (n : Fin R) (q : Fin 64) : EReal :=
  swish ((∑ k : Fin 128, cat2 X AGG n k * Wu1 (ix2 k q)) * (∑ r : Fin 9, NA (ix2 n r) * Vu1 (ix2 r q)) + bu1 (ix1 q))

/-- The new features of node n, entry h. -/
def updAt (X AGG : Arr R 64) (NA : Arr R 9) (Wu1 : Arr 128 64) (Vu1 : Arr 9 64) (bu1 : Vec1 64)
    (Wu2 : Arr 64 64) (Vu2 : Arr 9 64) (bu2 : Vec1 64) (n : Fin R) (h : Fin 64) : EReal :=
  c7 * X (ix2 n h)
    + c3 * ((∑ k : Fin 64, updHidden X AGG NA Wu1 Vu1 bu1 n k * Wu2 (ix2 k h)) * (∑ r : Fin 9, NA (ix2 n r) * Vu2 (ix2 r h))
      + bu2 (ix1 h))

/-- The new features of all R nodes, as an array. -/
def updOut (X AGG : Arr R 64) (NA : Arr R 9) (Wu1 : Arr 128 64) (Vu1 : Arr 9 64) (bu1 : Vec1 64)
    (Wu2 : Arr 64 64) (Vu2 : Arr 9 64) (bu2 : Vec1 64) : Arr R 64 :=
  fun j => updAt X AGG NA Wu1 Vu1 bu1 Wu2 Vu2 bu2 (j 0) (j 1)

theorem msgOut_apply (XI XJ : Arr R 64) (AMF : Arr R 1) (EA : Arr R 9) (W : Arr 128 64) (wa : Vec1 64) (V1 : Arr 9 64) (b1 : Vec1 64)
    (W2 : Arr 64 64) (V2 : Arr 9 64) (b2 : Vec1 64) (e : Fin R) (h : Fin 64) :
    msgOut XI XJ AMF EA W wa V1 b1 W2 V2 b2 (ix2 e h) = msgAt XI XJ AMF EA W wa V1 b1 W2 V2 b2 e h := rfl

theorem updOut_apply (X AGG : Arr R 64) (NA : Arr R 9) (Wu1 : Arr 128 64) (Vu1 : Arr 9 64) (bu1 : Vec1 64)
    (Wu2 : Arr 64 64) (Vu2 : Arr 9 64) (bu2 : Vec1 64) (n : Fin R) (h : Fin 64) :
    updOut X AGG NA Wu1 Vu1 bu1 Wu2 Vu2 bu2 (ix2 n h) = updAt X AGG NA Wu1 Vu1 bu1 Wu2 Vu2 bu2 n h := rfl

/-! ## Each output row reads one row of the row-indexed inputs -/

variable {R' : Nat}

/-- Two side-by-side rows agree when their halves do. -/
theorem cat2_congr {A B : Arr R 64} {A' B' : Arr R' 64} {e : Fin R} {e' : Fin R'}
    (hA : ∀ k : Fin 64, A (ix2 e k) = A' (ix2 e' k)) (hB : ∀ k : Fin 64, B (ix2 e k) = B' (ix2 e' k)) (k : Fin 128) :
    cat2 A B e k = cat2 A' B' e' k := by
  unfold cat2
  split
  · exact hA _
  · exact hB _

/-- Row e of the messages over one set of arrays is row e' over another when those rows of the inputs agree. -/
theorem msgAt_congr {XI XJ : Arr R 64} {AMF : Arr R 1} {EA : Arr R 9} {XI' XJ' : Arr R' 64} {AMF' : Arr R' 1} {EA' : Arr R' 9}
    (W : Arr 128 64) (wa : Vec1 64) (V1 : Arr 9 64) (b1 : Vec1 64) (W2 : Arr 64 64) (V2 : Arr 9 64) (b2 : Vec1 64)
    {e : Fin R} {e' : Fin R'}
    (hXI : ∀ k : Fin 64, XI (ix2 e k) = XI' (ix2 e' k)) (hXJ : ∀ k : Fin 64, XJ (ix2 e k) = XJ' (ix2 e' k))
    (hAMF : AMF (ix2 e (0 : Fin 1)) = AMF' (ix2 e' (0 : Fin 1))) (hEA : ∀ r : Fin 9, EA (ix2 e r) = EA' (ix2 e' r)) (h : Fin 64) :
    msgAt XI XJ AMF EA W wa V1 b1 W2 V2 b2 e h = msgAt XI' XJ' AMF' EA' W wa V1 b1 W2 V2 b2 e' h := by
  unfold msgAt msgHidden
  simp only [cat2_congr hXI hXJ, hAMF, hEA]

/-- Row n of the new features over one set of arrays is row n' over another when those rows of the inputs agree. -/
theorem updAt_congr {X AGG : Arr R 64} {NA : Arr R 9} {X' AGG' : Arr R' 64} {NA' : Arr R' 9}
    (Wu1 : Arr 128 64) (Vu1 : Arr 9 64) (bu1 : Vec1 64) (Wu2 : Arr 64 64) (Vu2 : Arr 9 64) (bu2 : Vec1 64)
    {n : Fin R} {n' : Fin R'}
    (hX : ∀ k : Fin 64, X (ix2 n k) = X' (ix2 n' k)) (hAGG : ∀ k : Fin 64, AGG (ix2 n k) = AGG' (ix2 n' k))
    (hNA : ∀ r : Fin 9, NA (ix2 n r) = NA' (ix2 n' r)) (h : Fin 64) :
    updAt X AGG NA Wu1 Vu1 bu1 Wu2 Vu2 bu2 n h = updAt X' AGG' NA' Wu1 Vu1 bu1 Wu2 Vu2 bu2 n' h := by
  unfold updAt updHidden
  simp only [cat2_congr hX hAGG, hX, hNA]

end MsgPass

end
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.MsgBlock.lean ====
/-
  The message kernel's block.

  One run of the message kernel's body reads a block of 4000 edges — the feature rows xi, xj of each edge's two end
  nodes, the edge's one extra feature, its nine attributes — and the seven weight arrays, and stores one array of
  4000 x 64 numbers.  That stored array is the specification's messages of those 4000 rows:

      stored(p, q) = msgAt xi xj a ea W wa V1 b1 W2 V2 b2 p q.

  Read at (p, q), the body is, operation by operation: the two feature blocks laid side by side (128 columns), times W
  as a matrix product into a zero accumulator (the plain sum over k < 128); plus a(p) * wa(q), the extra feature copied
  into every column times wa copied into every row; times the matrix product of the attributes with V1 (the plain sum
  over r < 9); plus b1(q) copied into every row; times the logistic of itself (swish) — the hidden row m1.  Then m1 times
  W2 (the plain sum over k < 64), times the product of the attributes with V2, plus b2(q), times the logistic of itself.
  Narrowing an operand before a product changes nothing on the extended reals, and a cast of an array to its own shape
  is the array.  The body's one store covers the whole block and every load reads a whole block.
-/
import proofs.«416160_j23089744183881_1_alg».proof.Proof.Gen.KernelIdeal.Frame
import proofs.«416160_j23089744183881_1_alg».proof.Proof.Spec
import proofs.«416160_j23089744183881_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.MsgBlock

open Idealize.ShloMosaic Idealize.ShloMosaic.ValueIdx Cert.KernelIdeal Cert.KernelIdeal.Gen MsgPass

variable {α : Type}

/-! ## Layout operations read at (p, q) -/

/-- A one-column array copied into every column reads, at (p, c), its row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Two 64-column arrays laid side by side read, at (p, k), the first array's column k for k < 64 and the second
    array's column k - 64 otherwise. -/
theorem concat_cols_apply {R : ℕ} (A B : Arr R 64)
    (h : Shape.Concatenates [(⟨2, ![R, 64]⟩ : Shape), ⟨2, ![R, 64]⟩] ⟨2, ![R, 128]⟩ 1) (p : Fin R) (k : Fin 128) :
    concatenate ⟨2, ![R, 128]⟩ 1 [⟨⟨2, ![R, 64]⟩, A⟩, ⟨⟨2, ![R, 64]⟩, B⟩] h (ix2 p k) = cat2 A B p k := by
  unfold cat2
  split
  · rename_i hk
    refine concatenate_pair_apply_left 1 A B h (ix2 p k) rfl (ix2 p ⟨k.val, hk⟩) fun b => ?_
    match b with
    | ⟨0, _⟩ => rfl
    | ⟨1, _⟩ => rfl
  · rename_i hk
    refine concatenate_pair_apply_right 1 A B h (ix2 p k) rfl rfl (ix2 p ⟨k.val - 64, by have := k.isLt; omega⟩) (fun b hb => ?_) ?_
    · match b with
      | ⟨0, _⟩ => rfl
      | ⟨1, _⟩ => exact absurd rfl hb
    · show k.val - 64 + 64 = k.val
      omega

/-- The lane-by-lane logistic read at an index. -/
theorem logistic_apply {s : Shape} {φ : FTy} (v : FVec Ideal s φ) (i : s.Idx) : logistic v i = Ideal.logistic (v i) := rfl

/-- A product of an [R, K] array with a [K, C] array into a zero accumulator, the operands narrowed first (no change
    on the extended reals), read at (p, q): the sum over k < K of l(p, k) * r(k, q). -/
theorem mm_apply {R K C : ℕ} (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : FVec Ideal ⟨2, ![R, K]⟩ .f32) (r : FVec Ideal ⟨2, ![K, C]⟩ .f32)
    (h1 : FTy.bf16.bits < FTy.f32.bits) (h2 : FTy.bf16.bits < FTy.f32.bits) (p : Fin R) (q : Fin C) :
    matmul d none (truncf .bf16 l h1) (truncf .bf16 r h2) (constant (F := Ideal) ⟨2, ![R, C]⟩ .f32 0x00000000#32) (ix2 p q)
      = ∑ k : Fin K, l (ix2 p k) * r (ix2 k q) :=
  (Ideal.matmul_constant_zero_apply d none _ _ (ix2 p q)).trans
    (PlainDot.sum_eq d hlb hln hlc hrb hrn hrc (truncf .bf16 l h1) (truncf .bf16 r h2) p q)

/-! ## The body's arithmetic at (p, q) -/

/-- The hidden row: the first half of the body at (p, q) is the specification's m1 of row p, entry q. -/
theorem pay2_apply (x0 x1 : Vec Ideal S4000x64 .f32) (x2 : Vec Ideal S4000x1 .f32) (x3 : Vec Ideal S4000x9 .f32)
    (x4 : Vec Ideal S128x64 .f32) (x5 : Vec Ideal S64 .f32) (x6 : Vec Ideal S9x64 .f32) (x7 : Vec Ideal S64 .f32)
    (p : Fin 4000) (q : Fin 64) :
    k0_pay2 (F := Ideal) x0 x1 x2 x3 x4 x5 x6 x7 (ix2 p q) = msgHidden x0 x1 x2 x3 x4 x5 x6 x7 p q := by
  unfold k0_pay2 msgHidden swish
  simp only [shapeCast_self, mulf_apply, addf_apply, logistic_apply]
  rw [mm_apply _ rfl rfl rfl rfl rfl rfl, mm_apply _ rfl rfl rfl rfl rfl rfl]
  simp only [concat_cols_apply, shapeCast_self, broadcastTo_a1_ab_apply, broadcastTo_1b_ab_apply, shapeCast_a_1a_apply]

/-- The second half of the body, over any hidden array H, at (p, q): swish of (sum over k < 64 of H(p, k) * W2(k, q))
    times (sum over r < 9 of ea(p, r) * V2(r, q)) plus b2(q). -/
theorem pay1_apply (x3 : Vec Ideal S4000x9 .f32) (H : FVec Ideal S4000x64 .f32) (x8 : Vec Ideal S64x64 .f32)
    (x9 : Vec Ideal S9x64 .f32) (x10 : Vec Ideal S64 .f32) (p : Fin 4000) (q : Fin 64) :
    k0_pay1 (F := Ideal) x3 H (k0_pay3 x8) (k0_pay4 x9) x10 (ix2 p q)
      = swish ((∑ k : Fin 64, H (ix2 p k) * x8 (ix2 k q)) * (∑ r : Fin 9, x3 (ix2 p r) * x9 (ix2 r q)) + x10 (ix1 q)) := by
  unfold k0_pay1 k0_pay3 k0_pay4 swish
  simp only [shapeCast_self, mulf_apply, addf_apply, logistic_apply]
  rw [mm_apply _ rfl rfl rfl rfl rfl rfl, mm_apply _ rfl rfl rfl rfl rfl rfl]
  simp only [broadcastTo_1b_ab_apply, shapeCast_a_1a_apply]

/-- The body's stored value at (p, q) is the specification's message of row p, entry q. -/
theorem payload_apply (x0 x1 : Vec Ideal S4000x64 .f32) (x2 : Vec Ideal S4000x1 .f32) (x3 : Vec Ideal S4000x9 .f32)
    (x4 : Vec Ideal S128x64 .f32) (x5 : Vec Ideal S64 .f32) (x6 : Vec Ideal S9x64 .f32) (x7 : Vec Ideal S64 .f32)
    (x8 : Vec Ideal S64x64 .f32) (x9 : Vec Ideal S9x64 .f32) (x10 : Vec Ideal S64 .f32) (p : Fin 4000) (q : Fin 64) :
    k0_pay1 (F := Ideal) x3 (k0_pay2 x0 x1 x2 x3 x4 x5 x6 x7) (k0_pay3 x8) (k0_pay4 x9) x10 (ix2 p q)
      = msgAt x0 x1 x2 x3 x4 x5 x6 x7 x8 x9 x10 p q := by
  rw [pay1_apply]
  unfold msgAt
  simp only [pay2_apply]

/-- The second launch runs the same kernel function: its body's terms are the first launch's. -/
theorem k2_pay1_eq : @k2_pay1 = @k0_pay1 := rfl
theorem k2_pay2_eq : @k2_pay2 = @k0_pay2 := rfl
theorem k2_pay3_eq : @k2_pay3 = @k0_pay3 := rfl
theorem k2_pay4_eq : @k2_pay4 = @k0_pay4 := rfl

/-! ## The block -/

/-- The offsets of a whole-block rectangle of a two-axis array are zero on both axes. -/
theorem off2_zero : (![0, 0] : Fin 2 → Nat) = fun _ => 0 := funext fun a => by
  match a with
  | ⟨0, _⟩ => rfl
  | ⟨1, _⟩ => rfl

/-- The offset of a whole-block rectangle of a one-axis array is zero. -/
theorem off1_zero : (![0] : Fin 1 → Nat) = fun _ => 0 := funext fun a => by
  match a with
  | ⟨0, _⟩ => rfl

/-- What the first launch's body leaves in its output block is the specification's messages of the block's rows. -/
theorem out0_11_eq (x0 x1 : Vec Ideal S4000x64 .f32) (x2 : Vec Ideal S4000x1 .f32) (x3 : Vec Ideal S4000x9 .f32)
    (x4 : Vec Ideal S128x64 .f32) (x5 : Vec Ideal S64 .f32) (x6 : Vec Ideal S9x64 .f32) (x7 : Vec Ideal S64 .f32)
    (x8 : Vec Ideal S64x64 .f32) (x9 : Vec Ideal S9x64 .f32) (x10 : Vec Ideal S64 .f32) :
    Cert.KernelIdeal.Gen.out0_11 (F := Ideal) x0 x1 x2 x3 x4 x5 x6 x7 x8 x9 x10
      = MsgPass.msgOut (R := 4000) x0 x1 x2 x3 x4 x5 x6 x7 x8 x9 x10 := by
  unfold Gen.out0_11
  rw [View.canon_unit_zero off2_zero]
  simp only [View.ld_unit_zero (S := S4000x64) off2_zero, View.ld_unit_zero (S := S4000x1) off2_zero,
    View.ld_unit_zero (S := S4000x9) off2_zero, View.ld_unit_zero (S := S128x64) off2_zero,
    View.ld_unit_zero (S := S9x64) off2_zero, View.ld_unit_zero (S := S64x64) off2_zero,
    View.ld_unit_zero (S := S64) off1_zero]
  funext j
  obtain ⟨p, q, rfl⟩ : ∃ (p : Fin 4000) (q : Fin 64), j = ix2 p q := ⟨j 0, j 1, eq_ix2 j⟩
  exact (payload_apply x0 x1 x2 x3 x4 x5 x6 x7 x8 x9 x10 p q).trans (msgOut_apply x0 x1 x2 x3 x4 x5 x6 x7 x8 x9 x10 p q).symm

/-- The same for the second launch of the kernel. -/
theorem out2_11_eq (x0 x1 : Vec Ideal S4000x64 .f32) (x2 : Vec Ideal S4000x1 .f32) (x3 : Vec Ideal S4000x9 .f32)
    (x4 : Vec Ideal S128x64 .f32) (x5 : Vec Ideal S64 .f32) (x6 : Vec Ideal S9x64 .f32) (x7 : Vec Ideal S64 .f32)
    (x8 : Vec Ideal S64x64 .f32) (x9 : Vec Ideal S9x64 .f32) (x10 : Vec Ideal S64 .f32) :
    Cert.KernelIdeal.Gen.out2_11 (F := Ideal) x0 x1 x2 x3 x4 x5 x6 x7 x8 x9 x10
      = MsgPass.msgOut (R := 4000) x0 x1 x2 x3 x4 x5 x6 x7 x8 x9 x10 := by
  unfold Gen.out2_11
  rw [View.canon_unit_zero off2_zero]
  simp only [View.ld_unit_zero (S := S4000x64) off2_zero, View.ld_unit_zero (S := S4000x1) off2_zero,
    View.ld_unit_zero (S := S4000x9) off2_zero, View.ld_unit_zero (S := S128x64) off2_zero,
    View.ld_unit_zero (S := S9x64) off2_zero, View.ld_unit_zero (S := S64x64) off2_zero,
    View.ld_unit_zero (S := S64) off1_zero]
  rw [k2_pay1_eq, k2_pay2_eq, k2_pay3_eq, k2_pay4_eq]
  funext j
  obtain ⟨p, q, rfl⟩ : ∃ (p : Fin 4000) (q : Fin 64), j = ix2 p q := ⟨j 0, j 1, eq_ix2 j⟩
  exact (payload_apply x0 x1 x2 x3 x4 x5 x6 x7 x8 x9 x10 p q).trans (msgOut_apply x0 x1 x2 x3 x4 x5 x6 x7 x8 x9 x10 p q).symm

end Cert.KernelIdeal.MsgBlock

end
-- ==== Proof.UpdBlock.lean ====
/-
  The update kernel's block: what the kernel body leaves in its output block is the specification's new features of
  the block's 5000 rows.

  The body works on one block of 5000 nodes.  Row p of the block's features x and of the summed messages agg are laid
  side by side as 128 numbers; then, entry by entry,

      t(k)  = (sum over k' < 128 of cat(x, agg)(p, k') * Wu1(k', k)) * (sum over r < 9 of na(p, r) * Vu1(r, k)) + bu1(k)
      u(k)  = t(k) * logistic(t(k))
      u2(q) = (sum over k < 64 of u(k) * Wu2(k, q)) * (sum over r < 9 of na(p, r) * Vu2(r, q)) + bu2(q)
      out(p, q) = c7 * x(p, q) + c3 * u2(q),

  which is the specification's update stage read at row p, entry q.  The proof reads the body's value at an index (p, q)
  one operation at a time: a pointwise operation reads its operands at the same index; a side-by-side concatenation
  reads its left piece below column 64 and its right piece from there on; a matrix product into a zero accumulator is
  the plain sum over the contracted axis (rounding to a narrower format changes nothing on the extended reals); a
  64-vector repeated over the rows reads its entry q; a shape cast to the same shape is the identity.  Both launches of
  the update kernel compute the same function; the second forms the sum u2 = product + bias together with the final mix
  rather than before it.  A body that loads its whole input blocks and stores its whole output block once leaves, in
  that block, its stored value of the input blocks themselves.
-/
import proofs.«416160_j23089744183881_1_alg».proof.Proof.Gen.KernelIdeal.Frame
import proofs.«416160_j23089744183881_1_alg».proof.Proof.Spec
import proofs.«416160_j23089744183881_1_alg».proof.Proof.LibPlainDot
import Idealize.ShloMosaic.Lib.ValueLayout
import Idealize.ShloMosaic.PureOps.Ideal.Laws

noncomputable section

namespace Cert.KernelIdeal.UpdBlock

open Idealize.ShloMosaic Idealize.ShloMosaic.ValueIdx Cert.KernelIdeal Cert.KernelIdeal.Gen

/-- Two 64-column arrays laid side by side along axis 1, read at (p, k): the left array below column 64, the right
    array at column k - 64 from there on. -/
theorem cat_apply {R : Nat} (A B : (⟨2, ![R, 64]⟩ : Shape).Idx → EReal)
    (h : Shape.Concatenates [(⟨2, ![R, 64]⟩ : Shape), ⟨2, ![R, 64]⟩] ⟨2, ![R, 128]⟩ 1) (p : Fin R) (k : Fin 128) :
    concatenate (⟨2, ![R, 128]⟩ : Shape) 1 [⟨⟨2, ![R, 64]⟩, A⟩, ⟨⟨2, ![R, 64]⟩, B⟩] h (ix2 p k) = MsgPass.cat2 A B p k := by
  unfold MsgPass.cat2
  split
  · next hk =>
    exact concatenate_pair_apply_left 1 A B h (ix2 p k) rfl (ix2 p ⟨k.val, hk⟩)
      (fun b => by match b with | ⟨0, _⟩ => rfl | ⟨1, _⟩ => rfl)
  · next hk =>
    exact concatenate_pair_apply_right 1 A B h (ix2 p k) rfl rfl (ix2 p ⟨k.val - 64, by have := k.isLt; omega⟩)
      (fun b hb => by match b with | ⟨0, _⟩ => rfl | ⟨1, _⟩ => exact absurd rfl hb)
      (by show (k.val - 64) + 64 = k.val; omega)

/-- A matrix product of two arrays (each rounded to the narrower format, which changes nothing on the extended reals)
    into a zero accumulator, read at (p, q): the sum over k < K of l(p, k) * r(k, q). -/
theorem mm_apply {R K C : Nat} (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : FVec Ideal ⟨2, ![R, K]⟩ .f32) (r : FVec Ideal ⟨2, ![K, C]⟩ .f32) (hb : FTy.bits .bf16 < FTy.bits .f32)
    (p : Fin R) (q : Fin C) :
    matmul d none (truncf .bf16 l hb) (truncf .bf16 r hb) (constant (F := Ideal) ⟨2, ![R, C]⟩ .f32 0x00000000#32) (ix2 p q)
      = ∑ k : Fin K, l (ix2 p k) * r (ix2 k q) :=
  (Ideal.matmul_constant_zero_apply d none (truncf .bf16 l hb) (truncf .bf16 r hb) (ix2 p q)).trans
    (PlainDot.sum_eq d hlb hln hlc hrb hrn hrc l r p q)

/-- A 64-vector, as one row, repeated over R rows, read at (p, q): its entry q. -/
theorem bias_apply {R : Nat} (b : (⟨1, ![64]⟩ : Shape).Idx → EReal) (h0 : (⟨1, ![64]⟩ : Shape).ShapeCasts ⟨1, ![64]⟩)
    (h1 : (⟨1, ![64]⟩ : Shape).ShapeCasts ⟨2, ![1, 64]⟩) (h2 : (⟨2, ![1, 64]⟩ : Shape).Broadcasts ⟨2, ![R, 64]⟩)
    (p : Fin R) (q : Fin 64) :
    broadcastTo (⟨2, ![R, 64]⟩ : Shape) (shapeCast (⟨2, ![1, 64]⟩ : Shape) (shapeCast (⟨1, ![64]⟩ : Shape) b h0) h1) h2 (ix2 p q)
      = b (ix1 q) := by
  rw [broadcastTo_1b_ab_apply, shapeCast_a_1a_apply, shapeCast_self]

/-- swish of a value: the value times the logistic of itself. -/
theorem swish_apply {s : Shape} (V : FVec Ideal s .f32) (i : s.Idx) (t : EReal) (h : V i = t) :
    mulf V (logistic V) i = MsgPass.swish t := by
  subst h; rfl

/-- One stage of the network at (p, q): the product of two matrix products, (L W)(p, q) * (NA V)(p, q), plus the
    bias entry b(q). -/
theorem stage_apply {R K : Nat}
    (d1 : DotDims ⟨2, ![R, K]⟩ ⟨2, ![K, 64]⟩ ⟨2, ![R, 64]⟩) (d2 : DotDims ⟨2, ![R, 9]⟩ ⟨2, ![9, 64]⟩ ⟨2, ![R, 64]⟩)
    (h1lb : d1.lhsBatch = []) (h1ln : d1.lhsNonContracting = [0]) (h1lc : d1.lhsContracting = [1])
    (h1rb : d1.rhsBatch = []) (h1rn : d1.rhsNonContracting = [1]) (h1rc : d1.rhsContracting = [0])
    (h2lb : d2.lhsBatch = []) (h2ln : d2.lhsNonContracting = [0]) (h2lc : d2.lhsContracting = [1])
    (h2rb : d2.rhsBatch = []) (h2rn : d2.rhsNonContracting = [1]) (h2rc : d2.rhsContracting = [0])
    (L : FVec Ideal ⟨2, ![R, K]⟩ .f32) (W : FVec Ideal ⟨2, ![K, 64]⟩ .f32) (NA : FVec Ideal ⟨2, ![R, 9]⟩ .f32)
    (V : FVec Ideal ⟨2, ![9, 64]⟩ .f32) (b : FVec Ideal ⟨1, ![64]⟩ .f32)
    (hb : FTy.bits .bf16 < FTy.bits .f32)
    (hW : (⟨2, ![K, 64]⟩ : Shape).ShapeCasts ⟨2, ![K, 64]⟩) (hV : (⟨2, ![9, 64]⟩ : Shape).ShapeCasts ⟨2, ![9, 64]⟩)
    (h0 : (⟨1, ![64]⟩ : Shape).ShapeCasts ⟨1, ![64]⟩) (h1 : (⟨1, ![64]⟩ : Shape).ShapeCasts ⟨2, ![1, 64]⟩)
    (h2 : (⟨2, ![1, 64]⟩ : Shape).Broadcasts ⟨2, ![R, 64]⟩) (p : Fin R) (q : Fin 64) :
    addf (mulf (matmul d1 none (truncf .bf16 L hb) (truncf .bf16 (shapeCast (⟨2, ![K, 64]⟩ : Shape) W hW) hb)
                  (constant (F := Ideal) ⟨2, ![R, 64]⟩ .f32 0x00000000#32))
               (matmul d2 none (truncf .bf16 NA hb) (truncf .bf16 (shapeCast (⟨2, ![9, 64]⟩ : Shape) V hV) hb)
                  (constant (F := Ideal) ⟨2, ![R, 64]⟩ .f32 0x00000000#32)))
         (broadcastTo (⟨2, ![R, 64]⟩ : Shape) (shapeCast (⟨2, ![1, 64]⟩ : Shape) (shapeCast (⟨1, ![64]⟩ : Shape) b h0) h1) h2) (ix2 p q)
      = (∑ k : Fin K, L (ix2 p k) * W (ix2 k q)) * (∑ r : Fin 9, NA (ix2 p r) * V (ix2 r q)) + b (ix1 q) := by
  rw [addf_apply, mulf_apply, mm_apply d1 h1lb h1ln h1lc h1rb h1rn h1rc, mm_apply d2 h2lb h2ln h2lc h2rb h2rn h2rc,
    bias_apply, shapeCast_self, shapeCast_self]

/-! ## The first launch of the update kernel -/

/-- The body's second stage before the final mix, at (p, q): the specification's u2 of row p, entry q. -/
theorem k1_pay2_apply (x0 x1 : Vec Ideal S5000x64 .f32) (x2 : Vec Ideal S5000x9 .f32) (x3 : Vec Ideal S128x64 .f32)
    (x4 : Vec Ideal S9x64 .f32) (x5 : Vec Ideal S64 .f32) (x6 : Vec Ideal S64x64 .f32) (x7 : Vec Ideal S9x64 .f32)
    (x8 : Vec Ideal S64 .f32) (p : Fin 5000) (q : Fin 64) :
    k1_pay2 x0 x1 x2 x3 x4 x5 x6 x7 x8 (ix2 p q)
      = (∑ k : Fin 64, MsgPass.updHidden x0 x1 x2 x3 x4 x5 p k * x6 (ix2 k q)) * (∑ r : Fin 9, x2 (ix2 p r) * x7 (ix2 r q))
        + x8 (ix1 q) := by
  refine (stage_apply dot_S5000x64_S64x64_S5000x64_1_0_0_1_n_n dot_S5000x9_S9x64_S5000x64_1_0_0_1_n_n
    rfl rfl rfl rfl rfl rfl rfl rfl rfl rfl rfl rfl _ x6 x2 x7 x8 _ _ _ _ _ _ p q).trans ?_
  refine congrArg (fun s => s * (∑ r : Fin 9, x2 (ix2 p r) * x7 (ix2 r q)) + x8 (ix1 q))
    (Finset.sum_congr rfl fun k _ => congrArg (fun t => t * x6 (ix2 k q)) ?_)
  refine swish_apply _ _ _ ?_
  refine (stage_apply dot_S5000x128_S128x64_S5000x64_1_0_0_1_n_n dot_S5000x9_S9x64_S5000x64_1_0_0_1_n_n
    rfl rfl rfl rfl rfl rfl rfl rfl rfl rfl rfl rfl _ x3 x2 x4 x5 _ _ _ _ _ _ p k).trans ?_
  refine congrArg (fun s => s * (∑ r : Fin 9, x2 (ix2 p r) * x4 (ix2 r k)) + x5 (ix1 k))
    (Finset.sum_congr rfl fun k' _ => congrArg (fun t => t * x3 (ix2 k' k)) ?_)
  rw [cat_apply, shapeCast_self]

/-- What the first launch stores, at (p, q): the specification's new feature of row p, entry q. -/
theorem k1_apply (x0 x1 : Vec Ideal S5000x64 .f32) (x2 : Vec Ideal S5000x9 .f32) (x3 : Vec Ideal S128x64 .f32)
    (x4 : Vec Ideal S9x64 .f32) (x5 : Vec Ideal S64 .f32) (x6 : Vec Ideal S64x64 .f32) (x7 : Vec Ideal S9x64 .f32)
    (x8 : Vec Ideal S64 .f32) (p : Fin 5000) (q : Fin 64) :
    k1_pay1 x0 (k1_pay2 x0 x1 x2 x3 x4 x5 x6 x7 x8) (ix2 p q) = MsgPass.updAt x0 x1 x2 x3 x4 x5 x6 x7 x8 p q := by
  unfold MsgPass.updAt
  rw [← k1_pay2_apply]
  rfl

/-! ## The second launch of the update kernel -/

/-- What the second launch stores, at (p, q): the specification's new feature of row p, entry q.  Here the sum of the
    second stage's product and its bias is formed with the final mix. -/
theorem k3_apply (x0 x1 : Vec Ideal S5000x64 .f32) (x2 : Vec Ideal S5000x9 .f32) (x3 : Vec Ideal S128x64 .f32)
    (x4 : Vec Ideal S9x64 .f32) (x5 : Vec Ideal S64 .f32) (x6 : Vec Ideal S64x64 .f32) (x7 : Vec Ideal S9x64 .f32)
    (x8 : Vec Ideal S64 .f32) (p : Fin 5000) (q : Fin 64) :
    k3_pay1 (k3_pay2 x0) (k3_pay3 x0 x1 x2 x3 x4 x5 x6 x7) (k3_pay4 x8) (ix2 p q)
      = MsgPass.updAt x0 x1 x2 x3 x4 x5 x6 x7 x8 p q := by
  have e : addf (k3_pay3 x0 x1 x2 x3 x4 x5 x6 x7) (k3_pay4 x8) (ix2 p q)
      = (∑ k : Fin 64, MsgPass.updHidden x0 x1 x2 x3 x4 x5 p k * x6 (ix2 k q)) * (∑ r : Fin 9, x2 (ix2 p r) * x7 (ix2 r q))
        + x8 (ix1 q) := by
    refine (stage_apply dot_S5000x64_S64x64_S5000x64_1_0_0_1_n_n dot_S5000x9_S9x64_S5000x64_1_0_0_1_n_n
      rfl rfl rfl rfl rfl rfl rfl rfl rfl rfl rfl rfl _ x6 x2 x7 x8 bitsLt_bf16_f32 shapeCasts_S64x64_S64x64
      shapeCasts_S9x64_S9x64 shapeCasts_S64_S64 shapeCasts_S64_S1x64 broadcasts_S1x64_S5000x64 p q).trans ?_
    refine congrArg (fun s => s * (∑ r : Fin 9, x2 (ix2 p r) * x7 (ix2 r q)) + x8 (ix1 q))
      (Finset.sum_congr rfl fun k _ => congrArg (fun t => t * x6 (ix2 k q)) ?_)
    refine swish_apply _ _ _ ?_
    refine (stage_apply dot_S5000x128_S128x64_S5000x64_1_0_0_1_n_n dot_S5000x9_S9x64_S5000x64_1_0_0_1_n_n
      rfl rfl rfl rfl rfl rfl rfl rfl rfl rfl rfl rfl _ x3 x2 x4 x5 _ _ _ _ _ _ p k).trans ?_
    refine congrArg (fun s => s * (∑ r : Fin 9, x2 (ix2 p r) * x4 (ix2 r k)) + x5 (ix1 k))
      (Finset.sum_congr rfl fun k' _ => congrArg (fun t => t * x3 (ix2 k' k)) ?_)
    unfold k3_pay2
    rw [cat_apply, shapeCast_self, shapeCast_self]
  unfold MsgPass.updAt
  rw [← e]
  unfold k3_pay2
  rw [shapeCast_self]
  rfl

/-! ## The whole block -/

/-- The offsets (0, 0) are zero on both axes. -/
theorem off2_zero : (![0, 0] : Fin 2 → Nat) = fun _ => 0 :=
  funext fun a => by match a with | ⟨0, _⟩ => rfl | ⟨1, _⟩ => rfl

/-- The offset (0) is zero on its one axis. -/
theorem off1_zero : (![0] : Fin 1 → Nat) = fun _ => 0 :=
  funext fun a => by match a with | ⟨0, _⟩ => rfl

/-- The first launch: the output block after the body is the specification's new features of the block's rows, as a
    function of the input blocks. -/
theorem out1_9_eq (x0 x1 : Vec Ideal S5000x64 .f32) (x2 : Vec Ideal S5000x9 .f32) (x3 : Vec Ideal S128x64 .f32)
    (x4 : Vec Ideal S9x64 .f32) (x5 : Vec Ideal S64 .f32) (x6 : Vec Ideal S64x64 .f32) (x7 : Vec Ideal S9x64 .f32)
    (x8 : Vec Ideal S64 .f32) :
    Cert.KernelIdeal.Gen.out1_9 (F := Ideal) x0 x1 x2 x3 x4 x5 x6 x7 x8
      = MsgPass.updOut (R := 5000) x0 x1 x2 x3 x4 x5 x6 x7 x8 := by
  unfold Gen.out1_9
  rw [View.canon_unit_zero off2_zero]
  simp only [View.ld_unit_zero (S := S5000x64) off2_zero, View.ld_unit_zero (S := S5000x9) off2_zero,
    View.ld_unit_zero (S := S128x64) off2_zero, View.ld_unit_zero (S := S9x64) off2_zero,
    View.ld_unit_zero (S := S64x64) off2_zero, View.ld_unit_zero (S := S64) off1_zero]
  funext j
  obtain ⟨p, q, rfl⟩ : ∃ (p : Fin 5000) (q : Fin 64), j = ix2 p q := ⟨j 0, j 1, eq_ix2 j⟩
  exact k1_apply x0 x1 x2 x3 x4 x5 x6 x7 x8 p q

/-- The second launch: the same. -/
theorem out3_9_eq (x0 x1 : Vec Ideal S5000x64 .f32) (x2 : Vec Ideal S5000x9 .f32) (x3 : Vec Ideal S128x64 .f32)
    (x4 : Vec Ideal S9x64 .f32) (x5 : Vec Ideal S64 .f32) (x6 : Vec Ideal S64x64 .f32) (x7 : Vec Ideal S9x64 .f32)
    (x8 : Vec Ideal S64 .f32) :
    Cert.KernelIdeal.Gen.out3_9 (F := Ideal) x0 x1 x2 x3 x4 x5 x6 x7 x8
      = MsgPass.updOut (R := 5000) x0 x1 x2 x3 x4 x5 x6 x7 x8 := by
  unfold Gen.out3_9
  rw [View.canon_unit_zero off2_zero]
  simp only [View.ld_unit_zero (S := S5000x64) off2_zero, View.ld_unit_zero (S := S5000x9) off2_zero,
    View.ld_unit_zero (S := S128x64) off2_zero, View.ld_unit_zero (S := S9x64) off2_zero,
    View.ld_unit_zero (S := S64x64) off2_zero, View.ld_unit_zero (S := S64) off1_zero]
  funext j
  obtain ⟨p, q, rfl⟩ : ∃ (p : Fin 5000) (q : Fin 64), j = ix2 p q := ⟨j 0, j 1, eq_ix2 j⟩
  exact k3_apply x0 x1 x2 x3 x4 x5 x6 x7 x8 p q

end Cert.KernelIdeal.UpdBlock

end
-- ==== Proof.MsgArray.lean ====
/-
  From blocks to the array, for launch number 0 of the message kernel (the program's pallas_call 0).

  The kernel runs on a grid of 200 points.  Point t reads rows 4000 t .. 4000 t + 3999 of the four row-indexed inputs
  (the two end nodes' feature rows, the edge's extra feature, the edge's nine attributes), all of each of the seven
  weight arrays, and writes rows 4000 t .. 4000 t + 3999 of the output.  Given that the body leaves in its output block
  the messages of the 4000 edges of its input blocks, the output array after the last point holds the messages of all
  800000 edges: a message depends on its own edge's rows only, so row e of the messages over point t's blocks is row
  4000 t + e of the messages over the whole arrays; and the 200 blocks of 4000 rows tile the 800000 rows, row r lying
  in the block of point r / 4000.
-/
import proofs.«416160_j23089744183881_1_alg».proof.Proof.Gen.KernelIdeal.Frame
import proofs.«416160_j23089744183881_1_alg».proof.Proof.Spec
import Idealize.ShloMosaic.Lib.Pipeline.Value

set_option maxRecDepth 16384

noncomputable section

namespace Cert.KernelIdeal.MsgArray

open Idealize.ShloMosaic Idealize.ShloMosaic.TcCoe Idealize.ShloMosaic.ValueIdx
open Idealize.ShloMosaic.Pipeline (Dat Cfg Window)
open Cert.KernelIdeal Cert.KernelIdeal.Gen MsgPass

/-! # The message kernel's launch number 0: from the blocks to the array -/

namespace Launch0

variable (V : (c : Dev nD) → (b : Ref sig .tc) → Buf (Elt Ideal) ((c : Thread nD τ).loc b))

/-- The block index of every window at every point of the grid, decided once: point `t` of the 200 takes block `t`
    on the row axis of the four row-indexed inputs and of the output, block 0 on their column axis, and block 0 of
    each of the seven weight arrays. -/
theorem blockIndex : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_11.index t (0 : Fin 2) = t.val ∧ win0_11.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 1) = 0 :=
  (by decide +kernel : ∀ t : Fin grid0.N, _)

/-! ## Each input block, read where it lies in its array

Entry (e, k) of a block of 4000 rows at point `t` is entry (4000 t + e, k) of the array: a block's coordinate on an
axis is its block index times the block's extent there, plus the coordinate inside the block. -/

/-- Row `e` of the block of the first end-node features is row `4000 t + e` of the array. -/
theorem rowsXI (c : Dev nD) (t : Fin cfg0.N) (e : Fin 4000) (e' : Fin 800000) (he : e'.val = 4000 * t.val + e.val) (k : Fin 64) :
    (iblk0 V c 0 t : Vec Ideal S4000x64 .f32) (ix2 e k) = (V c main_v31 : Vec Ideal S800000x64 .f32) (ix2 e' k) := by
  show V c main_v31 (((cfg0.win 0).blk t).view.emb (ix2 e k)) = V c main_v31 (ix2 e' k)
  refine congrArg (V c main_v31) ?_
  obtain ⟨h0, h1, -⟩ := blockIndex t
  funext a; apply Fin.ext
  match a with
  | ⟨0, _⟩ => show win0_0.index t (0 : Fin 2) * 4000 + 1 * e.val = e'.val; omega
  | ⟨1, _⟩ => show win0_0.index t (1 : Fin 2) * 64 + 1 * k.val = k.val; omega

/-- Row `e` of the block of the second end-node features is row `4000 t + e` of the array. -/
theorem rowsXJ (c : Dev nD) (t : Fin cfg0.N) (e : Fin 4000) (e' : Fin 800000) (he : e'.val = 4000 * t.val + e.val) (k : Fin 64) :
    (iblk0 V c 1 t : Vec Ideal S4000x64 .f32) (ix2 e k) = (V c main_v32 : Vec Ideal S800000x64 .f32) (ix2 e' k) := by
  show V c main_v32 (((cfg0.win 1).blk t).view.emb (ix2 e k)) = V c main_v32 (ix2 e' k)
  refine congrArg (V c main_v32) ?_
  obtain ⟨-, -, h0, h1, -⟩ := blockIndex t
  funext a; apply Fin.ext
  match a with
  | ⟨0, _⟩ => show win0_1.index t (0 : Fin 2) * 4000 + 1 * e.val = e'.val; omega
  | ⟨1, _⟩ => show win0_1.index t (1 : Fin 2) * 64 + 1 * k.val = k.val; omega

/-- Row `e` of the block of the edges' extra feature is row `4000 t + e` of the array. -/
theorem rowsAMF (c : Dev nD) (t : Fin cfg0.N) (e : Fin 4000) (e' : Fin 800000) (he : e'.val = 4000 * t.val + e.val) (k : Fin 1) :
    (iblk0 V c 2 t : Vec Ideal S4000x1 .f32) (ix2 e k) = (V c main_arg3 : Vec Ideal S800000x1 .f32) (ix2 e' k) := by
  show V c main_arg3 (((cfg0.win 2).blk t).view.emb (ix2 e k)) = V c main_arg3 (ix2 e' k)
  refine congrArg (V c main_arg3) ?_
  obtain ⟨-, -, -, -, h0, h1, -⟩ := blockIndex t
  funext a; apply Fin.ext
  match a with
  | ⟨0, _⟩ => show win0_2.index t (0 : Fin 2) * 4000 + 1 * e.val = e'.val; omega
  | ⟨1, _⟩ => show win0_2.index t (1 : Fin 2) * 1 + 1 * k.val = k.val; omega

/-- Row `e` of the block of the edges' attributes is row `4000 t + e` of the array. -/
theorem rowsEA (c : Dev nD) (t : Fin cfg0.N) (e : Fin 4000) (e' : Fin 800000) (he : e'.val = 4000 * t.val + e.val) (k : Fin 9) :
    (iblk0 V c 3 t : Vec Ideal S4000x9 .f32) (ix2 e k) = (V c main_arg1 : Vec Ideal S800000x9 .f32) (ix2 e' k) := by
  show V c main_arg1 (((cfg0.win 3).blk t).view.emb (ix2 e k)) = V c main_arg1 (ix2 e' k)
  refine congrArg (V c main_arg1) ?_
  obtain ⟨-, -, -, -, -, -, h0, h1, -⟩ := blockIndex t
  funext a; apply Fin.ext
  match a with
  | ⟨0, _⟩ => show win0_3.index t (0 : Fin 2) * 4000 + 1 * e.val = e'.val; omega
  | ⟨1, _⟩ => show win0_3.index t (1 : Fin 2) * 9 + 1 * k.val = k.val; omega

/-! ## Each weight's block is the whole weight array -/

theorem wholeW (c : Dev nD) (t : Fin cfg0.N) :
    (iblk0 V c 4 t : Vec Ideal S128x64 .f32) = (V c main_v6 : Vec Ideal S128x64 .f32) := by
  funext y
  show V c main_v6 (((cfg0.win 4).blk t).view.emb y) = V c main_v6 y
  refine congrArg (V c main_v6) ?_
  obtain ⟨-, -, -, -, -, -, -, -, -, -, h0, h1, -⟩ := blockIndex t
  funext a; apply Fin.ext
  match a with
  | ⟨0, _⟩ => show win0_4.index t (0 : Fin 2) * 128 + 1 * (y 0).val = (y 0).val; omega
  | ⟨1, _⟩ => show win0_4.index t (1 : Fin 2) * 64 + 1 * (y 1).val = (y 1).val; omega

theorem wholeWa (c : Dev nD) (t : Fin cfg0.N) :
    (iblk0 V c 5 t : Vec Ideal S64 .f32) = (V c main_v8 : Vec Ideal S64 .f32) := by
  funext y
  show V c main_v8 (((cfg0.win 5).blk t).view.emb y) = V c main_v8 y
  refine congrArg (V c main_v8) ?_
  obtain ⟨-, -, -, -, -, -, -, -, -, -, -, -, h0, -⟩ := blockIndex t
  funext a; apply Fin.ext
  match a with
  | ⟨0, _⟩ => show win0_5.index t (0 : Fin 1) * 64 + 1 * (y 0).val = (y 0).val; omega

theorem wholeV1 (c : Dev nD) (t : Fin cfg0.N) :
    (iblk0 V c 6 t : Vec Ideal S9x64 .f32) = (V c main_v10 : Vec Ideal S9x64 .f32) := by
  funext y
  show V c main_v10 (((cfg0.win 6).blk t).view.emb y) = V c main_v10 y
  refine congrArg (V c main_v10) ?_
  obtain ⟨-, -, -, -, -, -, -, -, -, -, -, -, -, h0, h1, -⟩ := blockIndex t
  funext a; apply Fin.ext
  match a with
  | ⟨0, _⟩ => show win0_6.index t (0 : Fin 2) * 9 + 1 * (y 0).val = (y 0).val; omega
  | ⟨1, _⟩ => show win0_6.index t (1 : Fin 2) * 64 + 1 * (y 1).val = (y 1).val; omega

theorem wholeB1 (c : Dev nD) (t : Fin cfg0.N) :
    (iblk0 V c 7 t : Vec Ideal S64 .f32) = (V c main_v12 : Vec Ideal S64 .f32) := by
  funext y
  show V c main_v12 (((cfg0.win 7).blk t).view.emb y) = V c main_v12 y
  refine congrArg (V c main_v12) ?_
  obtain ⟨-, -, -, -, -, -, -, -, -, -, -, -, -, -, -, h0, -⟩ := blockIndex t
  funext a; apply Fin.ext
  match a with
  | ⟨0, _⟩ => show win0_7.index t (0 : Fin 1) * 64 + 1 * (y 0).val = (y 0).val; omega

theorem wholeW2 (c : Dev nD) (t : Fin cfg0.N) :
    (iblk0 V c 8 t : Vec Ideal S64x64 .f32) = (V c main_v14 : Vec Ideal S64x64 .f32) := by
  funext y
  show V c main_v14 (((cfg0.win 8).blk t).view.emb y) = V c main_v14 y
  refine congrArg (V c main_v14) ?_
  obtain ⟨-, -, -, -, -, -, -, -, -, -, -, -, -, -, -, -, h0, h1, -⟩ := blockIndex t
  funext a; apply Fin.ext
  match a with
  | ⟨0, _⟩ => show win0_8.index t (0 : Fin 2) * 64 + 1 * (y 0).val = (y 0).val; omega
  | ⟨1, _⟩ => show win0_8.index t (1 : Fin 2) * 64 + 1 * (y 1).val = (y 1).val; omega

theorem wholeV2 (c : Dev nD) (t : Fin cfg0.N) :
    (iblk0 V c 9 t : Vec Ideal S9x64 .f32) = (V c main_v16 : Vec Ideal S9x64 .f32) := by
  funext y
  show V c main_v16 (((cfg0.win 9).blk t).view.emb y) = V c main_v16 y
  refine congrArg (V c main_v16) ?_
  obtain ⟨-, -, -, -, -, -, -, -, -, -, -, -, -, -, -, -, -, -, h0, h1, -⟩ := blockIndex t
  funext a; apply Fin.ext
  match a with
  | ⟨0, _⟩ => show win0_9.index t (0 : Fin 2) * 9 + 1 * (y 0).val = (y 0).val; omega
  | ⟨1, _⟩ => show win0_9.index t (1 : Fin 2) * 64 + 1 * (y 1).val = (y 1).val; omega

theorem wholeB2 (c : Dev nD) (t : Fin cfg0.N) :
    (iblk0 V c 10 t : Vec Ideal S64 .f32) = (V c main_v18 : Vec Ideal S64 .f32) := by
  funext y
  show V c main_v18 (((cfg0.win 10).blk t).view.emb y) = V c main_v18 y
  refine congrArg (V c main_v18) ?_
  obtain ⟨-, -, -, -, -, -, -, -, -, -, -, -, -, -, -, -, -, -, -, -, h0⟩ := blockIndex t
  funext a; apply Fin.ext
  match a with
  | ⟨0, _⟩ => show win0_10.index t (0 : Fin 1) * 64 + 1 * (y 0).val = (y 0).val; omega

/-! ## What a point writes back is its block of the messages of all the edges -/

/-- The messages of all 800000 edges, over the arrays as the region finds them. -/
abbrev allMsg (c : Dev nD) : Arr 800000 64 :=
  msgOut (R := 800000) (V c main_v31) (V c main_v32) (V c main_arg3) (V c main_arg1) (V c main_v6) (V c main_v8) (V c main_v10) (V c main_v12) (V c main_v14) (V c main_v16) (V c main_v18)

/-- Row `e` of the messages of the 4000 edges of point `t`'s blocks is row `4000 t + e` of the messages of all the edges:
    a message reads its own edge's rows only, and those rows of the blocks are those rows of the arrays. -/
theorem msgRow (c : Dev nD) (t : Fin cfg0.N) (e : Fin 4000) (h : Fin 64) (e' : Fin 800000) (h' : Fin 64)
    (he : e'.val = 4000 * t.val + e.val) (hh : h'.val = h.val) :
    msgAt (R := 4000) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) e h
      = msgAt (R := 800000) (V c main_v31) (V c main_v32) (V c main_arg3) (V c main_arg1) (V c main_v6) (V c main_v8) (V c main_v10) (V c main_v12) (V c main_v14) (V c main_v16) (V c main_v18) e' h' := by
  obtain rfl : h = h' := Fin.ext hh.symm
  rw [wholeW V c t, wholeWa V c t, wholeV1 V c t, wholeB1 V c t, wholeW2 V c t, wholeV2 V c t, wholeB2 V c t]
  exact msgAt_congr (V c main_v6) (V c main_v8) (V c main_v10) (V c main_v12) (V c main_v14) (V c main_v16) (V c main_v18)
    (fun k => rowsXI V c t e e' he k) (fun k => rowsXJ V c t e e' he k) (rowsAMF V c t e e' he 0)
    (fun r => rowsEA V c t e e' he r) h

/-- WHAT POINT `t` WRITES BACK is block `t` of the messages of all the edges, given that the body leaves in its output
    block the messages of its 4000 edges. -/
theorem writtenBack
    (hblk : ∀ (x0 x1 : Vec Ideal S4000x64 .f32) (x2 : Vec Ideal S4000x1 .f32) (x3 : Vec Ideal S4000x9 .f32) (x4 : Vec Ideal S128x64 .f32) (x5 : Vec Ideal S64 .f32) (x6 : Vec Ideal S9x64 .f32) (x7 : Vec Ideal S64 .f32) (x8 : Vec Ideal S64x64 .f32) (x9 : Vec Ideal S9x64 .f32) (x10 : Vec Ideal S64 .f32),
      Gen.out0_11 (F := Ideal) x0 x1 x2 x3 x4 x5 x6 x7 x8 x9 x10 = msgOut (R := 4000) x0 x1 x2 x3 x4 x5 x6 x7 x8 x9 x10)
    (c : Dev nD) (t : Fin cfg0.N) :
    (dat0 (F := Ideal) V c).flushed 11 t = ((cfg0.win 11).blk t).view.read (Elt Ideal) (allMsg V c) := by
  show (cfg0.win 11).cut (grid0.coords t) ((dat0 (F := Ideal) V c).after 11 t) = _
  rw [after0_11]
  refine (congrArg ((cfg0.win 11).cut (grid0.coords t)) (hblk (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t))).trans ?_
  obtain ⟨-, -, -, -, -, -, -, -, h0, h1, -⟩ := blockIndex t
  funext j
  have hj0 : (j 0).val < 4000 := (j 0).isLt
  have hj1 : (j 1).val < 64 := (j 1).isLt
  exact msgRow V c t ⟨(j 0).val, hj0⟩ ⟨(j 1).val, hj1⟩ (((cfg0.win 11).blk t).view.emb j 0) (((cfg0.win 11).blk t).view.emb j 1)
    (show win0_11.index t (0 : Fin 2) * 4000 + 1 * (j 0).val = 4000 * t.val + (j 0).val by omega)
    (show win0_11.index t (1 : Fin 2) * 64 + 1 * (j 1).val = (j 1).val by omega)

/-! ## The output's blocks tile the array -/

/-- An index of the output array is in point `t`'s block iff each coordinate is in the block's range on its axis. -/
theorem inBlock (t : Fin cfg0.N) (i : S800000x64.Idx) :
    i ∈ ((cfg0.win 11).blk t).view.set ↔ ∀ a : Fin 2, win0_11.index t a * S4000x64.size a ≤ (i a).val ∧ (i a).val < win0_11.index t a * S4000x64.size a + S4000x64.size a := by
  show i ∈ ((View.whole main_v33).slice (win0_11.rect t)).set ↔ _
  rw [View.set_slice_whole, Rect.mem_set_unit]
  exact Iff.rfl

/-- Every row `r` of the output is written by the point `r / 4000`. -/
theorem tiled (i : S800000x64.Idx) :
    ∃ t : Fin cfg0.N, (cfg0.win 11).flush t = true ∧ i ∈ ((cfg0.win 11).blk t).view.set := by
  have hi0 : (i 0).val < 800000 := (i 0).isLt
  have hi1 : (i 1).val < 64 := (i 1).isLt
  have hN : cfg0.N = 200 := N_0
  let t : Fin cfg0.N := ⟨(i 0).val / 4000, by rw [hN]; omega⟩
  have ht : t.val = (i 0).val / 4000 := rfl
  obtain ⟨-, -, -, -, -, -, -, -, h0, h1, -⟩ := blockIndex t
  refine ⟨t, flush0_11 t, ?_⟩
  rw [inBlock]
  intro a
  match a with
  | ⟨0, _⟩ => show win0_11.index t (0 : Fin 2) * 4000 ≤ (i 0).val ∧ (i 0).val < win0_11.index t (0 : Fin 2) * 4000 + 4000; omega
  | ⟨1, _⟩ => show win0_11.index t (1 : Fin 2) * 64 ≤ (i 1).val ∧ (i 1).val < win0_11.index t (1 : Fin 2) * 64 + 64; omega

end Launch0

/-- THE ARRAY after launch number 0 of the message kernel: the messages of all 800000 edges, over the arrays as the
    region finds them. -/
theorem arr0_11
    (hblk : ∀ (x0 x1 : Vec Ideal S4000x64 .f32) (x2 : Vec Ideal S4000x1 .f32) (x3 : Vec Ideal S4000x9 .f32) (x4 : Vec Ideal S128x64 .f32) (x5 : Vec Ideal S64 .f32) (x6 : Vec Ideal S9x64 .f32) (x7 : Vec Ideal S64 .f32) (x8 : Vec Ideal S64x64 .f32) (x9 : Vec Ideal S9x64 .f32) (x10 : Vec Ideal S64 .f32),
      Gen.out0_11 (F := Ideal) x0 x1 x2 x3 x4 x5 x6 x7 x8 x9 x10 = msgOut (R := 4000) x0 x1 x2 x3 x4 x5 x6 x7 x8 x9 x10)
    (V : (c : Dev nD) → (b : Ref sig .tc) → Buf (Elt Ideal) ((c : Thread nD τ).loc b)) (c : Dev nD) :
    (Gen.dat0 (F := Ideal) V c).arrAt 11 cfg0.N
      = msgOut (R := 800000) (V c main_v31) (V c main_v32) (V c main_arg3) (V c main_arg1) (V c main_v6) (V c main_v8) (V c main_v10) (V c main_v12) (V c main_v14) (V c main_v16) (V c main_v18) :=
  (dat0 (F := Ideal) V c).arrAt_eq_of_cover 11 (Launch0.allMsg V c) (fun t _ => Launch0.writtenBack V hblk c t) Launch0.tiled

end Cert.KernelIdeal.MsgArray

end
-- ==== Proof.MsgArray2.lean ====
/-
  From blocks to the array, for launch number 2 of the message kernel (the program's pallas_call 2).

  The kernel runs on a grid of 200 points.  Point t reads rows 4000 t .. 4000 t + 3999 of the four row-indexed inputs
  (the two end nodes' feature rows, the edge's extra feature, the edge's nine attributes), all of each of the seven
  weight arrays, and writes rows 4000 t .. 4000 t + 3999 of the output.  Given that the body leaves in its output block
  the messages of the 4000 edges of its input blocks, the output array after the last point holds the messages of all
  800000 edges: a message depends on its own edge's rows only, so row e of the messages over point t's blocks is row
  4000 t + e of the messages over the whole arrays; and the 200 blocks of 4000 rows tile the 800000 rows, row r lying
  in the block of point r / 4000.
-/
import proofs.«416160_j23089744183881_1_alg».proof.Proof.Gen.KernelIdeal.Frame
import proofs.«416160_j23089744183881_1_alg».proof.Proof.Spec
import Idealize.ShloMosaic.Lib.Pipeline.Value

set_option maxRecDepth 16384

noncomputable section

namespace Cert.KernelIdeal.MsgArray

open Idealize.ShloMosaic Idealize.ShloMosaic.TcCoe Idealize.ShloMosaic.ValueIdx
open Idealize.ShloMosaic.Pipeline (Dat Cfg Window)
open Cert.KernelIdeal Cert.KernelIdeal.Gen MsgPass

/-! # The message kernel's launch number 2: from the blocks to the array -/

namespace Launch2

variable (V : (c : Dev nD) → (b : Ref sig .tc) → Buf (Elt Ideal) ((c : Thread nD τ).loc b))

/-- The block index of every window at every point of the grid, decided once: point `t` of the 200 takes block `t`
    on the row axis of the four row-indexed inputs and of the output, block 0 on their column axis, and block 0 of
    each of the seven weight arrays. -/
theorem blockIndex : ∀ t : Fin cfg2.N,
      win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_11.index t (0 : Fin 2) = t.val ∧ win2_11.index t (1 : Fin 2) = 0
    ∧ win2_4.index t (0 : Fin 2) = 0 ∧ win2_4.index t (1 : Fin 2) = 0
    ∧ win2_5.index t (0 : Fin 1) = 0
    ∧ win2_6.index t (0 : Fin 2) = 0 ∧ win2_6.index t (1 : Fin 2) = 0
    ∧ win2_7.index t (0 : Fin 1) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 1) = 0 :=
  (by decide +kernel : ∀ t : Fin grid2.N, _)

/-! ## Each input block, read where it lies in its array

Entry (e, k) of a block of 4000 rows at point `t` is entry (4000 t + e, k) of the array: a block's coordinate on an
axis is its block index times the block's extent there, plus the coordinate inside the block. -/

/-- Row `e` of the block of the first end-node features is row `4000 t + e` of the array. -/
theorem rowsXI (c : Dev nD) (t : Fin cfg2.N) (e : Fin 4000) (e' : Fin 800000) (he : e'.val = 4000 * t.val + e.val) (k : Fin 64) :
    (iblk2 V c 0 t : Vec Ideal S4000x64 .f32) (ix2 e k) = (V c main_v65 : Vec Ideal S800000x64 .f32) (ix2 e' k) := by
  show V c main_v65 (((cfg2.win 0).blk t).view.emb (ix2 e k)) = V c main_v65 (ix2 e' k)
  refine congrArg (V c main_v65) ?_
  obtain ⟨h0, h1, -⟩ := blockIndex t
  funext a; apply Fin.ext
  match a with
  | ⟨0, _⟩ => show win2_0.index t (0 : Fin 2) * 4000 + 1 * e.val = e'.val; omega
  | ⟨1, _⟩ => show win2_0.index t (1 : Fin 2) * 64 + 1 * k.val = k.val; omega

/-- Row `e` of the block of the second end-node features is row `4000 t + e` of the array. -/
theorem rowsXJ (c : Dev nD) (t : Fin cfg2.N) (e : Fin 4000) (e' : Fin 800000) (he : e'.val = 4000 * t.val + e.val) (k : Fin 64) :
    (iblk2 V c 1 t : Vec Ideal S4000x64 .f32) (ix2 e k) = (V c main_v66 : Vec Ideal S800000x64 .f32) (ix2 e' k) := by
  show V c main_v66 (((cfg2.win 1).blk t).view.emb (ix2 e k)) = V c main_v66 (ix2 e' k)
  refine congrArg (V c main_v66) ?_
  obtain ⟨-, -, h0, h1, -⟩ := blockIndex t
  funext a; apply Fin.ext
  match a with
  | ⟨0, _⟩ => show win2_1.index t (0 : Fin 2) * 4000 + 1 * e.val = e'.val; omega
  | ⟨1, _⟩ => show win2_1.index t (1 : Fin 2) * 64 + 1 * k.val = k.val; omega

/-- Row `e` of the block of the edges' extra feature is row `4000 t + e` of the array. -/
theorem rowsAMF (c : Dev nD) (t : Fin cfg2.N) (e : Fin 4000) (e' : Fin 800000) (he : e'.val = 4000 * t.val + e.val) (k : Fin 1) :
    (iblk2 V c 2 t : Vec Ideal S4000x1 .f32) (ix2 e k) = (V c main_arg3 : Vec Ideal S800000x1 .f32) (ix2 e' k) := by
  show V c main_arg3 (((cfg2.win 2).blk t).view.emb (ix2 e k)) = V c main_arg3 (ix2 e' k)
  refine congrArg (V c main_arg3) ?_
  obtain ⟨-, -, -, -, h0, h1, -⟩ := blockIndex t
  funext a; apply Fin.ext
  match a with
  | ⟨0, _⟩ => show win2_2.index t (0 : Fin 2) * 4000 + 1 * e.val = e'.val; omega
  | ⟨1, _⟩ => show win2_2.index t (1 : Fin 2) * 1 + 1 * k.val = k.val; omega

/-- Row `e` of the block of the edges' attributes is row `4000 t + e` of the array. -/
theorem rowsEA (c : Dev nD) (t : Fin cfg2.N) (e : Fin 4000) (e' : Fin 800000) (he : e'.val = 4000 * t.val + e.val) (k : Fin 9) :
    (iblk2 V c 3 t : Vec Ideal S4000x9 .f32) (ix2 e k) = (V c main_arg1 : Vec Ideal S800000x9 .f32) (ix2 e' k) := by
  show V c main_arg1 (((cfg2.win 3).blk t).view.emb (ix2 e k)) = V c main_arg1 (ix2 e' k)
  refine congrArg (V c main_arg1) ?_
  obtain ⟨-, -, -, -, -, -, h0, h1, -⟩ := blockIndex t
  funext a; apply Fin.ext
  match a with
  | ⟨0, _⟩ => show win2_3.index t (0 : Fin 2) * 4000 + 1 * e.val = e'.val; omega
  | ⟨1, _⟩ => show win2_3.index t (1 : Fin 2) * 9 + 1 * k.val = k.val; omega

/-! ## Each weight's block is the whole weight array -/

theorem wholeW (c : Dev nD) (t : Fin cfg2.N) :
    (iblk2 V c 4 t : Vec Ideal S128x64 .f32) = (V c main_v40 : Vec Ideal S128x64 .f32) := by
  funext y
  show V c main_v40 (((cfg2.win 4).blk t).view.emb y) = V c main_v40 y
  refine congrArg (V c main_v40) ?_
  obtain ⟨-, -, -, -, -, -, -, -, -, -, h0, h1, -⟩ := blockIndex t
  funext a; apply Fin.ext
  match a with
  | ⟨0, _⟩ => show win2_4.index t (0 : Fin 2) * 128 + 1 * (y 0).val = (y 0).val; omega
  | ⟨1, _⟩ => show win2_4.index t (1 : Fin 2) * 64 + 1 * (y 1).val = (y 1).val; omega

theorem wholeWa (c : Dev nD) (t : Fin cfg2.N) :
    (iblk2 V c 5 t : Vec Ideal S64 .f32) = (V c main_v42 : Vec Ideal S64 .f32) := by
  funext y
  show V c main_v42 (((cfg2.win 5).blk t).view.emb y) = V c main_v42 y
  refine congrArg (V c main_v42) ?_
  obtain ⟨-, -, -, -, -, -, -, -, -, -, -, -, h0, -⟩ := blockIndex t
  funext a; apply Fin.ext
  match a with
  | ⟨0, _⟩ => show win2_5.index t (0 : Fin 1) * 64 + 1 * (y 0).val = (y 0).val; omega

theorem wholeV1 (c : Dev nD) (t : Fin cfg2.N) :
    (iblk2 V c 6 t : Vec Ideal S9x64 .f32) = (V c main_v44 : Vec Ideal S9x64 .f32) := by
  funext y
  show V c main_v44 (((cfg2.win 6).blk t).view.emb y) = V c main_v44 y
  refine congrArg (V c main_v44) ?_
  obtain ⟨-, -, -, -, -, -, -, -, -, -, -, -, -, h0, h1, -⟩ := blockIndex t
  funext a; apply Fin.ext
  match a with
  | ⟨0, _⟩ => show win2_6.index t (0 : Fin 2) * 9 + 1 * (y 0).val = (y 0).val; omega
  | ⟨1, _⟩ => show win2_6.index t (1 : Fin 2) * 64 + 1 * (y 1).val = (y 1).val; omega

theorem wholeB1 (c : Dev nD) (t : Fin cfg2.N) :
    (iblk2 V c 7 t : Vec Ideal S64 .f32) = (V c main_v46 : Vec Ideal S64 .f32) := by
  funext y
  show V c main_v46 (((cfg2.win 7).blk t).view.emb y) = V c main_v46 y
  refine congrArg (V c main_v46) ?_
  obtain ⟨-, -, -, -, -, -, -, -, -, -, -, -, -, -, -, h0, -⟩ := blockIndex t
  funext a; apply Fin.ext
  match a with
  | ⟨0, _⟩ => show win2_7.index t (0 : Fin 1) * 64 + 1 * (y 0).val = (y 0).val; omega

theorem wholeW2 (c : Dev nD) (t : Fin cfg2.N) :
    (iblk2 V c 8 t : Vec Ideal S64x64 .f32) = (V c main_v48 : Vec Ideal S64x64 .f32) := by
  funext y
  show V c main_v48 (((cfg2.win 8).blk t).view.emb y) = V c main_v48 y
  refine congrArg (V c main_v48) ?_
  obtain ⟨-, -, -, -, -, -, -, -, -, -, -, -, -, -, -, -, h0, h1, -⟩ := blockIndex t
  funext a; apply Fin.ext
  match a with
  | ⟨0, _⟩ => show win2_8.index t (0 : Fin 2) * 64 + 1 * (y 0).val = (y 0).val; omega
  | ⟨1, _⟩ => show win2_8.index t (1 : Fin 2) * 64 + 1 * (y 1).val = (y 1).val; omega

theorem wholeV2 (c : Dev nD) (t : Fin cfg2.N) :
    (iblk2 V c 9 t : Vec Ideal S9x64 .f32) = (V c main_v50 : Vec Ideal S9x64 .f32) := by
  funext y
  show V c main_v50 (((cfg2.win 9).blk t).view.emb y) = V c main_v50 y
  refine congrArg (V c main_v50) ?_
  obtain ⟨-, -, -, -, -, -, -, -, -, -, -, -, -, -, -, -, -, -, h0, h1, -⟩ := blockIndex t
  funext a; apply Fin.ext
  match a with
  | ⟨0, _⟩ => show win2_9.index t (0 : Fin 2) * 9 + 1 * (y 0).val = (y 0).val; omega
  | ⟨1, _⟩ => show win2_9.index t (1 : Fin 2) * 64 + 1 * (y 1).val = (y 1).val; omega

theorem wholeB2 (c : Dev nD) (t : Fin cfg2.N) :
    (iblk2 V c 10 t : Vec Ideal S64 .f32) = (V c main_v52 : Vec Ideal S64 .f32) := by
  funext y
  show V c main_v52 (((cfg2.win 10).blk t).view.emb y) = V c main_v52 y
  refine congrArg (V c main_v52) ?_
  obtain ⟨-, -, -, -, -, -, -, -, -, -, -, -, -, -, -, -, -, -, -, -, h0⟩ := blockIndex t
  funext a; apply Fin.ext
  match a with
  | ⟨0, _⟩ => show win2_10.index t (0 : Fin 1) * 64 + 1 * (y 0).val = (y 0).val; omega

/-! ## What a point writes back is its block of the messages of all the edges -/

/-- The messages of all 800000 edges, over the arrays as the region finds them. -/
abbrev allMsg (c : Dev nD) : Arr 800000 64 :=
  msgOut (R := 800000) (V c main_v65) (V c main_v66) (V c main_arg3) (V c main_arg1) (V c main_v40) (V c main_v42) (V c main_v44) (V c main_v46) (V c main_v48) (V c main_v50) (V c main_v52)

/-- Row `e` of the messages of the 4000 edges of point `t`'s blocks is row `4000 t + e` of the messages of all the edges:
    a message reads its own edge's rows only, and those rows of the blocks are those rows of the arrays. -/
theorem msgRow (c : Dev nD) (t : Fin cfg2.N) (e : Fin 4000) (h : Fin 64) (e' : Fin 800000) (h' : Fin 64)
    (he : e'.val = 4000 * t.val + e.val) (hh : h'.val = h.val) :
    msgAt (R := 4000) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) e h
      = msgAt (R := 800000) (V c main_v65) (V c main_v66) (V c main_arg3) (V c main_arg1) (V c main_v40) (V c main_v42) (V c main_v44) (V c main_v46) (V c main_v48) (V c main_v50) (V c main_v52) e' h' := by
  obtain rfl : h = h' := Fin.ext hh.symm
  rw [wholeW V c t, wholeWa V c t, wholeV1 V c t, wholeB1 V c t, wholeW2 V c t, wholeV2 V c t, wholeB2 V c t]
  exact msgAt_congr (V c main_v40) (V c main_v42) (V c main_v44) (V c main_v46) (V c main_v48) (V c main_v50) (V c main_v52)
    (fun k => rowsXI V c t e e' he k) (fun k => rowsXJ V c t e e' he k) (rowsAMF V c t e e' he 0)
    (fun r => rowsEA V c t e e' he r) h

/-- WHAT POINT `t` WRITES BACK is block `t` of the messages of all the edges, given that the body leaves in its output
    block the messages of its 4000 edges. -/
theorem writtenBack
    (hblk : ∀ (x0 x1 : Vec Ideal S4000x64 .f32) (x2 : Vec Ideal S4000x1 .f32) (x3 : Vec Ideal S4000x9 .f32) (x4 : Vec Ideal S128x64 .f32) (x5 : Vec Ideal S64 .f32) (x6 : Vec Ideal S9x64 .f32) (x7 : Vec Ideal S64 .f32) (x8 : Vec Ideal S64x64 .f32) (x9 : Vec Ideal S9x64 .f32) (x10 : Vec Ideal S64 .f32),
      Gen.out2_11 (F := Ideal) x0 x1 x2 x3 x4 x5 x6 x7 x8 x9 x10 = msgOut (R := 4000) x0 x1 x2 x3 x4 x5 x6 x7 x8 x9 x10)
    (c : Dev nD) (t : Fin cfg2.N) :
    (dat2 (F := Ideal) V c).flushed 11 t = ((cfg2.win 11).blk t).view.read (Elt Ideal) (allMsg V c) := by
  show (cfg2.win 11).cut (grid2.coords t) ((dat2 (F := Ideal) V c).after 11 t) = _
  rw [after2_11]
  refine (congrArg ((cfg2.win 11).cut (grid2.coords t)) (hblk (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t))).trans ?_
  obtain ⟨-, -, -, -, -, -, -, -, h0, h1, -⟩ := blockIndex t
  funext j
  have hj0 : (j 0).val < 4000 := (j 0).isLt
  have hj1 : (j 1).val < 64 := (j 1).isLt
  exact msgRow V c t ⟨(j 0).val, hj0⟩ ⟨(j 1).val, hj1⟩ (((cfg2.win 11).blk t).view.emb j 0) (((cfg2.win 11).blk t).view.emb j 1)
    (show win2_11.index t (0 : Fin 2) * 4000 + 1 * (j 0).val = 4000 * t.val + (j 0).val by omega)
    (show win2_11.index t (1 : Fin 2) * 64 + 1 * (j 1).val = (j 1).val by omega)

/-! ## The output's blocks tile the array -/

/-- An index of the output array is in point `t`'s block iff each coordinate is in the block's range on its axis. -/
theorem inBlock (t : Fin cfg2.N) (i : S800000x64.Idx) :
    i ∈ ((cfg2.win 11).blk t).view.set ↔ ∀ a : Fin 2, win2_11.index t a * S4000x64.size a ≤ (i a).val ∧ (i a).val < win2_11.index t a * S4000x64.size a + S4000x64.size a := by
  show i ∈ ((View.whole main_v67).slice (win2_11.rect t)).set ↔ _
  rw [View.set_slice_whole, Rect.mem_set_unit]
  exact Iff.rfl

/-- Every row `r` of the output is written by the point `r / 4000`. -/
theorem tiled (i : S800000x64.Idx) :
    ∃ t : Fin cfg2.N, (cfg2.win 11).flush t = true ∧ i ∈ ((cfg2.win 11).blk t).view.set := by
  have hi0 : (i 0).val < 800000 := (i 0).isLt
  have hi1 : (i 1).val < 64 := (i 1).isLt
  have hN : cfg2.N = 200 := N_2
  let t : Fin cfg2.N := ⟨(i 0).val / 4000, by rw [hN]; omega⟩
  have ht : t.val = (i 0).val / 4000 := rfl
  obtain ⟨-, -, -, -, -, -, -, -, h0, h1, -⟩ := blockIndex t
  refine ⟨t, flush2_11 t, ?_⟩
  rw [inBlock]
  intro a
  match a with
  | ⟨0, _⟩ => show win2_11.index t (0 : Fin 2) * 4000 ≤ (i 0).val ∧ (i 0).val < win2_11.index t (0 : Fin 2) * 4000 + 4000; omega
  | ⟨1, _⟩ => show win2_11.index t (1 : Fin 2) * 64 ≤ (i 1).val ∧ (i 1).val < win2_11.index t (1 : Fin 2) * 64 + 64; omega

end Launch2

/-- THE ARRAY after launch number 2 of the message kernel: the messages of all 800000 edges, over the arrays as the
    region finds them. -/
theorem arr2_11
    (hblk : ∀ (x0 x1 : Vec Ideal S4000x64 .f32) (x2 : Vec Ideal S4000x1 .f32) (x3 : Vec Ideal S4000x9 .f32) (x4 : Vec Ideal S128x64 .f32) (x5 : Vec Ideal S64 .f32) (x6 : Vec Ideal S9x64 .f32) (x7 : Vec Ideal S64 .f32) (x8 : Vec Ideal S64x64 .f32) (x9 : Vec Ideal S9x64 .f32) (x10 : Vec Ideal S64 .f32),
      Gen.out2_11 (F := Ideal) x0 x1 x2 x3 x4 x5 x6 x7 x8 x9 x10 = msgOut (R := 4000) x0 x1 x2 x3 x4 x5 x6 x7 x8 x9 x10)
    (V : (c : Dev nD) → (b : Ref sig .tc) → Buf (Elt Ideal) ((c : Thread nD τ).loc b)) (c : Dev nD) :
    (Gen.dat2 (F := Ideal) V c).arrAt 11 cfg2.N
      = msgOut (R := 800000) (V c main_v65) (V c main_v66) (V c main_arg3) (V c main_arg1) (V c main_v40) (V c main_v42) (V c main_v44) (V c main_v46) (V c main_v48) (V c main_v50) (V c main_v52) :=
  (dat2 (F := Ideal) V c).arrAt_eq_of_cover 11 (Launch2.allMsg V c) (fun t _ => Launch2.writtenBack V hblk c t) Launch2.tiled

end Cert.KernelIdeal.MsgArray

end
-- ==== Proof.UpdArray.lean ====
/-
  From blocks of rows to the array, for the first launch of the update stage.

  The launch walks a grid of 10 points.  Point t is handed rows 5000 t .. 5000 t + 4999 of the three
  row-indexed inputs (the old features, the summed messages, the node attributes) and the six weight arrays whole, and
  writes rows 5000 t .. 5000 t + 4999 of the output.  Given that the body computes, on any block of 5000 rows, the
  specification's new features of those rows, the output array after the 10 points is the specification's new
  features of all 50000 nodes: row n of a block at point t is row 5000 t + n of the array, the new features of a
  node depend on that node's row of the row-indexed inputs only, and the 10 blocks of 5000 rows cover the 50000 rows.
-/
import proofs.«416160_j23089744183881_1_alg».proof.Proof.Gen.KernelIdeal.Frame
import proofs.«416160_j23089744183881_1_alg».proof.Proof.Spec
import Idealize.ShloMosaic.Lib.Pipeline.Value

set_option maxRecDepth 16384

noncomputable section

namespace Cert.KernelIdeal.UpdArray

open Cert.KernelIdeal Cert.KernelIdeal.Gen Idealize.ShloMosaic Idealize.ShloMosaic.TcCoe Idealize.SL.Sem
open Idealize.ShloMosaic.Pipeline (Dat)
open Idealize.ShloMosaic.ValueIdx
open MsgPass

section Blocks

variable (V : (c : Dev nD) → (b : Ref sig .tc) → Buf (Elt Ideal) ((c : Thread nD τ).loc b))

/-! ## The row-local step, over plain arrays -/

/-- Row n of the new features over a block of 5000 rows is row n' of the new features over all 50000 rows, when row n
    of each row-indexed block is row n' of its array and the six weight blocks are the weight arrays. -/
theorem updAt_of_rows (X AGG : Arr 50000 64) (NA : Arr 50000 9) (Wu1 : Arr 128 64) (Vu1 : Arr 9 64) (bu1 : Vec1 64)
    (Wu2 : Arr 64 64) (Vu2 : Arr 9 64) (bu2 : Vec1 64)
    (x0 x1 : Arr 5000 64) (x2 : Arr 5000 9) (x3 : Arr 128 64) (x4 : Arr 9 64) (x5 : Vec1 64)
    (x6 : Arr 64 64) (x7 : Arr 9 64) (x8 : Vec1 64) (n : Fin 5000) (n' : Fin 50000)
    (h0 : ∀ k : Fin 64, x0 (ix2 n k) = X (ix2 n' k)) (h1 : ∀ k : Fin 64, x1 (ix2 n k) = AGG (ix2 n' k))
    (h2 : ∀ r : Fin 9, x2 (ix2 n r) = NA (ix2 n' r))
    (h3 : x3 = Wu1) (h4 : x4 = Vu1) (h5 : x5 = bu1) (h6 : x6 = Wu2) (h7 : x7 = Vu2) (h8 : x8 = bu2) (h : Fin 64) :
    updAt x0 x1 x2 x3 x4 x5 x6 x7 x8 n h = updAt X AGG NA Wu1 Vu1 bu1 Wu2 Vu2 bu2 n' h := by
  subst h3 h4 h5 h6 h7 h8
  exact updAt_congr x3 x4 x5 x6 x7 x8 h0 h1 h2 h

/-! # The grid and the windows' blocks -/

/-- The grid of the launch has 10 points. -/
theorem pt1_lt (t : Fin cfg1.N) : t.val < 10 := lt_of_lt_of_eq t.isLt N_1

/-- The row of the array under row n of the block at point t: 5000 t + n. -/
def row1 (t : Fin cfg1.N) (n : Fin 5000) : Fin 50000 :=
  ⟨5000 * t.val + n.val, by have := pt1_lt t; have := n.isLt; omega⟩

/-- The block indices, decided over the 10 points: a row-indexed window and the output are at block t along the rows
    and block 0 along the columns; a weight window is at block 0 on every axis. -/
theorem blkIdx1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ win1_5.index t (0 : Fin 1) = 0
    ∧ (win1_6.index t (0 : Fin 2) = 0 ∧ win1_6.index t (1 : Fin 2) = 0)
    ∧ (win1_7.index t (0 : Fin 2) = 0 ∧ win1_7.index t (1 : Fin 2) = 0)
    ∧ win1_8.index t (0 : Fin 1) = 0
    ∧ (win1_9.index t (0 : Fin 2) = t.val ∧ win1_9.index t (1 : Fin 2) = 0) :=
  (by decide +kernel : ∀ t : Fin grid1.N, _)

/-! ## Each input block, read off its array -/

/-- Row n of the block of old features at point t is row 5000 t + n of the array. -/
theorem blk1_0_apply (c : Dev nD) (t : Fin cfg1.N) (n : Fin 5000) (k : Fin 64) :
    (iblk1 (F := Ideal) V c 0 t : Vec Ideal S5000x64 .f32) (ix2 n k) = (V c main_arg0 : Vec Ideal S50000x64 .f32) (ix2 (row1 t n) k) := by
  show V c main_arg0 (((cfg1.win 0).blk t).view.emb (ix2 n k)) = V c main_arg0 (ix2 (row1 t n) k)
  refine congrArg (V c main_arg0) ?_
  obtain ⟨⟨e0, e1⟩, -⟩ := blkIdx1 t
  funext a; apply Fin.ext
  match a with
  | ⟨0, _⟩ => show win1_0.index t (0 : Fin 2) * 5000 + 1 * n.val = 5000 * t.val + n.val; omega
  | ⟨1, _⟩ => show win1_0.index t (1 : Fin 2) * 64 + 1 * k.val = k.val; omega

/-- Row n of the block of summed messages at point t is row 5000 t + n of the array. -/
theorem blk1_1_apply (c : Dev nD) (t : Fin cfg1.N) (n : Fin 5000) (k : Fin 64) :
    (iblk1 (F := Ideal) V c 1 t : Vec Ideal S5000x64 .f32) (ix2 n k) = (V c main_v36 : Vec Ideal S50000x64 .f32) (ix2 (row1 t n) k) := by
  show V c main_v36 (((cfg1.win 1).blk t).view.emb (ix2 n k)) = V c main_v36 (ix2 (row1 t n) k)
  refine congrArg (V c main_v36) ?_
  obtain ⟨-, ⟨e0, e1⟩, -⟩ := blkIdx1 t
  funext a; apply Fin.ext
  match a with
  | ⟨0, _⟩ => show win1_1.index t (0 : Fin 2) * 5000 + 1 * n.val = 5000 * t.val + n.val; omega
  | ⟨1, _⟩ => show win1_1.index t (1 : Fin 2) * 64 + 1 * k.val = k.val; omega

/-- Row n of the block of node attributes at point t is row 5000 t + n of the array. -/
theorem blk1_2_apply (c : Dev nD) (t : Fin cfg1.N) (n : Fin 5000) (r : Fin 9) :
    (iblk1 (F := Ideal) V c 2 t : Vec Ideal S5000x9 .f32) (ix2 n r) = (V c main_arg2 : Vec Ideal S50000x9 .f32) (ix2 (row1 t n) r) := by
  show V c main_arg2 (((cfg1.win 2).blk t).view.emb (ix2 n r)) = V c main_arg2 (ix2 (row1 t n) r)
  refine congrArg (V c main_arg2) ?_
  obtain ⟨-, -, ⟨e0, e1⟩, -⟩ := blkIdx1 t
  funext a; apply Fin.ext
  match a with
  | ⟨0, _⟩ => show win1_2.index t (0 : Fin 2) * 5000 + 1 * n.val = 5000 * t.val + n.val; omega
  | ⟨1, _⟩ => show win1_2.index t (1 : Fin 2) * 9 + 1 * r.val = r.val; omega

/-- A weight window's block at any point is its whole array (block index 0 on every axis). -/
theorem blk1_3_eq (c : Dev nD) (t : Fin cfg1.N) :
    (iblk1 (F := Ideal) V c 3 t : Vec Ideal S128x64 .f32) = V c main_v20 := by
  funext y
  show V c main_v20 (((cfg1.win 3).blk t).view.emb y) = V c main_v20 y
  refine congrArg (V c main_v20) ?_
  obtain ⟨-, -, -, ⟨e0, e1⟩, -⟩ := blkIdx1 t
  funext a; apply Fin.ext
  match a with
  | ⟨0, _⟩ => show win1_3.index t (0 : Fin 2) * 128 + 1 * (y 0).val = (y 0).val; omega
  | ⟨1, _⟩ => show win1_3.index t (1 : Fin 2) * 64 + 1 * (y 1).val = (y 1).val; omega

theorem blk1_4_eq (c : Dev nD) (t : Fin cfg1.N) :
    (iblk1 (F := Ideal) V c 4 t : Vec Ideal S9x64 .f32) = V c main_v22 := by
  funext y
  show V c main_v22 (((cfg1.win 4).blk t).view.emb y) = V c main_v22 y
  refine congrArg (V c main_v22) ?_
  obtain ⟨-, -, -, -, ⟨e0, e1⟩, -⟩ := blkIdx1 t
  funext a; apply Fin.ext
  match a with
  | ⟨0, _⟩ => show win1_4.index t (0 : Fin 2) * 9 + 1 * (y 0).val = (y 0).val; omega
  | ⟨1, _⟩ => show win1_4.index t (1 : Fin 2) * 64 + 1 * (y 1).val = (y 1).val; omega

theorem blk1_5_eq (c : Dev nD) (t : Fin cfg1.N) :
    (iblk1 (F := Ideal) V c 5 t : Vec Ideal S64 .f32) = V c main_v24 := by
  funext y
  show V c main_v24 (((cfg1.win 5).blk t).view.emb y) = V c main_v24 y
  refine congrArg (V c main_v24) ?_
  obtain ⟨-, -, -, -, -, e0, -⟩ := blkIdx1 t
  funext a; apply Fin.ext
  match a with
  | ⟨0, _⟩ => show win1_5.index t (0 : Fin 1) * 64 + 1 * (y 0).val = (y 0).val; omega

theorem blk1_6_eq (c : Dev nD) (t : Fin cfg1.N) :
    (iblk1 (F := Ideal) V c 6 t : Vec Ideal S64x64 .f32) = V c main_v26 := by
  funext y
  show V c main_v26 (((cfg1.win 6).blk t).view.emb y) = V c main_v26 y
  refine congrArg (V c main_v26) ?_
  obtain ⟨-, -, -, -, -, -, ⟨e0, e1⟩, -⟩ := blkIdx1 t
  funext a; apply Fin.ext
  match a with
  | ⟨0, _⟩ => show win1_6.index t (0 : Fin 2) * 64 + 1 * (y 0).val = (y 0).val; omega
  | ⟨1, _⟩ => show win1_6.index t (1 : Fin 2) * 64 + 1 * (y 1).val = (y 1).val; omega

theorem blk1_7_eq (c : Dev nD) (t : Fin cfg1.N) :
    (iblk1 (F := Ideal) V c 7 t : Vec Ideal S9x64 .f32) = V c main_v28 := by
  funext y
  show V c main_v28 (((cfg1.win 7).blk t).view.emb y) = V c main_v28 y
  refine congrArg (V c main_v28) ?_
  obtain ⟨-, -, -, -, -, -, -, ⟨e0, e1⟩, -⟩ := blkIdx1 t
  funext a; apply Fin.ext
  match a with
  | ⟨0, _⟩ => show win1_7.index t (0 : Fin 2) * 9 + 1 * (y 0).val = (y 0).val; omega
  | ⟨1, _⟩ => show win1_7.index t (1 : Fin 2) * 64 + 1 * (y 1).val = (y 1).val; omega

theorem blk1_8_eq (c : Dev nD) (t : Fin cfg1.N) :
    (iblk1 (F := Ideal) V c 8 t : Vec Ideal S64 .f32) = V c main_v30 := by
  funext y
  show V c main_v30 (((cfg1.win 8).blk t).view.emb y) = V c main_v30 y
  refine congrArg (V c main_v30) ?_
  obtain ⟨-, -, -, -, -, -, -, -, e0, -⟩ := blkIdx1 t
  funext a; apply Fin.ext
  match a with
  | ⟨0, _⟩ => show win1_8.index t (0 : Fin 1) * 64 + 1 * (y 0).val = (y 0).val; omega

/-! ## What a point writes back is its block of the whole array's new features -/

/-- The new features of all 50000 nodes, from the arrays the launch finds. -/
def newFeat1 (c : Dev nD) : Vec Ideal S50000x64 .f32 :=
  updOut (R := 50000) (V c main_arg0) (V c main_v36) (V c main_arg2) (V c main_v20) (V c main_v22) (V c main_v24)
    (V c main_v26) (V c main_v28) (V c main_v30)

/-- The hypothesis on the body: on any block of 5000 rows it leaves the specification's new features of those rows. -/
def BodyIsSpec1 : Prop :=
  ∀ (x0 x1 : Vec Ideal S5000x64 .f32) (x2 : Vec Ideal S5000x9 .f32) (x3 : Vec Ideal S128x64 .f32) (x4 : Vec Ideal S9x64 .f32)
    (x5 : Vec Ideal S64 .f32) (x6 : Vec Ideal S64x64 .f32) (x7 : Vec Ideal S9x64 .f32) (x8 : Vec Ideal S64 .f32),
    Gen.out1_9 (F := Ideal) x0 x1 x2 x3 x4 x5 x6 x7 x8 = updOut (R := 5000) x0 x1 x2 x3 x4 x5 x6 x7 x8

/-- The new features over the blocks at point t, at row n, are the new features over the arrays at row 5000 t + n. -/
theorem updAt_blk1 (c : Dev nD) (t : Fin cfg1.N) (n : Fin 5000) (h : Fin 64) :
    updAt (R := 5000) (iblk1 (F := Ideal) V c 0 t) (iblk1 (F := Ideal) V c 1 t) (iblk1 (F := Ideal) V c 2 t)
        (iblk1 (F := Ideal) V c 3 t) (iblk1 (F := Ideal) V c 4 t) (iblk1 (F := Ideal) V c 5 t) (iblk1 (F := Ideal) V c 6 t)
        (iblk1 (F := Ideal) V c 7 t) (iblk1 (F := Ideal) V c 8 t) n h
      = updAt (R := 50000) (V c main_arg0) (V c main_v36) (V c main_arg2) (V c main_v20) (V c main_v22) (V c main_v24)
        (V c main_v26) (V c main_v28) (V c main_v30) (row1 t n) h :=
  updAt_of_rows (V c main_arg0) (V c main_v36) (V c main_arg2) (V c main_v20) (V c main_v22) (V c main_v24)
    (V c main_v26) (V c main_v28) (V c main_v30)
    (iblk1 (F := Ideal) V c 0 t) (iblk1 (F := Ideal) V c 1 t) (iblk1 (F := Ideal) V c 2 t)
    (iblk1 (F := Ideal) V c 3 t) (iblk1 (F := Ideal) V c 4 t) (iblk1 (F := Ideal) V c 5 t) (iblk1 (F := Ideal) V c 6 t)
    (iblk1 (F := Ideal) V c 7 t) (iblk1 (F := Ideal) V c 8 t) n (row1 t n)
    (fun k => blk1_0_apply V c t n k) (fun k => blk1_1_apply V c t n k) (fun r => blk1_2_apply V c t n r)
    (blk1_3_eq V c t) (blk1_4_eq V c t) (blk1_5_eq V c t) (blk1_6_eq V c t) (blk1_7_eq V c t) (blk1_8_eq V c t) h

/-- WHAT POINT t WRITES BACK is block t of the whole array's new features. -/
theorem flushed1_eq (hblk : BodyIsSpec1) (c : Dev nD) (t : Fin cfg1.N) :
    (dat1 (F := Ideal) V c).flushed 9 t = ((cfg1.win 9).blk t).view.read (Elt Ideal) (newFeat1 V c) := by
  show (cfg1.win 9).cut (grid1.coords t) ((dat1 (F := Ideal) V c).after 9 t) = _
  rw [after1_9]
  rw [hblk (iblk1 (F := Ideal) V c 0 t) (iblk1 (F := Ideal) V c 1 t) (iblk1 (F := Ideal) V c 2 t)
    (iblk1 (F := Ideal) V c 3 t) (iblk1 (F := Ideal) V c 4 t) (iblk1 (F := Ideal) V c 5 t) (iblk1 (F := Ideal) V c 6 t)
    (iblk1 (F := Ideal) V c 7 t) (iblk1 (F := Ideal) V c 8 t)]
  funext j
  have hj0 : (j 0).val < 5000 := (j 0).isLt
  have hj1 : (j 1).val < 64 := (j 1).isLt
  obtain ⟨-, -, -, -, -, -, -, -, -, e0, e1⟩ := blkIdx1 t
  -- the entry of the array under entry j of the block: row 5000 t + j 0, column j 1
  have hemb : ((cfg1.win 9).blk t).view.emb j = (ix2 (row1 t ⟨(j 0).val, hj0⟩) ⟨(j 1).val, hj1⟩ : S50000x64.Idx) := by
    funext a; apply Fin.ext
    match a with
    | ⟨0, _⟩ => show win1_9.index t (0 : Fin 2) * 5000 + 1 * (j 0).val = 5000 * t.val + (j 0).val; omega
    | ⟨1, _⟩ => show win1_9.index t (1 : Fin 2) * 64 + 1 * (j 1).val = (j 1).val; omega
  show updAt (R := 5000) (iblk1 (F := Ideal) V c 0 t) (iblk1 (F := Ideal) V c 1 t) (iblk1 (F := Ideal) V c 2 t)
        (iblk1 (F := Ideal) V c 3 t) (iblk1 (F := Ideal) V c 4 t) (iblk1 (F := Ideal) V c 5 t) (iblk1 (F := Ideal) V c 6 t)
        (iblk1 (F := Ideal) V c 7 t) (iblk1 (F := Ideal) V c 8 t) ⟨(j 0).val, hj0⟩ ⟨(j 1).val, hj1⟩
      = newFeat1 V c (((cfg1.win 9).blk t).view.emb j)
  rw [hemb]
  exact updAt_blk1 V c t ⟨(j 0).val, hj0⟩ ⟨(j 1).val, hj1⟩

/-! ## The 10 blocks of 5000 rows cover the 50000 rows -/

/-- An entry of the array is in point t's block iff each coordinate is in the block's range on its axis. -/
theorem mem_blk1 (t : Fin cfg1.N) (i : S50000x64.Idx) :
    i ∈ ((cfg1.win 9).blk t).view.set ↔ ∀ a : Fin 2, win1_9.index t a * S5000x64.size a ≤ (i a).val ∧ (i a).val < win1_9.index t a * S5000x64.size a + S5000x64.size a := by
  show i ∈ ((View.whole main_v37).slice (win1_9.rect t)).set ↔ _
  rw [View.set_slice_whole, Rect.mem_set_unit]
  exact Iff.rfl

/-- Row r of the array is in the block of point r / 5000. -/
theorem cover1 (i : S50000x64.Idx) : ∃ t : Fin cfg1.N, (cfg1.win 9).flush t = true ∧ i ∈ ((cfg1.win 9).blk t).view.set := by
  have hi0 : (i 0).val < 50000 := (i 0).isLt
  have hi1 : (i 1).val < 64 := (i 1).isLt
  have hN : grid1.N = 10 := N_1
  let t : Fin cfg1.N := ⟨(i 0).val / 5000, by show (i 0).val / 5000 < grid1.N; omega⟩
  obtain ⟨-, -, -, -, -, -, -, -, -, e0, e1⟩ := blkIdx1 t
  have ht : t.val = (i 0).val / 5000 := rfl
  refine ⟨t, flush1_9 t, ?_⟩
  rw [mem_blk1]
  intro a
  match a with
  | ⟨0, _⟩ => show win1_9.index t (0 : Fin 2) * 5000 ≤ (i 0).val ∧ (i 0).val < win1_9.index t (0 : Fin 2) * 5000 + 5000; omega
  | ⟨1, _⟩ => show win1_9.index t (1 : Fin 2) * 64 ≤ (i 1).val ∧ (i 1).val < win1_9.index t (1 : Fin 2) * 64 + 64; omega

end Blocks

/-! # The output array after the launch -/

/-- THE OUTPUT ARRAY after the 10 points of the first launch of the update stage is the specification's new features of all 50000 nodes. -/
theorem arr1_9 (hblk : ∀ (x0 x1 : Vec Ideal S5000x64 .f32) (x2 : Vec Ideal S5000x9 .f32) (x3 : Vec Ideal S128x64 .f32) (x4 : Vec Ideal S9x64 .f32)
      (x5 : Vec Ideal S64 .f32) (x6 : Vec Ideal S64x64 .f32) (x7 : Vec Ideal S9x64 .f32) (x8 : Vec Ideal S64 .f32),
      Gen.out1_9 (F := Ideal) x0 x1 x2 x3 x4 x5 x6 x7 x8 = updOut (R := 5000) x0 x1 x2 x3 x4 x5 x6 x7 x8)
    (V : (c : Dev nD) → (b : Ref sig .tc) → Buf (Elt Ideal) ((c : Thread nD τ).loc b)) (c : Dev nD) :
    (Gen.dat1 (F := Ideal) V c).arrAt 9 cfg1.N
      = updOut (R := 50000) (V c main_arg0) (V c main_v36) (V c main_arg2) (V c main_v20) (V c main_v22) (V c main_v24)
          (V c main_v26) (V c main_v28) (V c main_v30) :=
  (dat1 (F := Ideal) V c).arrAt_eq_of_cover 9 (newFeat1 V c) (fun t _ => flushed1_eq V hblk c t) cover1

end Cert.KernelIdeal.UpdArray

end
-- ==== Proof.UpdArray3.lean ====
/-
  From blocks of rows to the array, for the second launch of the update stage.

  The launch walks a grid of 10 points.  Point t is handed rows 5000 t .. 5000 t + 4999 of the three
  row-indexed inputs (the old features, the summed messages, the node attributes) and the six weight arrays whole, and
  writes rows 5000 t .. 5000 t + 4999 of the output.  Given that the body computes, on any block of 5000 rows, the
  specification's new features of those rows, the output array after the 10 points is the specification's new
  features of all 50000 nodes: row n of a block at point t is row 5000 t + n of the array, the new features of a
  node depend on that node's row of the row-indexed inputs only, and the 10 blocks of 5000 rows cover the 50000 rows.
-/
import proofs.«416160_j23089744183881_1_alg».proof.Proof.Gen.KernelIdeal.Frame
import proofs.«416160_j23089744183881_1_alg».proof.Proof.Spec
import Idealize.ShloMosaic.Lib.Pipeline.Value

set_option maxRecDepth 16384

noncomputable section

namespace Cert.KernelIdeal.UpdArray

open Cert.KernelIdeal Cert.KernelIdeal.Gen Idealize.ShloMosaic Idealize.ShloMosaic.TcCoe Idealize.SL.Sem
open Idealize.ShloMosaic.Pipeline (Dat)
open Idealize.ShloMosaic.ValueIdx
open MsgPass

section Blocks

variable (V : (c : Dev nD) → (b : Ref sig .tc) → Buf (Elt Ideal) ((c : Thread nD τ).loc b))

/-! ## The row-local step, over plain arrays -/

/-- Row n of the new features over a block of 5000 rows is row n' of the new features over all 50000 rows, when row n
    of each row-indexed block is row n' of its array and the six weight blocks are the weight arrays. -/
theorem updAt_of_rows3 (X AGG : Arr 50000 64) (NA : Arr 50000 9) (Wu1 : Arr 128 64) (Vu1 : Arr 9 64) (bu1 : Vec1 64)
    (Wu2 : Arr 64 64) (Vu2 : Arr 9 64) (bu2 : Vec1 64)
    (x0 x1 : Arr 5000 64) (x2 : Arr 5000 9) (x3 : Arr 128 64) (x4 : Arr 9 64) (x5 : Vec1 64)
    (x6 : Arr 64 64) (x7 : Arr 9 64) (x8 : Vec1 64) (n : Fin 5000) (n' : Fin 50000)
    (h0 : ∀ k : Fin 64, x0 (ix2 n k) = X (ix2 n' k)) (h1 : ∀ k : Fin 64, x1 (ix2 n k) = AGG (ix2 n' k))
    (h2 : ∀ r : Fin 9, x2 (ix2 n r) = NA (ix2 n' r))
    (h3 : x3 = Wu1) (h4 : x4 = Vu1) (h5 : x5 = bu1) (h6 : x6 = Wu2) (h7 : x7 = Vu2) (h8 : x8 = bu2) (h : Fin 64) :
    updAt x0 x1 x2 x3 x4 x5 x6 x7 x8 n h = updAt X AGG NA Wu1 Vu1 bu1 Wu2 Vu2 bu2 n' h := by
  subst h3 h4 h5 h6 h7 h8
  exact updAt_congr x3 x4 x5 x6 x7 x8 h0 h1 h2 h

/-! # The grid and the windows' blocks -/

/-- The grid of the launch has 10 points. -/
theorem pt3_lt (t : Fin cfg3.N) : t.val < 10 := lt_of_lt_of_eq t.isLt N_3

/-- The row of the array under row n of the block at point t: 5000 t + n. -/
def row3 (t : Fin cfg3.N) (n : Fin 5000) : Fin 50000 :=
  ⟨5000 * t.val + n.val, by have := pt3_lt t; have := n.isLt; omega⟩

/-- The block indices, decided over the 10 points: a row-indexed window and the output are at block t along the rows
    and block 0 along the columns; a weight window is at block 0 on every axis. -/
theorem blkIdx3 : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ win3_5.index t (0 : Fin 1) = 0
    ∧ (win3_6.index t (0 : Fin 2) = 0 ∧ win3_6.index t (1 : Fin 2) = 0)
    ∧ (win3_7.index t (0 : Fin 2) = 0 ∧ win3_7.index t (1 : Fin 2) = 0)
    ∧ win3_8.index t (0 : Fin 1) = 0
    ∧ (win3_9.index t (0 : Fin 2) = t.val ∧ win3_9.index t (1 : Fin 2) = 0) :=
  (by decide +kernel : ∀ t : Fin grid3.N, _)

/-! ## Each input block, read off its array -/

/-- Row n of the block of old features at point t is row 5000 t + n of the array. -/
theorem blk3_0_apply (c : Dev nD) (t : Fin cfg3.N) (n : Fin 5000) (k : Fin 64) :
    (iblk3 (F := Ideal) V c 0 t : Vec Ideal S5000x64 .f32) (ix2 n k) = (V c main_v37 : Vec Ideal S50000x64 .f32) (ix2 (row3 t n) k) := by
  show V c main_v37 (((cfg3.win 0).blk t).view.emb (ix2 n k)) = V c main_v37 (ix2 (row3 t n) k)
  refine congrArg (V c main_v37) ?_
  obtain ⟨⟨e0, e1⟩, -⟩ := blkIdx3 t
  funext a; apply Fin.ext
  match a with
  | ⟨0, _⟩ => show win3_0.index t (0 : Fin 2) * 5000 + 1 * n.val = 5000 * t.val + n.val; omega
  | ⟨1, _⟩ => show win3_0.index t (1 : Fin 2) * 64 + 1 * k.val = k.val; omega

/-- Row n of the block of summed messages at point t is row 5000 t + n of the array. -/
theorem blk3_1_apply (c : Dev nD) (t : Fin cfg3.N) (n : Fin 5000) (k : Fin 64) :
    (iblk3 (F := Ideal) V c 1 t : Vec Ideal S5000x64 .f32) (ix2 n k) = (V c main_v70 : Vec Ideal S50000x64 .f32) (ix2 (row3 t n) k) := by
  show V c main_v70 (((cfg3.win 1).blk t).view.emb (ix2 n k)) = V c main_v70 (ix2 (row3 t n) k)
  refine congrArg (V c main_v70) ?_
  obtain ⟨-, ⟨e0, e1⟩, -⟩ := blkIdx3 t
  funext a; apply Fin.ext
  match a with
  | ⟨0, _⟩ => show win3_1.index t (0 : Fin 2) * 5000 + 1 * n.val = 5000 * t.val + n.val; omega
  | ⟨1, _⟩ => show win3_1.index t (1 : Fin 2) * 64 + 1 * k.val = k.val; omega

/-- Row n of the block of node attributes at point t is row 5000 t + n of the array. -/
theorem blk3_2_apply (c : Dev nD) (t : Fin cfg3.N) (n : Fin 5000) (r : Fin 9) :
    (iblk3 (F := Ideal) V c 2 t : Vec Ideal S5000x9 .f32) (ix2 n r) = (V c main_arg2 : Vec Ideal S50000x9 .f32) (ix2 (row3 t n) r) := by
  show V c main_arg2 (((cfg3.win 2).blk t).view.emb (ix2 n r)) = V c main_arg2 (ix2 (row3 t n) r)
  refine congrArg (V c main_arg2) ?_
  obtain ⟨-, -, ⟨e0, e1⟩, -⟩ := blkIdx3 t
  funext a; apply Fin.ext
  match a with
  | ⟨0, _⟩ => show win3_2.index t (0 : Fin 2) * 5000 + 1 * n.val = 5000 * t.val + n.val; omega
  | ⟨1, _⟩ => show win3_2.index t (1 : Fin 2) * 9 + 1 * r.val = r.val; omega

/-- A weight window's block at any point is its whole array (block index 0 on every axis). -/
theorem blk3_3_eq (c : Dev nD) (t : Fin cfg3.N) :
    (iblk3 (F := Ideal) V c 3 t : Vec Ideal S128x64 .f32) = V c main_v54 := by
  funext y
  show V c main_v54 (((cfg3.win 3).blk t).view.emb y) = V c main_v54 y
  refine congrArg (V c main_v54) ?_
  obtain ⟨-, -, -, ⟨e0, e1⟩, -⟩ := blkIdx3 t
  funext a; apply Fin.ext
  match a with
  | ⟨0, _⟩ => show win3_3.index t (0 : Fin 2) * 128 + 1 * (y 0).val = (y 0).val; omega
  | ⟨1, _⟩ => show win3_3.index t (1 : Fin 2) * 64 + 1 * (y 1).val = (y 1).val; omega

theorem blk3_4_eq (c : Dev nD) (t : Fin cfg3.N) :
    (iblk3 (F := Ideal) V c 4 t : Vec Ideal S9x64 .f32) = V c main_v56 := by
  funext y
  show V c main_v56 (((cfg3.win 4).blk t).view.emb y) = V c main_v56 y
  refine congrArg (V c main_v56) ?_
  obtain ⟨-, -, -, -, ⟨e0, e1⟩, -⟩ := blkIdx3 t
  funext a; apply Fin.ext
  match a with
  | ⟨0, _⟩ => show win3_4.index t (0 : Fin 2) * 9 + 1 * (y 0).val = (y 0).val; omega
  | ⟨1, _⟩ => show win3_4.index t (1 : Fin 2) * 64 + 1 * (y 1).val = (y 1).val; omega

theorem blk3_5_eq (c : Dev nD) (t : Fin cfg3.N) :
    (iblk3 (F := Ideal) V c 5 t : Vec Ideal S64 .f32) = V c main_v58 := by
  funext y
  show V c main_v58 (((cfg3.win 5).blk t).view.emb y) = V c main_v58 y
  refine congrArg (V c main_v58) ?_
  obtain ⟨-, -, -, -, -, e0, -⟩ := blkIdx3 t
  funext a; apply Fin.ext
  match a with
  | ⟨0, _⟩ => show win3_5.index t (0 : Fin 1) * 64 + 1 * (y 0).val = (y 0).val; omega

theorem blk3_6_eq (c : Dev nD) (t : Fin cfg3.N) :
    (iblk3 (F := Ideal) V c 6 t : Vec Ideal S64x64 .f32) = V c main_v60 := by
  funext y
  show V c main_v60 (((cfg3.win 6).blk t).view.emb y) = V c main_v60 y
  refine congrArg (V c main_v60) ?_
  obtain ⟨-, -, -, -, -, -, ⟨e0, e1⟩, -⟩ := blkIdx3 t
  funext a; apply Fin.ext
  match a with
  | ⟨0, _⟩ => show win3_6.index t (0 : Fin 2) * 64 + 1 * (y 0).val = (y 0).val; omega
  | ⟨1, _⟩ => show win3_6.index t (1 : Fin 2) * 64 + 1 * (y 1).val = (y 1).val; omega

theorem blk3_7_eq (c : Dev nD) (t : Fin cfg3.N) :
    (iblk3 (F := Ideal) V c 7 t : Vec Ideal S9x64 .f32) = V c main_v62 := by
  funext y
  show V c main_v62 (((cfg3.win 7).blk t).view.emb y) = V c main_v62 y
  refine congrArg (V c main_v62) ?_
  obtain ⟨-, -, -, -, -, -, -, ⟨e0, e1⟩, -⟩ := blkIdx3 t
  funext a; apply Fin.ext
  match a with
  | ⟨0, _⟩ => show win3_7.index t (0 : Fin 2) * 9 + 1 * (y 0).val = (y 0).val; omega
  | ⟨1, _⟩ => show win3_7.index t (1 : Fin 2) * 64 + 1 * (y 1).val = (y 1).val; omega

theorem blk3_8_eq (c : Dev nD) (t : Fin cfg3.N) :
    (iblk3 (F := Ideal) V c 8 t : Vec Ideal S64 .f32) = V c main_v64 := by
  funext y
  show V c main_v64 (((cfg3.win 8).blk t).view.emb y) = V c main_v64 y
  refine congrArg (V c main_v64) ?_
  obtain ⟨-, -, -, -, -, -, -, -, e0, -⟩ := blkIdx3 t
  funext a; apply Fin.ext
  match a with
  | ⟨0, _⟩ => show win3_8.index t (0 : Fin 1) * 64 + 1 * (y 0).val = (y 0).val; omega

/-! ## What a point writes back is its block of the whole array's new features -/

/-- The new features of all 50000 nodes, from the arrays the launch finds. -/
def newFeat3 (c : Dev nD) : Vec Ideal S50000x64 .f32 :=
  updOut (R := 50000) (V c main_v37) (V c main_v70) (V c main_arg2) (V c main_v54) (V c main_v56) (V c main_v58)
    (V c main_v60) (V c main_v62) (V c main_v64)

/-- The hypothesis on the body: on any block of 5000 rows it leaves the specification's new features of those rows. -/
def BodyIsSpec3 : Prop :=
  ∀ (x0 x1 : Vec Ideal S5000x64 .f32) (x2 : Vec Ideal S5000x9 .f32) (x3 : Vec Ideal S128x64 .f32) (x4 : Vec Ideal S9x64 .f32)
    (x5 : Vec Ideal S64 .f32) (x6 : Vec Ideal S64x64 .f32) (x7 : Vec Ideal S9x64 .f32) (x8 : Vec Ideal S64 .f32),
    Gen.out3_9 (F := Ideal) x0 x1 x2 x3 x4 x5 x6 x7 x8 = updOut (R := 5000) x0 x1 x2 x3 x4 x5 x6 x7 x8

/-- The new features over the blocks at point t, at row n, are the new features over the arrays at row 5000 t + n. -/
theorem updAt_blk3 (c : Dev nD) (t : Fin cfg3.N) (n : Fin 5000) (h : Fin 64) :
    updAt (R := 5000) (iblk3 (F := Ideal) V c 0 t) (iblk3 (F := Ideal) V c 1 t) (iblk3 (F := Ideal) V c 2 t)
        (iblk3 (F := Ideal) V c 3 t) (iblk3 (F := Ideal) V c 4 t) (iblk3 (F := Ideal) V c 5 t) (iblk3 (F := Ideal) V c 6 t)
        (iblk3 (F := Ideal) V c 7 t) (iblk3 (F := Ideal) V c 8 t) n h
      = updAt (R := 50000) (V c main_v37) (V c main_v70) (V c main_arg2) (V c main_v54) (V c main_v56) (V c main_v58)
        (V c main_v60) (V c main_v62) (V c main_v64) (row3 t n) h :=
  updAt_of_rows3 (V c main_v37) (V c main_v70) (V c main_arg2) (V c main_v54) (V c main_v56) (V c main_v58)
    (V c main_v60) (V c main_v62) (V c main_v64)
    (iblk3 (F := Ideal) V c 0 t) (iblk3 (F := Ideal) V c 1 t) (iblk3 (F := Ideal) V c 2 t)
    (iblk3 (F := Ideal) V c 3 t) (iblk3 (F := Ideal) V c 4 t) (iblk3 (F := Ideal) V c 5 t) (iblk3 (F := Ideal) V c 6 t)
    (iblk3 (F := Ideal) V c 7 t) (iblk3 (F := Ideal) V c 8 t) n (row3 t n)
    (fun k => blk3_0_apply V c t n k) (fun k => blk3_1_apply V c t n k) (fun r => blk3_2_apply V c t n r)
    (blk3_3_eq V c t) (blk3_4_eq V c t) (blk3_5_eq V c t) (blk3_6_eq V c t) (blk3_7_eq V c t) (blk3_8_eq V c t) h

/-- WHAT POINT t WRITES BACK is block t of the whole array's new features. -/
theorem flushed3_eq (hblk : BodyIsSpec3) (c : Dev nD) (t : Fin cfg3.N) :
    (dat3 (F := Ideal) V c).flushed 9 t = ((cfg3.win 9).blk t).view.read (Elt Ideal) (newFeat3 V c) := by
  show (cfg3.win 9).cut (grid3.coords t) ((dat3 (F := Ideal) V c).after 9 t) = _
  rw [after3_9]
  rw [hblk (iblk3 (F := Ideal) V c 0 t) (iblk3 (F := Ideal) V c 1 t) (iblk3 (F := Ideal) V c 2 t)
    (iblk3 (F := Ideal) V c 3 t) (iblk3 (F := Ideal) V c 4 t) (iblk3 (F := Ideal) V c 5 t) (iblk3 (F := Ideal) V c 6 t)
    (iblk3 (F := Ideal) V c 7 t) (iblk3 (F := Ideal) V c 8 t)]
  funext j
  have hj0 : (j 0).val < 5000 := (j 0).isLt
  have hj1 : (j 1).val < 64 := (j 1).isLt
  obtain ⟨-, -, -, -, -, -, -, -, -, e0, e1⟩ := blkIdx3 t
  -- the entry of the array under entry j of the block: row 5000 t + j 0, column j 1
  have hemb : ((cfg3.win 9).blk t).view.emb j = (ix2 (row3 t ⟨(j 0).val, hj0⟩) ⟨(j 1).val, hj1⟩ : S50000x64.Idx) := by
    funext a; apply Fin.ext
    match a with
    | ⟨0, _⟩ => show win3_9.index t (0 : Fin 2) * 5000 + 1 * (j 0).val = 5000 * t.val + (j 0).val; omega
    | ⟨1, _⟩ => show win3_9.index t (1 : Fin 2) * 64 + 1 * (j 1).val = (j 1).val; omega
  show updAt (R := 5000) (iblk3 (F := Ideal) V c 0 t) (iblk3 (F := Ideal) V c 1 t) (iblk3 (F := Ideal) V c 2 t)
        (iblk3 (F := Ideal) V c 3 t) (iblk3 (F := Ideal) V c 4 t) (iblk3 (F := Ideal) V c 5 t) (iblk3 (F := Ideal) V c 6 t)
        (iblk3 (F := Ideal) V c 7 t) (iblk3 (F := Ideal) V c 8 t) ⟨(j 0).val, hj0⟩ ⟨(j 1).val, hj1⟩
      = newFeat3 V c (((cfg3.win 9).blk t).view.emb j)
  rw [hemb]
  exact updAt_blk3 V c t ⟨(j 0).val, hj0⟩ ⟨(j 1).val, hj1⟩

/-! ## The 10 blocks of 5000 rows cover the 50000 rows -/

/-- An entry of the array is in point t's block iff each coordinate is in the block's range on its axis. -/
theorem mem_blk3 (t : Fin cfg3.N) (i : S50000x64.Idx) :
    i ∈ ((cfg3.win 9).blk t).view.set ↔ ∀ a : Fin 2, win3_9.index t a * S5000x64.size a ≤ (i a).val ∧ (i a).val < win3_9.index t a * S5000x64.size a + S5000x64.size a := by
  show i ∈ ((View.whole main_v71).slice (win3_9.rect t)).set ↔ _
  rw [View.set_slice_whole, Rect.mem_set_unit]
  exact Iff.rfl

/-- Row r of the array is in the block of point r / 5000. -/
theorem cover3 (i : S50000x64.Idx) : ∃ t : Fin cfg3.N, (cfg3.win 9).flush t = true ∧ i ∈ ((cfg3.win 9).blk t).view.set := by
  have hi0 : (i 0).val < 50000 := (i 0).isLt
  have hi1 : (i 1).val < 64 := (i 1).isLt
  have hN : grid3.N = 10 := N_3
  let t : Fin cfg3.N := ⟨(i 0).val / 5000, by show (i 0).val / 5000 < grid3.N; omega⟩
  obtain ⟨-, -, -, -, -, -, -, -, -, e0, e1⟩ := blkIdx3 t
  have ht : t.val = (i 0).val / 5000 := rfl
  refine ⟨t, flush3_9 t, ?_⟩
  rw [mem_blk3]
  intro a
  match a with
  | ⟨0, _⟩ => show win3_9.index t (0 : Fin 2) * 5000 ≤ (i 0).val ∧ (i 0).val < win3_9.index t (0 : Fin 2) * 5000 + 5000; omega
  | ⟨1, _⟩ => show win3_9.index t (1 : Fin 2) * 64 ≤ (i 1).val ∧ (i 1).val < win3_9.index t (1 : Fin 2) * 64 + 64; omega

end Blocks

/-! # The output array after the launch -/

/-- THE OUTPUT ARRAY after the 10 points of the second launch of the update stage is the specification's new features of all 50000 nodes. -/
theorem arr3_9 (hblk : ∀ (x0 x1 : Vec Ideal S5000x64 .f32) (x2 : Vec Ideal S5000x9 .f32) (x3 : Vec Ideal S128x64 .f32) (x4 : Vec Ideal S9x64 .f32)
      (x5 : Vec Ideal S64 .f32) (x6 : Vec Ideal S64x64 .f32) (x7 : Vec Ideal S9x64 .f32) (x8 : Vec Ideal S64 .f32),
      Gen.out3_9 (F := Ideal) x0 x1 x2 x3 x4 x5 x6 x7 x8 = updOut (R := 5000) x0 x1 x2 x3 x4 x5 x6 x7 x8)
    (V : (c : Dev nD) → (b : Ref sig .tc) → Buf (Elt Ideal) ((c : Thread nD τ).loc b)) (c : Dev nD) :
    (Gen.dat3 (F := Ideal) V c).arrAt 9 cfg3.N
      = updOut (R := 50000) (V c main_v37) (V c main_v70) (V c main_arg2) (V c main_v54) (V c main_v56) (V c main_v58)
          (V c main_v60) (V c main_v62) (V c main_v64) :=
  (dat3 (F := Ideal) V c).arrAt_eq_of_cover 9 (newFeat3 V c) (fun t _ => flushed3_eq V hblk c t) cover3

end Cert.KernelIdeal.UpdArray

end
-- ==== Proof.KerLayer.lean ====
/-
  One layer of the kernel program as a function of whole arrays: the guarded gathers, the specification's messages over
  the gathered rows, their sum into the target nodes, and the specification's update.
-/
import proofs.«416160_j23089744183881_1_alg».proof.Proof.KerWeights
import proofs.«416160_j23089744183881_1_alg».proof.Proof.Spec

noncomputable section

namespace Cert.KernelIdeal.Read

open Idealize.ShloMosaic Idealize.ShloMosaic.TcCoe Idealize.SL.Sem MsgPass
open Cert.KernelIdeal Cert.KernelIdeal.Gen Cert.KernelIdeal.Layers

/-- One layer: gather the node rows along the edges, form the messages, sum them into their target nodes, update. -/
def KLayer (X : FVec Ideal S50000x64 .f32) (dst src : IVec S800000 32) (AMF : FVec Ideal S800000x1 .f32) (EA : FVec Ideal S800000x9 .f32) (NA : FVec Ideal S50000x9 .f32)
    (W : FVec Ideal S129x64 .f32) (V1 : FVec Ideal S9x64 .f32) (b1 : FVec Ideal S64 .f32) (W2 : FVec Ideal S64x64 .f32) (V2 : FVec Ideal S9x64 .f32) (b2 : FVec Ideal S64 .f32)
    (Wu1 : FVec Ideal S128x64 .f32) (Vu1 : FVec Ideal S9x64 .f32) (bu1 : FVec Ideal S64 .f32) (Wu2 : FVec Ideal S64x64 .f32) (Vu2 : FVec Ideal S9x64 .f32) (bu2 : FVec Ideal S64 .f32) : FVec Ideal S50000x64 .f32 :=
  updOut (R := 50000) X (aggK dst (msgOut (R := 800000) (takeK X dst) (takeK X src) AMF EA (top128 W) (lastRow W) V1 b1 W2 V2 b2))
    NA Wu1 Vu1 bu1 Wu2 Vu2 bu2

variable (m : (ℓ : Loc nD τ sig) → Buf (Elt Ideal) ℓ) (c : Dev nD)

/-- The kernel program's result as two layers over the launch contents. -/
def KVal : FVec Ideal S50000x64 .f32 :=
  KLayer (KLayer (m ((c : Thread nD τ).loc main_arg0)) (dstK m c) (srcK m c) (m ((c : Thread nD τ).loc main_arg3)) (m ((c : Thread nD τ).loc main_arg1)) (m ((c : Thread nD τ).loc main_arg2))
      (W129K0 m c) (V1K0 m c) (b1K0 m c) (W2K0 m c) (V2K0 m c) (b2K0 m c) (Wu1K0 m c) (Vu1K0 m c) (bu1K0 m c) (Wu2K0 m c) (Vu2K0 m c) (bu2K0 m c))
    (dstK m c) (srcK m c) (m ((c : Thread nD τ).loc main_arg3)) (m ((c : Thread nD τ).loc main_arg1)) (m ((c : Thread nD τ).loc main_arg2))
    (W129K1 m c) (V1K1 m c) (b1K1 m c) (W2K1 m c) (V2K1 m c) (b2K1 m c) (Wu1K1 m c) (Vu1K1 m c) (bu1K1 m c) (Wu2K1 m c) (Vu2K1 m c) (bu2K1 m c)

end Cert.KernelIdeal.Read

end
-- ==== Proof.KernelValue.lean ====
/-
  The kernel program's result array after its run is two layers over the launch contents.

  The fourth launch's output array is the specification's update of what that launch finds in its input arrays; those
  are the second launch's output (the first layer's new features), the sum into the target nodes of the third launch's
  output (the second layer's messages), the node attributes and the second layer's weight slices; and so on back to
  the launch contents.
-/
import proofs.«416160_j23089744183881_1_alg».proof.Proof.KernelRead0
import proofs.«416160_j23089744183881_1_alg».proof.Proof.KernelRead1
import proofs.«416160_j23089744183881_1_alg».proof.Proof.KernelRead2
import proofs.«416160_j23089744183881_1_alg».proof.Proof.KernelRead3
import proofs.«416160_j23089744183881_1_alg».proof.Proof.MsgBlock
import proofs.«416160_j23089744183881_1_alg».proof.Proof.UpdBlock
import proofs.«416160_j23089744183881_1_alg».proof.Proof.MsgArray
import proofs.«416160_j23089744183881_1_alg».proof.Proof.MsgArray2
import proofs.«416160_j23089744183881_1_alg».proof.Proof.UpdArray
import proofs.«416160_j23089744183881_1_alg».proof.Proof.UpdArray3
import proofs.«416160_j23089744183881_1_alg».proof.Proof.KerLayer

set_option maxRecDepth 16384

noncomputable section

namespace Cert.KernelIdeal.Read

open Idealize.ShloMosaic Idealize.ShloMosaic.TcCoe Idealize.SL.Sem MsgPass
open Cert.KernelIdeal Cert.KernelIdeal.Gen Cert.KernelIdeal.Keep Cert.KernelIdeal.Layers

variable (m : (ℓ : Loc nD τ sig) → Buf (Elt Ideal) ℓ) (ρ : Dev nD → PrngReg) (c : Dev nD)

/-- The first launch's output: the first layer's messages. -/
theorem msg0 : (dat0 (V3 m ρ) c).arrAt 11 cfg0.N
    = msgOut (R := 800000) (takeK (m ((c : Thread nD τ).loc main_arg0)) (dstK m c)) (takeK (m ((c : Thread nD τ).loc main_arg0)) (srcK m c))
        (m ((c : Thread nD τ).loc main_arg3)) (m ((c : Thread nD τ).loc main_arg1)) (top128 (W129K0 m c)) (lastRow (W129K0 m c))
        (V1K0 m c) (b1K0 m c) (W2K0 m c) (V2K0 m c) (b2K0 m c) := by
  rw [Cert.KernelIdeal.MsgArray.arr0_11 Cert.KernelIdeal.MsgBlock.out0_11_eq (V3 m ρ) c,
    V3_v31, V3_v32, V3_arg3, V3_arg1, V3_v6, V3_v8, V3_v10, V3_v12, V3_v14, V3_v16, V3_v18]

/-- The second launch's output: the first layer's new features. -/
theorem upd0 : (dat1 (V5 m ρ) c).arrAt 9 cfg1.N
    = KLayer (m ((c : Thread nD τ).loc main_arg0)) (dstK m c) (srcK m c) (m ((c : Thread nD τ).loc main_arg3)) (m ((c : Thread nD τ).loc main_arg1)) (m ((c : Thread nD τ).loc main_arg2))
        (W129K0 m c) (V1K0 m c) (b1K0 m c) (W2K0 m c) (V2K0 m c) (b2K0 m c) (Wu1K0 m c) (Vu1K0 m c) (bu1K0 m c) (Wu2K0 m c) (Vu2K0 m c) (bu2K0 m c) := by
  rw [Cert.KernelIdeal.UpdArray.arr1_9 Cert.KernelIdeal.UpdBlock.out1_9_eq (V5 m ρ) c,
    V5_arg0 m ρ c (W3_arg0 m ρ c), V5_v36 m ρ c (W3_v3 m ρ c), V5_arg2 m ρ c (W3_arg2 m ρ c),
    V5_v20 m ρ c (W3_v20 m ρ c), V5_v22 m ρ c (W3_v22 m ρ c), V5_v24 m ρ c (W3_v24 m ρ c), V5_v26 m ρ c (W3_v26 m ρ c),
    V5_v28 m ρ c (W3_v28 m ρ c), V5_v30 m ρ c (W3_v30 m ρ c), msg0]
  rfl

/-- The third launch's output: the second layer's messages, over the first layer's new features. -/
theorem msg1 : (dat2 (V9 m ρ) c).arrAt 11 cfg2.N
    = msgOut (R := 800000) (takeK ((dat1 (V5 m ρ) c).arrAt 9 cfg1.N) (dstK m c)) (takeK ((dat1 (V5 m ρ) c).arrAt 9 cfg1.N) (srcK m c))
        (m ((c : Thread nD τ).loc main_arg3)) (m ((c : Thread nD τ).loc main_arg1)) (top128 (W129K1 m c)) (lastRow (W129K1 m c))
        (V1K1 m c) (b1K1 m c) (W2K1 m c) (V2K1 m c) (b2K1 m c) := by
  rw [Cert.KernelIdeal.MsgArray.arr2_11 Cert.KernelIdeal.MsgBlock.out2_11_eq (V9 m ρ) c,
    V9_v65 m ρ c (W3_v3 m ρ c), V9_v66 m ρ c (W3_v1 m ρ c), V9_arg3 m ρ c (W3_arg3 m ρ c), V9_arg1 m ρ c (W3_arg1 m ρ c),
    V9_v40 m ρ c (W3_arg4 m ρ c), V9_v42 m ρ c (W3_arg4 m ρ c), V9_v44 m ρ c (W3_arg5 m ρ c), V9_v46 m ρ c (W3_arg6 m ρ c),
    V9_v48 m ρ c (W3_arg7 m ρ c), V9_v50 m ρ c (W3_arg8 m ρ c), V9_v52 m ρ c (W3_arg9 m ρ c)]

/-- The result array after the run is two layers over the launch contents. -/
theorem kernel_value : W12 m ρ c (Proc.devRef .tc main_v71) = KVal m c := by
  rw [W12_out, Cert.KernelIdeal.UpdArray.arr3_9 Cert.KernelIdeal.UpdBlock.out3_9_eq (V11 m ρ) c,
    V11_v37 m ρ c, V11_v70 m ρ c (W3_v3 m ρ c), V11_arg2 m ρ c (W3_arg2 m ρ c),
    V11_v54 m ρ c (W3_arg10 m ρ c), V11_v56 m ρ c (W3_arg11 m ρ c), V11_v58 m ρ c (W3_arg12 m ρ c), V11_v60 m ρ c (W3_arg13 m ρ c),
    V11_v62 m ρ c (W3_arg14 m ρ c), V11_v64 m ρ c (W3_arg15 m ρ c), msg1, upd0]
  rfl

end Cert.KernelIdeal.Read

end
-- ==== Proof.RefDefs.lean ====
/-
  The reference program's layers, written once as functions of whole arrays.

  The reference computes each stage of a layer on whole arrays with the host's operations: a contraction of the
  side-by-side node rows (and, for the message stage, the edge's extra feature as a 129th column) with the weight
  matrix, the elementwise product with the contraction of the attributes, the bias row broadcast over the rows, and
  swish written as t * (1 / (1 + exp(-t))).  The definitions below are those compositions, in the program's own
  spelling, so that the program's result reads as a composition of them; the gathers of node rows along the edges and
  the sum of the messages into their target nodes are named too.
-/
import proofs.«416160_j23089744183881_1_alg».proof.Proof.Gen.ReferenceIdeal
import Idealize.ShloMosaic.PureOps.Ideal

noncomputable section

namespace Cert.ReferenceIdeal.Layers

open Cert.ReferenceIdeal Cert.ReferenceIdeal.Gen Idealize.ShloMosaic

/-- The array of ones over the edges' rows. -/
def oneE : FVec Ideal S800000x64 .f32 := broadcastInDim S800000x64 ![] bcast_S_S800000x64 (constant S_ .f32 0x3F800000#32)
/-- swish over the edges' rows: t * (1 / (1 + exp(-t))). -/
def swE (t : FVec Ideal S800000x64 .f32) : FVec Ideal S800000x64 .f32 :=
  mulf t (Host.divf oneE (addf oneE (Host.exp (Host.negf t))))
/-- A bias row repeated over the edges' rows. -/
def rowE (b : FVec Ideal S64 .f32) : FVec Ideal S800000x64 .f32 :=
  broadcastInDim S800000x64 ![0, 1] bcast_S1x64_S800000x64_0_1 (broadcastInDim S1x64 ![1] bcast_S64_S1x64_1 b)
/-- The message stage's first gated linear map, before its activation. -/
def t1 (XI XJ : FVec Ideal S800000x64 .f32) (AMF : FVec Ideal S800000x1 .f32) (EA : FVec Ideal S800000x9 .f32)
    (W : FVec Ideal S129x64 .f32) (V1 : FVec Ideal S9x64 .f32) (b1 : FVec Ideal S64 .f32) : FVec Ideal S800000x64 .f32 :=
  addf (mulf (Host.dotGeneral dot_S800000x129_S129x64_S800000x64_1_0_0_1_n_n none (concatenate S800000x129 1 [⟨S800000x64, XI⟩, ⟨S800000x64, XJ⟩, ⟨S800000x1, AMF⟩] concatenates_S800000x64_S800000x64_S800000x1_S800000x129_d1) W) (Host.dotGeneral dot_S800000x9_S9x64_S800000x64_1_0_0_1_n_n none EA V1)) (rowE b1)
/-- The message stage's second gated linear map, before its activation. -/
def t2 (M1 : FVec Ideal S800000x64 .f32) (EA : FVec Ideal S800000x9 .f32)
    (W2 : FVec Ideal S64x64 .f32) (V2 : FVec Ideal S9x64 .f32) (b2 : FVec Ideal S64 .f32) : FVec Ideal S800000x64 .f32 :=
  addf (mulf (Host.dotGeneral dot_S800000x64_S64x64_S800000x64_1_0_0_1_n_n none M1 W2) (Host.dotGeneral dot_S800000x9_S9x64_S800000x64_1_0_0_1_n_n none EA V2)) (rowE b2)
/-- The messages of all edges. -/
def refMsg (XI XJ : FVec Ideal S800000x64 .f32) (AMF : FVec Ideal S800000x1 .f32) (EA : FVec Ideal S800000x9 .f32)
    (W : FVec Ideal S129x64 .f32) (V1 : FVec Ideal S9x64 .f32) (b1 : FVec Ideal S64 .f32)
    (W2 : FVec Ideal S64x64 .f32) (V2 : FVec Ideal S9x64 .f32) (b2 : FVec Ideal S64 .f32) : FVec Ideal S800000x64 .f32 :=
  swE (t2 (swE (t1 XI XJ AMF EA W V1 b1)) EA W2 V2 b2)

/-- The array of ones over the nodes' rows. -/
def oneN : FVec Ideal S50000x64 .f32 := broadcastInDim S50000x64 ![] bcast_S_S50000x64 (constant S_ .f32 0x3F800000#32)
/-- swish over the nodes' rows. -/
def swN (t : FVec Ideal S50000x64 .f32) : FVec Ideal S50000x64 .f32 :=
  mulf t (Host.divf oneN (addf oneN (Host.exp (Host.negf t))))
/-- A bias row repeated over the nodes' rows. -/
def rowN (b : FVec Ideal S64 .f32) : FVec Ideal S50000x64 .f32 :=
  broadcastInDim S50000x64 ![0, 1] bcast_S1x64_S50000x64_0_1 (broadcastInDim S1x64 ![1] bcast_S64_S1x64_1 b)
/-- The update stage's first gated linear map, before its activation. -/
def u1 (X AGG : FVec Ideal S50000x64 .f32) (NA : FVec Ideal S50000x9 .f32)
    (Wu1 : FVec Ideal S128x64 .f32) (Vu1 : FVec Ideal S9x64 .f32) (bu1 : FVec Ideal S64 .f32) : FVec Ideal S50000x64 .f32 :=
  addf (mulf (Host.dotGeneral dot_S50000x128_S128x64_S50000x64_1_0_0_1_n_n none (concatenate S50000x128 1 [⟨S50000x64, X⟩, ⟨S50000x64, AGG⟩] concatenates_S50000x64_S50000x64_S50000x128_d1) Wu1) (Host.dotGeneral dot_S50000x9_S9x64_S50000x64_1_0_0_1_n_n none NA Vu1)) (rowN bu1)
/-- The update stage's second gated linear map blended with the old features. -/
def u2 (X U : FVec Ideal S50000x64 .f32) (NA : FVec Ideal S50000x9 .f32)
    (Wu2 : FVec Ideal S64x64 .f32) (Vu2 : FVec Ideal S9x64 .f32) (bu2 : FVec Ideal S64 .f32) : FVec Ideal S50000x64 .f32 :=
  addf (mulf (broadcastInDim S50000x64 ![] bcast_S_S50000x64 (constant S_ .f32 0x3F333333#32)) X) (mulf (broadcastInDim S50000x64 ![] bcast_S_S50000x64 (constant S_ .f32 0x3E99999A#32)) (addf (mulf (Host.dotGeneral dot_S50000x64_S64x64_S50000x64_1_0_0_1_n_n none U Wu2) (Host.dotGeneral dot_S50000x9_S9x64_S50000x64_1_0_0_1_n_n none NA Vu2)) (rowN bu2)))
/-- The new features of all nodes. -/
def refUpd (X AGG : FVec Ideal S50000x64 .f32) (NA : FVec Ideal S50000x9 .f32)
    (Wu1 : FVec Ideal S128x64 .f32) (Vu1 : FVec Ideal S9x64 .f32) (bu1 : FVec Ideal S64 .f32)
    (Wu2 : FVec Ideal S64x64 .f32) (Vu2 : FVec Ideal S9x64 .f32) (bu2 : FVec Ideal S64 .f32) : FVec Ideal S50000x64 .f32 :=
  u2 X (swN (u1 X AGG NA Wu1 Vu1 bu1)) NA Wu2 Vu2 bu2

/-- An edge-index row with a negative entry moved up by the number of nodes, as a column. -/
def wrapIdx (idx : IVec S800000 32) : IVec S800000x1 32 :=
  broadcastInDim S800000x1 ![0] bcast_S800000_S800000x1_0 (select (cmpi .slt idx (broadcastInDim S800000 ![] bcast_S_S800000 (constantI S_ 32 0#32))) (addi idx (broadcastInDim S800000 ![] bcast_S_S800000 (constantI S_ 32 50000#32))) idx)
/-- The node rows gathered along an edge-index row. -/
def gatherR (X : FVec Ideal S50000x64 .f32) (idx : IVec S800000 32) : FVec Ideal S800000x64 .f32 :=
  Host.gather gather_S50000x64_S800000x1_S800000x64_1_0_n_n_0_1_164 X (wrapIdx idx)
/-- The messages summed into their target nodes. -/
def aggR (dst : IVec S800000 32) (M : FVec Ideal S800000x64 .f32) : FVec Ideal S50000x64 .f32 :=
  Host.scatterAdd scatter_S50000x64_S800000x1_S800000x64_1_0_0_1 (broadcastInDim S50000x64 ![] bcast_S_S50000x64 (constant S_ .f32 0x00000000#32)) (broadcastInDim S800000x1 ![0] bcast_S800000_S800000x1_0 dst) M

end Cert.ReferenceIdeal.Layers

end
-- ==== Proof.RefLayer.lean ====
/-
  One layer of the reference program as a function of whole arrays, and the arrays the reference derives from its
  arguments alone: the two rows of the edge-index array and, per layer, the slices of the twelve stacked weight arrays.
-/
import proofs.«416160_j23089744183881_1_alg».proof.Proof.RefDefs

noncomputable section

namespace Cert.ReferenceIdeal.Layers

open Idealize.ShloMosaic Idealize.ShloMosaic.TcCoe Idealize.SL.Sem
open Cert.ReferenceIdeal Cert.ReferenceIdeal.Gen

/-- One layer: gather the node rows along the edges, form the messages, sum them into their target nodes, update. -/
def RLayer (X : FVec Ideal S50000x64 .f32) (dst src : IVec S800000 32) (AMF : FVec Ideal S800000x1 .f32) (EA : FVec Ideal S800000x9 .f32) (NA : FVec Ideal S50000x9 .f32)
    (W : FVec Ideal S129x64 .f32) (V1 : FVec Ideal S9x64 .f32) (b1 : FVec Ideal S64 .f32) (W2 : FVec Ideal S64x64 .f32) (V2 : FVec Ideal S9x64 .f32) (b2 : FVec Ideal S64 .f32)
    (Wu1 : FVec Ideal S128x64 .f32) (Vu1 : FVec Ideal S9x64 .f32) (bu1 : FVec Ideal S64 .f32) (Wu2 : FVec Ideal S64x64 .f32) (Vu2 : FVec Ideal S9x64 .f32) (bu2 : FVec Ideal S64 .f32) : FVec Ideal S50000x64 .f32 :=
  refUpd X (aggR dst (refMsg (gatherR X dst) (gatherR X src) AMF EA W V1 b1 W2 V2 b2)) NA Wu1 Vu1 bu1 Wu2 Vu2 bu2

variable (V0 : Valuation τ sig (Elt Ideal))

/-- Row 1 of the edge-index array: the edges' target nodes. -/
def dstR : IVec S800000 32 :=
  shapeCast _ (extractStridedSlice S1x800000 ![1, 0] (V0 (Proc.devRef .tc main_arg16)) slices_S2x800000_S1x800000_1_0) shapeCasts_S1x800000_S800000
/-- Row 0 of the edge-index array: the edges' source nodes. -/
def srcR : IVec S800000 32 :=
  shapeCast _ (extractStridedSlice S1x800000 ![0, 0] (V0 (Proc.devRef .tc main_arg16)) slices_S2x800000_S1x800000_0_0) shapeCasts_S1x800000_S800000
/-- Layer 0: the message stage's first weight matrix (129 rows). -/
def W129R0 : FVec Ideal S129x64 .f32 :=
  shapeCast _ (extractStridedSlice S1x129x64 ![0, 0, 0] (V0 (Proc.devRef .tc main_arg4)) slices_S2x129x64_S1x129x64_0_0_0) shapeCasts_S1x129x64_S129x64
/-- Layer 0: the message stage's first attribute matrix. -/
def V1R0 : FVec Ideal S9x64 .f32 :=
  shapeCast _ (extractStridedSlice S1x9x64 ![0, 0, 0] (V0 (Proc.devRef .tc main_arg5)) slices_S2x9x64_S1x9x64_0_0_0) shapeCasts_S1x9x64_S9x64
/-- Layer 0: the message stage's first bias row. -/
def b1R0 : FVec Ideal S64 .f32 :=
  shapeCast _ (extractStridedSlice S1x64 ![0, 0] (V0 (Proc.devRef .tc main_arg6)) slices_S2x64_S1x64_0_0) shapeCasts_S1x64_S64
/-- Layer 0: the message stage's second weight matrix. -/
def W2R0 : FVec Ideal S64x64 .f32 :=
  shapeCast _ (extractStridedSlice S1x64x64 ![0, 0, 0] (V0 (Proc.devRef .tc main_arg7)) slices_S2x64x64_S1x64x64_0_0_0) shapeCasts_S1x64x64_S64x64
/-- Layer 0: the message stage's second attribute matrix. -/
def V2R0 : FVec Ideal S9x64 .f32 :=
  shapeCast _ (extractStridedSlice S1x9x64 ![0, 0, 0] (V0 (Proc.devRef .tc main_arg8)) slices_S2x9x64_S1x9x64_0_0_0) shapeCasts_S1x9x64_S9x64
/-- Layer 0: the message stage's second bias row. -/
def b2R0 : FVec Ideal S64 .f32 :=
  shapeCast _ (extractStridedSlice S1x64 ![0, 0] (V0 (Proc.devRef .tc main_arg9)) slices_S2x64_S1x64_0_0) shapeCasts_S1x64_S64
/-- Layer 0: the update stage's first weight matrix. -/
def Wu1R0 : FVec Ideal S128x64 .f32 :=
  shapeCast _ (extractStridedSlice S1x128x64 ![0, 0, 0] (V0 (Proc.devRef .tc main_arg10)) slices_S2x128x64_S1x128x64_0_0_0) shapeCasts_S1x128x64_S128x64
/-- Layer 0: the update stage's first attribute matrix. -/
def Vu1R0 : FVec Ideal S9x64 .f32 :=
  shapeCast _ (extractStridedSlice S1x9x64 ![0, 0, 0] (V0 (Proc.devRef .tc main_arg11)) slices_S2x9x64_S1x9x64_0_0_0) shapeCasts_S1x9x64_S9x64
/-- Layer 0: the update stage's first bias row. -/
def bu1R0 : FVec Ideal S64 .f32 :=
  shapeCast _ (extractStridedSlice S1x64 ![0, 0] (V0 (Proc.devRef .tc main_arg12)) slices_S2x64_S1x64_0_0) shapeCasts_S1x64_S64
/-- Layer 0: the update stage's second weight matrix. -/
def Wu2R0 : FVec Ideal S64x64 .f32 :=
  shapeCast _ (extractStridedSlice S1x64x64 ![0, 0, 0] (V0 (Proc.devRef .tc main_arg13)) slices_S2x64x64_S1x64x64_0_0_0) shapeCasts_S1x64x64_S64x64
/-- Layer 0: the update stage's second attribute matrix. -/
def Vu2R0 : FVec Ideal S9x64 .f32 :=
  shapeCast _ (extractStridedSlice S1x9x64 ![0, 0, 0] (V0 (Proc.devRef .tc main_arg14)) slices_S2x9x64_S1x9x64_0_0_0) shapeCasts_S1x9x64_S9x64
/-- Layer 0: the update stage's second bias row. -/
def bu2R0 : FVec Ideal S64 .f32 :=
  shapeCast _ (extractStridedSlice S1x64 ![0, 0] (V0 (Proc.devRef .tc main_arg15)) slices_S2x64_S1x64_0_0) shapeCasts_S1x64_S64
/-- Layer 1: the message stage's first weight matrix (129 rows). -/
def W129R1 : FVec Ideal S129x64 .f32 :=
  shapeCast _ (extractStridedSlice S1x129x64 ![1, 0, 0] (V0 (Proc.devRef .tc main_arg4)) slices_S2x129x64_S1x129x64_1_0_0) shapeCasts_S1x129x64_S129x64
/-- Layer 1: the message stage's first attribute matrix. -/
def V1R1 : FVec Ideal S9x64 .f32 :=
  shapeCast _ (extractStridedSlice S1x9x64 ![1, 0, 0] (V0 (Proc.devRef .tc main_arg5)) slices_S2x9x64_S1x9x64_1_0_0) shapeCasts_S1x9x64_S9x64
/-- Layer 1: the message stage's first bias row. -/
def b1R1 : FVec Ideal S64 .f32 :=
  shapeCast _ (extractStridedSlice S1x64 ![1, 0] (V0 (Proc.devRef .tc main_arg6)) slices_S2x64_S1x64_1_0) shapeCasts_S1x64_S64
/-- Layer 1: the message stage's second weight matrix. -/
def W2R1 : FVec Ideal S64x64 .f32 :=
  shapeCast _ (extractStridedSlice S1x64x64 ![1, 0, 0] (V0 (Proc.devRef .tc main_arg7)) slices_S2x64x64_S1x64x64_1_0_0) shapeCasts_S1x64x64_S64x64
/-- Layer 1: the message stage's second attribute matrix. -/
def V2R1 : FVec Ideal S9x64 .f32 :=
  shapeCast _ (extractStridedSlice S1x9x64 ![1, 0, 0] (V0 (Proc.devRef .tc main_arg8)) slices_S2x9x64_S1x9x64_1_0_0) shapeCasts_S1x9x64_S9x64
/-- Layer 1: the message stage's second bias row. -/
def b2R1 : FVec Ideal S64 .f32 :=
  shapeCast _ (extractStridedSlice S1x64 ![1, 0] (V0 (Proc.devRef .tc main_arg9)) slices_S2x64_S1x64_1_0) shapeCasts_S1x64_S64
/-- Layer 1: the update stage's first weight matrix. -/
def Wu1R1 : FVec Ideal S128x64 .f32 :=
  shapeCast _ (extractStridedSlice S1x128x64 ![1, 0, 0] (V0 (Proc.devRef .tc main_arg10)) slices_S2x128x64_S1x128x64_1_0_0) shapeCasts_S1x128x64_S128x64
/-- Layer 1: the update stage's first attribute matrix. -/
def Vu1R1 : FVec Ideal S9x64 .f32 :=
  shapeCast _ (extractStridedSlice S1x9x64 ![1, 0, 0] (V0 (Proc.devRef .tc main_arg11)) slices_S2x9x64_S1x9x64_1_0_0) shapeCasts_S1x9x64_S9x64
/-- Layer 1: the update stage's first bias row. -/
def bu1R1 : FVec Ideal S64 .f32 :=
  shapeCast _ (extractStridedSlice S1x64 ![1, 0] (V0 (Proc.devRef .tc main_arg12)) slices_S2x64_S1x64_1_0) shapeCasts_S1x64_S64
/-- Layer 1: the update stage's second weight matrix. -/
def Wu2R1 : FVec Ideal S64x64 .f32 :=
  shapeCast _ (extractStridedSlice S1x64x64 ![1, 0, 0] (V0 (Proc.devRef .tc main_arg13)) slices_S2x64x64_S1x64x64_1_0_0) shapeCasts_S1x64x64_S64x64
/-- Layer 1: the update stage's second attribute matrix. -/
def Vu2R1 : FVec Ideal S9x64 .f32 :=
  shapeCast _ (extractStridedSlice S1x9x64 ![1, 0, 0] (V0 (Proc.devRef .tc main_arg14)) slices_S2x9x64_S1x9x64_1_0_0) shapeCasts_S1x9x64_S9x64
/-- Layer 1: the update stage's second bias row. -/
def bu2R1 : FVec Ideal S64 .f32 :=
  shapeCast _ (extractStridedSlice S1x64 ![1, 0] (V0 (Proc.devRef .tc main_arg15)) slices_S2x64_S1x64_1_0) shapeCasts_S1x64_S64

/-- The reference's result as two layers over the launch contents. -/
def RVal : FVec Ideal S50000x64 .f32 :=
  RLayer (RLayer (V0 (Proc.devRef .tc main_arg0)) (dstR V0) (srcR V0) (V0 (Proc.devRef .tc main_arg3)) (V0 (Proc.devRef .tc main_arg1)) (V0 (Proc.devRef .tc main_arg2))
      (W129R0 V0) (V1R0 V0) (b1R0 V0) (W2R0 V0) (V2R0 V0) (b2R0 V0) (Wu1R0 V0) (Vu1R0 V0) (bu1R0 V0) (Wu2R0 V0) (Vu2R0 V0) (bu2R0 V0))
    (dstR V0) (srcR V0) (V0 (Proc.devRef .tc main_arg3)) (V0 (Proc.devRef .tc main_arg1)) (V0 (Proc.devRef .tc main_arg2))
    (W129R1 V0) (V1R1 V0) (b1R1 V0) (W2R1 V0) (V2R1 V0) (b2R1 V0) (Wu1R1 V0) (Vu1R1 V0) (bu1R1 V0) (Wu2R1 V0) (Vu2R1 V0) (bu2R1 V0)

end Cert.ReferenceIdeal.Layers

end
-- ==== Proof.RefValue.lean ====
/-
  The reference program's run with its result read as two layers.

  The run states the result as one composed term over the named intermediate terms of the program.  Each named term is,
  definition for definition, a stage of a layer applied to the arrays before it: the first gated linear map of the
  message stage over the two gathers, the second over the activated first, the update stage's first map over the node
  rows and the scatter-sum of the activated messages, and the blend with the old rows.  Unfolding the names on both
  sides leaves the same term, so the result is the second layer applied to the first.
-/
import proofs.«416160_j23089744183881_1_alg».proof.Proof.Gen.ReferenceIdeal.Run
import proofs.«416160_j23089744183881_1_alg».proof.Proof.RefLayer

noncomputable section

namespace Cert.ReferenceIdeal.RefValue

open Cert.ReferenceIdeal Cert.ReferenceIdeal.Gen Cert.ReferenceIdeal.Value Cert.ReferenceIdeal.Layers
open Idealize.ShloMosaic Idealize.ShloMosaic.TcCoe Idealize.SL.Sem Idealize.ShloMosaic.StableHlo

variable (V0 : Valuation τ sig (Elt Ideal))

/-- Row 0 of the edge-index array is the edges' source row. -/
theorem res_main_v1_eq : res_main_v1 V0 = srcR V0 := rfl

/-- Row 1 of the edge-index array is the edges' target row. -/
theorem res_main_v3_eq : res_main_v3 V0 = dstR V0 := rfl

/-- Layer 0, message stage, first map: over the node rows gathered along the target row and along the source row. -/
theorem res_main_v30_eq :
    res_main_v30 V0 = t1 (gatherR (V0 (Proc.devRef .tc main_arg0)) (dstR V0)) (gatherR (V0 (Proc.devRef .tc main_arg0)) (srcR V0)) (V0 (Proc.devRef .tc main_arg3)) (V0 (Proc.devRef .tc main_arg1)) (W129R0 V0) (V1R0 V0) (b1R0 V0) := by
  unfold res_main_v30 res_main_v1 res_main_v3 t1 rowE gatherR wrapIdx dstR srcR W129R0 V1R0 b1R0
  rfl

/-- Layer 0, message stage, second map: over the activated first map. -/
theorem res_main_v49_eq :
    res_main_v49 V0 = t2 (swE (res_main_v30 V0)) (V0 (Proc.devRef .tc main_arg1)) (W2R0 V0) (V2R0 V0) (b2R0 V0) := by
  unfold res_main_v49 t2 rowE swE oneE W2R0 V2R0 b2R0
  rfl

/-- Layer 0, update stage, first map: over the node rows and the sum of the activated messages into their targets. -/
theorem res_main_v72_eq :
    res_main_v72 V0 = u1 (V0 (Proc.devRef .tc main_arg0)) (aggR (dstR V0) (swE (res_main_v49 V0))) (V0 (Proc.devRef .tc main_arg2)) (Wu1R0 V0) (Vu1R0 V0) (bu1R0 V0) := by
  unfold res_main_v72 res_main_v3 u1 rowN aggR swE oneE dstR Wu1R0 Vu1R0 bu1R0
  rfl

/-- Layer 0, update stage, second map blended with the old rows. -/
theorem res_main_v96_eq :
    res_main_v96 V0 = u2 (V0 (Proc.devRef .tc main_arg0)) (swN (res_main_v72 V0)) (V0 (Proc.devRef .tc main_arg2)) (Wu2R0 V0) (Vu2R0 V0) (bu2R0 V0) := by
  unfold res_main_v96 u2 rowN swN oneN Wu2R0 Vu2R0 bu2R0
  rfl

/-- The first layer over the launch contents. -/
def layer0 : FVec Ideal S50000x64 .f32 :=
  RLayer (V0 (Proc.devRef .tc main_arg0)) (dstR V0) (srcR V0) (V0 (Proc.devRef .tc main_arg3)) (V0 (Proc.devRef .tc main_arg1)) (V0 (Proc.devRef .tc main_arg2))
    (W129R0 V0) (V1R0 V0) (b1R0 V0) (W2R0 V0) (V2R0 V0) (b2R0 V0) (Wu1R0 V0) (Vu1R0 V0) (bu1R0 V0) (Wu2R0 V0) (Vu2R0 V0) (bu2R0 V0)

/-- The four stages of layer 0 composed are the first layer. -/
theorem res_main_v96_eq_layer0 : res_main_v96 V0 = layer0 V0 := by
  rw [res_main_v96_eq, res_main_v72_eq, res_main_v49_eq, res_main_v30_eq]
  unfold layer0 RLayer refUpd refMsg
  rfl

/-- Layer 1, message stage, first map: over the first layer's rows gathered along the target row and the source row. -/
theorem res_main_v123_eq :
    res_main_v123 V0 = t1 (gatherR (res_main_v96 V0) (dstR V0)) (gatherR (res_main_v96 V0) (srcR V0)) (V0 (Proc.devRef .tc main_arg3)) (V0 (Proc.devRef .tc main_arg1)) (W129R1 V0) (V1R1 V0) (b1R1 V0) := by
  unfold res_main_v123 res_main_v1 res_main_v3 t1 rowE gatherR wrapIdx dstR srcR W129R1 V1R1 b1R1
  rfl

/-- Layer 1, message stage, second map. -/
theorem res_main_v142_eq :
    res_main_v142 V0 = t2 (swE (res_main_v123 V0)) (V0 (Proc.devRef .tc main_arg1)) (W2R1 V0) (V2R1 V0) (b2R1 V0) := by
  unfold res_main_v142 t2 rowE swE oneE W2R1 V2R1 b2R1
  rfl

/-- Layer 1, update stage, first map. -/
theorem res_main_v165_eq :
    res_main_v165 V0 = u1 (res_main_v96 V0) (aggR (dstR V0) (swE (res_main_v142 V0))) (V0 (Proc.devRef .tc main_arg2)) (Wu1R1 V0) (Vu1R1 V0) (bu1R1 V0) := by
  unfold res_main_v165 res_main_v3 u1 rowN aggR swE oneE dstR Wu1R1 Vu1R1 bu1R1
  rfl

/-- The run's result term is layer 1's blend over the first layer's rows. -/
theorem result_eq_u2 :
    (addf (mulf (broadcastInDim S50000x64 ![] bcast_S_S50000x64 (constant S_ .f32 0x3F333333#32)) (res_main_v96 V0)) (mulf (broadcastInDim S50000x64 ![] bcast_S_S50000x64 (constant S_ .f32 0x3E99999A#32)) (addf (mulf (Host.dotGeneral (φ₁ := .f32) (φ₂ := .f32) dot_S50000x64_S64x64_S50000x64_1_0_0_1_n_n none (mulf (res_main_v165 V0) (Host.divf (broadcastInDim S50000x64 ![] bcast_S_S50000x64 (constant S_ .f32 0x3F800000#32)) (addf (broadcastInDim S50000x64 ![] bcast_S_S50000x64 (constant S_ .f32 0x3F800000#32)) (Host.exp (Host.negf (res_main_v165 V0)))))) (shapeCast _ (extractStridedSlice S1x64x64 ![1, 0, 0] (V0 (Proc.devRef .tc main_arg13)) slices_S2x64x64_S1x64x64_1_0_0) shapeCasts_S1x64x64_S64x64)) (Host.dotGeneral (φ₁ := .f32) (φ₂ := .f32) dot_S50000x9_S9x64_S50000x64_1_0_0_1_n_n none (V0 (Proc.devRef .tc main_arg2)) (shapeCast _ (extractStridedSlice S1x9x64 ![1, 0, 0] (V0 (Proc.devRef .tc main_arg14)) slices_S2x9x64_S1x9x64_1_0_0) shapeCasts_S1x9x64_S9x64))) (broadcastInDim S50000x64 ![0, 1] bcast_S1x64_S50000x64_0_1 (broadcastInDim S1x64 ![1] bcast_S64_S1x64_1 (shapeCast _ (extractStridedSlice S1x64 ![1, 0] (V0 (Proc.devRef .tc main_arg15)) slices_S2x64_S1x64_1_0) shapeCasts_S1x64_S64))))) : FVec Ideal S50000x64 .f32)
      = u2 (res_main_v96 V0) (swN (res_main_v165 V0)) (V0 (Proc.devRef .tc main_arg2)) (Wu2R1 V0) (Vu2R1 V0) (bu2R1 V0) := by
  unfold u2 rowN swN oneN Wu2R1 Vu2R1 bu2R1
  rfl

/-- The run's result term is the second layer applied to the first. -/
theorem result_eq :
    (addf (mulf (broadcastInDim S50000x64 ![] bcast_S_S50000x64 (constant S_ .f32 0x3F333333#32)) (res_main_v96 V0)) (mulf (broadcastInDim S50000x64 ![] bcast_S_S50000x64 (constant S_ .f32 0x3E99999A#32)) (addf (mulf (Host.dotGeneral (φ₁ := .f32) (φ₂ := .f32) dot_S50000x64_S64x64_S50000x64_1_0_0_1_n_n none (mulf (res_main_v165 V0) (Host.divf (broadcastInDim S50000x64 ![] bcast_S_S50000x64 (constant S_ .f32 0x3F800000#32)) (addf (broadcastInDim S50000x64 ![] bcast_S_S50000x64 (constant S_ .f32 0x3F800000#32)) (Host.exp (Host.negf (res_main_v165 V0)))))) (shapeCast _ (extractStridedSlice S1x64x64 ![1, 0, 0] (V0 (Proc.devRef .tc main_arg13)) slices_S2x64x64_S1x64x64_1_0_0) shapeCasts_S1x64x64_S64x64)) (Host.dotGeneral (φ₁ := .f32) (φ₂ := .f32) dot_S50000x9_S9x64_S50000x64_1_0_0_1_n_n none (V0 (Proc.devRef .tc main_arg2)) (shapeCast _ (extractStridedSlice S1x9x64 ![1, 0, 0] (V0 (Proc.devRef .tc main_arg14)) slices_S2x9x64_S1x9x64_1_0_0) shapeCasts_S1x9x64_S9x64))) (broadcastInDim S50000x64 ![0, 1] bcast_S1x64_S50000x64_0_1 (broadcastInDim S1x64 ![1] bcast_S64_S1x64_1 (shapeCast _ (extractStridedSlice S1x64 ![1, 0] (V0 (Proc.devRef .tc main_arg15)) slices_S2x64_S1x64_1_0) shapeCasts_S1x64_S64))))) : FVec Ideal S50000x64 .f32)
      = RVal V0 := by
  refine (result_eq_u2 V0).trans ?_
  rw [res_main_v165_eq, res_main_v142_eq, res_main_v123_eq, res_main_v96_eq_layer0]
  unfold RVal layer0 RLayer refUpd refMsg
  rfl

/-- On every device, from any memory with zero counters: every weakly fair execution of the reference terminates with
    its result the two layers over the launch contents and the arguments unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v189) = RVal (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c).1.trans (result_eq _), (h c).2⟩)
    (Cert.ReferenceIdeal.Value.run (F := Ideal) m ρ)

/-- The launch contents of a device at a buffer are the memory at that device's buffer. -/
theorem launch_arg (m : (ℓ : Loc nD τ sig) → Buf (Elt Ideal) ℓ) (c : Dev nD) (r : Ref sig .tc) :
    launchContents m c (Proc.devRef .tc r) = m ((c.tc : Thread nD τ).loc r) := rfl

end Cert.ReferenceIdeal.RefValue

end
-- ==== Proof.Take.lean ====
/-
  The integer side of the two programs.

  Both programs read rows of the node array along an edge-index row whose negative entries are first moved up by
  the number of nodes (50000).  The kernel program then replaces a gathered row by a not-a-number row where the
  moved index is outside 0..49999; the reference gathers with no guard.  When every entry of the edge-index row lies
  in 0..49999 no entry is moved, the guard holds at every edge, and the two gathers are the same array.  The two
  scatter-sums are the same function outright.
-/
import proofs.«416160_j23089744183881_1_alg».proof.Proof.KerDefs
import proofs.«416160_j23089744183881_1_alg».proof.Proof.RefDefs
import Idealize.ShloMosaic.Lib.ValueIdx
import Idealize.ShloMosaic.Lib.Affine
import Idealize.ShloMosaic.PureOps.Reduce

namespace Cert.Take

open Idealize.ShloMosaic

/-- Every entry of an integer array, read signed, lies in 0..49999. -/
def InRange {s : Shape} (idx : IVec s 32) : Prop := ∀ e, 0 ≤ (idx e).toInt ∧ (idx e).toInt < 50000

/-- A left fold by "and" from 1 over words that are all 1 is 1. -/
theorem foldl_andi_one {ι : Type} (x : ι → BitVec 1) (hx : ∀ i, x i = 1#1) :
    ∀ l : List ι, l.foldl (fun r i => IntOp.andi r (x i)) 1#1 = 1#1
  | [] => rfl
  | a :: l => by
    rw [List.foldl_cons, hx a]
    exact foldl_andi_one x hx l

/-- An entry in 0..49999 is not negative, so the move up by 50000 leaves it alone. -/
theorem wrap_entry (v : BitVec 32) (h0 : 0 ≤ v.toInt) :
    Scalar.select (IntOp.cmpi .slt v 0#32) (IntOp.addi v 50000#32) v = v := by
  have hc : ¬ IntOp.cmpi .slt v 0#32 = 1#1 := by
    rw [IntOp.cmpi_slt]
    have : (0#32 : BitVec 32).toInt = 0 := by decide
    omega
  exact if_neg hc

/-- An entry in 0..49999 passes the guard's two compares. -/
theorem guard_entry (v : BitVec 32) (h0 : 0 ≤ v.toInt) (h1 : v.toInt < 50000) :
    IntOp.andi (IntOp.cmpi .sge v 0#32) (IntOp.cmpi .sle v 49999#32) = 1#1 := by
  rw [IntOp.andi_eq_one, IntOp.cmpi_sge, IntOp.cmpi_sle]
  have e0 : (0#32 : BitVec 32).toInt = 0 := by decide
  have e1 : (49999#32 : BitVec 32).toInt = 49999 := by decide
  omega

/-- A repeated array whose every entry is one value has that value at every index. -/
theorem broadcastInDim_const {s u : Shape} {α : Type} (dims : Fin s.rank → Fin u.rank) (h : s.BroadcastsInDim u dims)
    (x : s.Idx → α) (c : α) (hx : ∀ i, x i = c) (j : u.Idx) : broadcastInDim u dims h x j = c := hx _

section Kernel
open Cert.KernelIdeal Cert.KernelIdeal.Gen Cert.KernelIdeal.Layers

/-- With every entry in range the moved column is the edge-index row itself as a column. -/
theorem wrapIdx_eq (idx : IVec S800000 32) (hr : InRange idx) :
    wrapIdx idx = broadcastInDim S800000x1 ![0] bcast_S800000_S800000x1_0 idx := by
  unfold wrapIdx
  refine congrArg _ (funext fun e => ?_)
  exact wrap_entry (idx e) (hr e).1

/-- With every entry in range the guard is 1 at every edge: the "and" over the column's one entry, from 1. -/
theorem inRange_eq_one (idx : IVec S800000 32) (hr : InRange idx) (e : S800000.Idx) : inRange idx e = 1#1 := by
  unfold inRange
  rw [wrapIdx_eq idx hr]
  refine (Host.reduce_eq_foldl _ _ _ _ _ e).trans ?_
  refine foldl_andi_one _ (fun i => ?_) _
  exact guard_entry _ (hr _).1 (hr _).2

end Kernel

/-- Under the range hypothesis the kernel program's guarded gather is the reference's gather. -/
theorem takeK_eq_gatherR (X : FVec Ideal Cert.KernelIdeal.S50000x64 .f32) (idx : IVec Cert.KernelIdeal.S800000 32)
    (hr : InRange idx) :
    Cert.KernelIdeal.Layers.takeK X idx = Cert.ReferenceIdeal.Layers.gatherR X idx := by
  funext j
  have hm := broadcastInDim_const ![0] Cert.KernelIdeal.Gen.bcast_S800000_S800000x64_0
    (Cert.KernelIdeal.Layers.inRange idx) 1#1 (inRange_eq_one idx hr) j
  unfold Cert.KernelIdeal.Layers.takeK
  refine (ValueIdx.select_apply _ _ _ j).trans ?_
  rw [hm, ValueIdx.select_one]
  rfl

/-- The two programs sum the messages into their target nodes by the same function. -/
theorem aggK_eq_aggR (dst : IVec Cert.KernelIdeal.S800000 32) (M : FVec Ideal Cert.KernelIdeal.S800000x64 .f32) :
    Cert.KernelIdeal.Layers.aggK dst M = Cert.ReferenceIdeal.Layers.aggR dst M := rfl

/-- A row of the two-row edge-index array, as a vector, has its entries among the array's. -/
theorem row1_inRange (a16 : IVec Cert.KernelIdeal.S2x800000 32) (hr : InRange a16)
    (hs : Cert.KernelIdeal.S2x800000.Slices ![1, 0] Cert.KernelIdeal.S1x800000)
    (hc : Cert.KernelIdeal.S1x800000.ShapeCasts Cert.KernelIdeal.S800000) :
    InRange (shapeCast Cert.KernelIdeal.S800000 (extractStridedSlice Cert.KernelIdeal.S1x800000 ![1, 0] a16 hs) hc) :=
  fun _ => hr _

theorem row0_inRange (a16 : IVec Cert.KernelIdeal.S2x800000 32) (hr : InRange a16)
    (hs : Cert.KernelIdeal.S2x800000.Slices ![0, 0] Cert.KernelIdeal.S1x800000)
    (hc : Cert.KernelIdeal.S1x800000.ShapeCasts Cert.KernelIdeal.S800000) :
    InRange (shapeCast Cert.KernelIdeal.S800000 (extractStridedSlice Cert.KernelIdeal.S1x800000 ![0, 0] a16 hs) hc) :=
  fun _ => hr _

end Cert.Take
-- ==== Proof.RefMsg.lean ====
/-
  The reference's message stage, on whole arrays over the 800000 edges, is the specification's messages.

  The reference forms, for all edges at once, t1 = (C · W) * (EA · V1) + b1 with C the edge's two node rows and its extra
  feature laid side by side as one row of 129 numbers, m1 = swish(t1), t2 = (m1 · W2) * (EA · V2) + b2 and m2 = swish(t2),
  where · is a matrix product, * the entrywise product, the bias rows are repeated over the edges and swish(t) is written
  t * (1 / (1 + exp(-t))) with an array of ones.

  Read at one entry (e, q): a matrix product is the sum over its contraction position of the operands' products; the sum
  over the 129 columns of C splits into the sum over the first 128, where C is the two node rows side by side, plus the
  last term, where C is the extra feature; the first 128 rows of W and its last row are what the specification takes as
  two separate arguments; an entrywise operation reads its operands at the entry; the array of ones reads 1.  With these
  the entry is, term by term, the specification's.
-/
import proofs.«416160_j23089744183881_1_alg».proof.Proof.RefDefs
import proofs.«416160_j23089744183881_1_alg».proof.Proof.Spec
import proofs.«416160_j23089744183881_1_alg».proof.Proof.LibPlainDot
import Idealize.ShloMosaic.Lib.IdealHost
import Idealize.ShloMosaic.Lib.Pipeline.Value
import Idealize.ShloMosaic.PureOps.Ideal.Laws
import Mathlib.Algebra.BigOperators.Fin

noncomputable section

namespace Cert.ReferenceIdeal.RefMsg

open Cert.ReferenceIdeal Cert.ReferenceIdeal.Gen Cert.ReferenceIdeal.Layers MsgPass
open Idealize.ShloMosaic Idealize.ShloMosaic.ValueIdx

/-! ## The entrywise pieces -/

/-- The scalar one repeated over any shape reads 1 at every entry. -/
theorem ones_apply {T : Shape} (h : (⟨0, ![]⟩ : Shape).BroadcastsInDim T ![]) (j : T.Idx) :
    broadcastInDim T ![] h (constant (F := Ideal) ⟨0, ![]⟩ .f32 0x3F800000#32) j = 1 := by
  rw [broadcastInDim_scalar_apply]
  exact Ideal.ofBits_one_f32

/-- The array of ones over the edges' rows reads 1. -/
theorem oneE_apply (j : S800000x64.Idx) : oneE j = 1 := by
  unfold oneE
  exact ones_apply _ j

/-- t * (1 / (1 + exp(-t))) over the edges' rows is swish at every entry. -/
theorem swE_apply (t : FVec Ideal S800000x64 .f32) (j : S800000x64.Idx) : swE t j = swish (t j) := by
  unfold swE swish Ideal.logistic
  show t j * Ideal.div (oneE j) (oneE j + Ideal.exp (-(t j))) = t j * Ideal.div 1 (1 + Ideal.exp (-(t j)))
  rw [oneE_apply]

/-- A row of 64 numbers repeated over R rows reads, at (e, q), its entry q. -/
theorem row_apply {R : Nat} (h1 : (⟨1, ![64]⟩ : Shape).BroadcastsInDim ⟨2, ![1, 64]⟩ (![1] : Fin 1 → Fin 2))
    (h2 : (⟨2, ![1, 64]⟩ : Shape).BroadcastsInDim ⟨2, ![R, 64]⟩ (![0, 1] : Fin 2 → Fin 2))
    (b : Vec1 64) (e : Fin R) (q : Fin 64) :
    broadcastInDim ⟨2, ![R, 64]⟩ (![0, 1] : Fin 2 → Fin 2) h2 (broadcastInDim ⟨2, ![1, 64]⟩ (![1] : Fin 1 → Fin 2) h1 b) (ix2 e q)
      = b (ix1 q) := by
  refine (broadcastInDim_apply (![0, 1] : Fin 2 → Fin 2) h2 _ (ix2 e q) (ix2 (0 : Fin 1) q) ?_).trans ?_
  · intro a
    match a with
    | ⟨0, _⟩ => rfl
    | ⟨1, _⟩ => rfl
  · refine broadcastInDim_apply (![1] : Fin 1 → Fin 2) h1 b (ix2 (0 : Fin 1) q) (ix1 q) ?_
    intro a
    match a with
    | ⟨0, _⟩ => rfl

/-- A bias row repeated over the edges' rows reads, at (e, q), its entry q. -/
theorem rowE_apply (b : FVec Ideal S64 .f32) (e : Fin 800000) (q : Fin 64) : rowE b (ix2 e q) = b (ix1 q) := by
  unfold rowE
  exact row_apply _ _ b e q

/-! ## A matrix product at an entry -/

/-- A product of an [R, K] array with a [K, C] array reads, at (p, q), the sum over k < K of l(p, k) * r(k, q). -/
theorem dot_apply {R K C : Nat} (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : Arr R K) (r : Arr K C) (p : Fin R) (q : Fin C) :
    Host.dotGeneral (F := Ideal) (φ₁ := .f32) (φ₂ := .f32) d none l r (ix2 p q) = ∑ k : Fin K, l (ix2 p k) * r (ix2 k q) :=
  (Ideal.dotGeneral_apply d none .single l r (ix2 p q)).trans (PlainDot.sum_eq d hlb hln hlc hrb hrn hrc l r p q)

/-! ## The side-by-side row at a column -/

section Cat
variable {R : Nat} (XI XJ : Arr R 64) (AMF : Arr R 1)
  (h : Shape.Concatenates [(⟨2, ![R, 64]⟩ : Shape), ⟨2, ![R, 64]⟩, ⟨2, ![R, 1]⟩] ⟨2, ![R, 129]⟩ 1)

/-- At one of its first 128 columns, the row of 129 numbers is the two node rows side by side. -/
theorem cat_apply_lo (e : Fin R) (k : Fin 128) :
    concatenate ⟨2, ![R, 129]⟩ 1 [⟨⟨2, ![R, 64]⟩, XI⟩, ⟨⟨2, ![R, 64]⟩, XJ⟩, ⟨⟨2, ![R, 1]⟩, AMF⟩] h (ix2 e k.castSucc)
      = cat2 XI XJ e k := by
  unfold cat2
  split
  · next hk =>
    refine concatenate_apply_piece (t := ⟨2, ![R, 129]⟩) 1 [⟨⟨2, ![R, 64]⟩, XI⟩, ⟨⟨2, ![R, 64]⟩, XJ⟩, ⟨⟨2, ![R, 1]⟩, AMF⟩] h _ 0 (by simp)
      ⟨2, ![R, 64]⟩ XI rfl rfl 0 rfl (ix2 e ⟨k.val, hk⟩) (fun b hb => ?_) ?_
    · match b, hb with
      | ⟨0, _⟩, _ => rfl
      | ⟨1, _⟩, hb => exact absurd rfl hb
    · exact Nat.zero_add _
  · next hk =>
    refine concatenate_apply_piece (t := ⟨2, ![R, 129]⟩) 1 [⟨⟨2, ![R, 64]⟩, XI⟩, ⟨⟨2, ![R, 64]⟩, XJ⟩, ⟨⟨2, ![R, 1]⟩, AMF⟩] h _ 1 (by simp)
      ⟨2, ![R, 64]⟩ XJ rfl rfl 64 rfl (ix2 e ⟨k.val - 64, by have := k.isLt; omega⟩) (fun b hb => ?_) ?_
    · match b, hb with
      | ⟨0, _⟩, _ => rfl
      | ⟨1, _⟩, hb => exact absurd rfl hb
    · show 64 + (k.val - 64) = k.val
      omega

/-- At its last column, the row of 129 numbers is the edge's extra feature. -/
theorem cat_apply_last (e : Fin R) :
    concatenate ⟨2, ![R, 129]⟩ 1 [⟨⟨2, ![R, 64]⟩, XI⟩, ⟨⟨2, ![R, 64]⟩, XJ⟩, ⟨⟨2, ![R, 1]⟩, AMF⟩] h (ix2 e (Fin.last 128))
      = AMF (ix2 e (0 : Fin 1)) := by
  refine concatenate_apply_piece (t := ⟨2, ![R, 129]⟩) 1 [⟨⟨2, ![R, 64]⟩, XI⟩, ⟨⟨2, ![R, 64]⟩, XJ⟩, ⟨⟨2, ![R, 1]⟩, AMF⟩] h _ 2 (by simp)
    ⟨2, ![R, 1]⟩ AMF rfl rfl 128 rfl (ix2 e (0 : Fin 1)) (fun b hb => ?_) rfl
  match b, hb with
  | ⟨0, _⟩, _ => rfl
  | ⟨1, _⟩, hb => exact absurd rfl hb

end Cat

/-! ## The weight matrix's first 128 rows and its last row -/

/-- Row k < 128 of the first 128 rows of a 129-row matrix is its row k. -/
theorem W_lo_apply (W : Arr 129 64) (hs : (⟨2, ![129, 64]⟩ : Shape).Slices ![0, 0] ⟨2, ![128, 64]⟩) (k : Fin 128) (q : Fin 64) :
    extractStridedSlice ⟨2, ![128, 64]⟩ ![0, 0] W hs (ix2 k q) = W (ix2 k.castSucc q) :=
  extractStridedSlice_apply ![0, 0] W hs (ix2 k q) (ix2 k.castSucc q) fun a =>
    match a with
    | ⟨0, _⟩ => (Nat.zero_add _).symm
    | ⟨1, _⟩ => (Nat.zero_add _).symm

/-- The last row of a 129-row matrix, as a row of 64 numbers, reads the matrix at row 128. -/
theorem W_last_apply (W : Arr 129 64) (hl : (⟨2, ![129, 64]⟩ : Shape).Slices ![128, 0] ⟨2, ![1, 64]⟩)
    (hc : (⟨2, ![1, 64]⟩ : Shape).ShapeCasts ⟨1, ![64]⟩) (q : Fin 64) :
    shapeCast ⟨1, ![64]⟩ (extractStridedSlice ⟨2, ![1, 64]⟩ ![128, 0] W hl) hc (ix1 q) = W (ix2 (Fin.last 128) q) := by
  refine (shapeCast_apply _ hc (ix1 q) (ix2 (0 : Fin 1) q) ?_).trans ?_
  · rw [Shape.rowMajor_val_two, Shape.rowMajor_val_one]
    show 0 * 64 + q.val = q.val
    omega
  · exact extractStridedSlice_apply ![128, 0] W hl _ (ix2 (Fin.last 128) q) fun a =>
      match a with
      | ⟨0, _⟩ => rfl
      | ⟨1, _⟩ => (Nat.zero_add _).symm

/-! ## The two gated linear maps at an entry -/

/-- The first gated linear map at (e, q): the sum over the 129 columns is the sum over the first 128, where the row is the
    two node rows side by side, plus the last term, where it is the edge's extra feature. -/
theorem t1_apply (XI XJ : FVec Ideal S800000x64 .f32) (AMF : FVec Ideal S800000x1 .f32) (EA : FVec Ideal S800000x9 .f32)
    (W : FVec Ideal S129x64 .f32) (V1 : FVec Ideal S9x64 .f32) (b1 : FVec Ideal S64 .f32) (e : Fin 800000) (q : Fin 64) :
    t1 XI XJ AMF EA W V1 b1 (ix2 e q)
      = ((∑ k : Fin 128, cat2 XI XJ e k * W (ix2 k.castSucc q)) + AMF (ix2 e (0 : Fin 1)) * W (ix2 (Fin.last 128) q))
          * (∑ r : Fin 9, EA (ix2 e r) * V1 (ix2 r q)) + b1 (ix1 q) := by
  unfold t1
  refine (addf_apply _ _ _).trans ?_
  refine congrArg₂ (· + ·) ((mulf_apply _ _ _).trans (congrArg₂ (· * ·) ?_ ?_)) (rowE_apply b1 e q)
  · refine (dot_apply _ rfl rfl rfl rfl rfl rfl _ W e q).trans ?_
    rw [Fin.sum_univ_castSucc]
    simp only [cat_apply_lo, cat_apply_last]
  · exact dot_apply _ rfl rfl rfl rfl rfl rfl EA V1 e q

/-- The second gated linear map at (e, h). -/
theorem t2_apply (M1 : FVec Ideal S800000x64 .f32) (EA : FVec Ideal S800000x9 .f32)
    (W2 : FVec Ideal S64x64 .f32) (V2 : FVec Ideal S9x64 .f32) (b2 : FVec Ideal S64 .f32) (e : Fin 800000) (h : Fin 64) :
    t2 M1 EA W2 V2 b2 (ix2 e h)
      = (∑ k : Fin 64, M1 (ix2 e k) * W2 (ix2 k h)) * (∑ r : Fin 9, EA (ix2 e r) * V2 (ix2 r h)) + b2 (ix1 h) := by
  unfold t2
  refine (addf_apply _ _ _).trans ?_
  refine congrArg₂ (· + ·) ((mulf_apply _ _ _).trans (congrArg₂ (· * ·) ?_ ?_)) (rowE_apply b2 e h)
  · exact dot_apply _ rfl rfl rfl rfl rfl rfl M1 W2 e h
  · exact dot_apply _ rfl rfl rfl rfl rfl rfl EA V2 e h

/-! ## The message stage -/

/-- The reference's messages of all edges are the specification's, the weight matrix's first 128 rows and its last row
    passed as the specification's two separate arguments. -/
theorem refMsg_eq (XI XJ : FVec Ideal S800000x64 .f32) (AMF : FVec Ideal S800000x1 .f32) (EA : FVec Ideal S800000x9 .f32)
    (W : FVec Ideal S129x64 .f32) (V1 : FVec Ideal S9x64 .f32) (b1 : FVec Ideal S64 .f32)
    (W2 : FVec Ideal S64x64 .f32) (V2 : FVec Ideal S9x64 .f32) (b2 : FVec Ideal S64 .f32)
    (hs : S129x64.Slices ![0, 0] S128x64) (hl : S129x64.Slices ![128, 0] S1x64) (hc : S1x64.ShapeCasts S64) :
    refMsg XI XJ AMF EA W V1 b1 W2 V2 b2
      = msgOut (R := 800000) XI XJ AMF EA (extractStridedSlice S128x64 ![0, 0] W hs)
          (shapeCast S64 (extractStridedSlice S1x64 ![128, 0] W hl) hc) V1 b1 W2 V2 b2 := by
  funext j
  obtain ⟨e, h, rfl⟩ : ∃ (e : Fin 800000) (h : Fin 64), j = ix2 e h := ⟨j 0, j 1, eq_ix2 j⟩
  rw [msgOut_apply]
  unfold refMsg msgAt msgHidden
  rw [swE_apply, t2_apply]
  simp only [swE_apply, t1_apply, W_lo_apply, W_last_apply]

end Cert.ReferenceIdeal.RefMsg

end
-- ==== Proof.RefUpd.lean ====
/-
  The reference's update stage on whole arrays is the specification's new features.

  The reference forms, over all 50000 node rows at once, the product of the side-by-side rows [x | agg] with the
  128 x 64 weight matrix, multiplies it entry by entry with the product of the nine node attributes with their 9 x 64
  matrix, adds the bias row repeated over the rows, applies t * (1 / (1 + exp(-t))), repeats the gated linear map with
  the 64 x 64 weights, and blends the result with the old features by the two constant words.  Read at one entry
  (n, h), every array operation is the operation on the entries: a matrix product is the sum over the contracted axis
  of the products of the entries, the side-by-side rows read the first array below column 64 and the second from
  column 64 on, a repeated bias row reads the bias at the column, a repeated constant reads the constant, and the
  array of ones reads 1.  With these readings the reference's entry (n, h) is, term by term, the specification's
  out(n, h); no law of arithmetic beyond these readings is needed.
-/
import proofs.«416160_j23089744183881_1_alg».proof.Proof.RefDefs
import proofs.«416160_j23089744183881_1_alg».proof.Proof.Spec
import proofs.«416160_j23089744183881_1_alg».proof.Proof.LibPlainDot
import Idealize.ShloMosaic.PureOps.Ideal
import Idealize.ShloMosaic.PureOps.Ideal.Laws
import Idealize.ShloMosaic.Lib.ValueIdx
import Idealize.ShloMosaic.Lib.Pipeline.Value

noncomputable section

namespace Cert.ReferenceIdeal.RefUpd

open Cert.ReferenceIdeal Cert.ReferenceIdeal.Gen Cert.ReferenceIdeal.Layers MsgPass
open Idealize.ShloMosaic Idealize.ShloMosaic.ValueIdx

/-! ## The single operations read at an entry -/

/-- The single-precision word 0x3F800000 denotes the number 1. -/
theorem ofBits_one_f32 : Ideal.ofBits .f32 0x3F800000#32 = 1 := by
  simp [Ideal.ofBits, Ideal.ieee, -EReal.coe_mul]; norm_num

/-- A constant repeated over all node rows reads the constant's value at every entry. -/
theorem constN_apply (w : BitVec 32) (j : S50000x64.Idx) :
    broadcastInDim S50000x64 ![] bcast_S_S50000x64 (constant (F := Ideal) S_ .f32 w) j = Ideal.ofBits .f32 w := rfl

/-- The array of ones reads 1 at every entry. -/
theorem oneN_apply (j : S50000x64.Idx) : oneN j = 1 :=
  (constN_apply 0x3F800000#32 j).trans ofBits_one_f32

/-- A bias row repeated over the node rows reads, at entry (n, q), the bias at q. -/
theorem rowN_apply (b : FVec Ideal S64 .f32) (n : Fin 50000) (q : Fin 64) : rowN b (ix2 n q) = b (ix1 q) := by
  unfold rowN
  refine (broadcastInDim_apply _ _ _ (ix2 n q) (ix2 (0 : Fin 1) q) ?_).trans ?_
  · intro a
    match a with
    | ⟨0, _⟩ => rfl
    | ⟨1, _⟩ => rfl
  · refine broadcastInDim_apply _ _ _ (ix2 (0 : Fin 1) q) (ix1 q) ?_
    intro a
    match a with
    | ⟨0, _⟩ => rfl

/-- A matrix product of an [R, K] array with a [K, C] array reads, at entry (p, q), the sum over k < K of
    l(p, k) * r(k, q). -/
theorem dot_apply {R K C : Nat} (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : FVec Ideal ⟨2, ![R, K]⟩ .f32) (r : FVec Ideal ⟨2, ![K, C]⟩ .f32) (p : Fin R) (q : Fin C) :
    Host.dotGeneral d none l r (ix2 p q) = ∑ k : Fin K, l (ix2 p k) * r (ix2 k q) :=
  (Ideal.dotGeneral_apply d none .single l r (ix2 p q)).trans (PlainDot.sum_eq d hlb hln hlc hrb hrn hrc l r p q)

/-- The node rows and the summed-message rows laid side by side read, at entry (n, k), the first array's column k
    for k < 64 and the second array's column k - 64 otherwise. -/
theorem catN_apply (X AGG : FVec Ideal S50000x64 .f32) (n : Fin 50000) (k : Fin 128) :
    concatenate S50000x128 1 [⟨S50000x64, X⟩, ⟨S50000x64, AGG⟩] concatenates_S50000x64_S50000x64_S50000x128_d1 (ix2 n k)
      = cat2 X AGG n k := by
  unfold cat2
  split
  · next h =>
    refine concatenate_pair_apply_left 1 X AGG _ (ix2 n k) rfl (ix2 n ⟨k.val, h⟩) ?_
    intro b
    match b with
    | ⟨0, _⟩ => rfl
    | ⟨1, _⟩ => rfl
  · next h =>
    refine concatenate_pair_apply_right 1 X AGG _ (ix2 n k) rfl rfl (ix2 n ⟨k.val - 64, by have := k.isLt; omega⟩) ?_ ?_
    · intro b hb
      match b, hb with
      | ⟨0, _⟩, _ => rfl
      | ⟨1, _⟩, hb => exact absurd rfl hb
    · show k.val - 64 + 64 = k.val
      omega

/-- The reference's t * (1 / (1 + exp(-t))) over the node rows reads, at an entry, swish of the entry. -/
theorem swN_apply (t : FVec Ideal S50000x64 .f32) (j : S50000x64.Idx) : swN t j = swish (t j) := by
  show t j * Ideal.div (oneN j) (oneN j + Ideal.exp (-(t j))) = swish (t j)
  rw [oneN_apply]
  rfl

/-! ## The two gated linear maps read at an entry -/

/-- The first gated linear map at entry (n, q). -/
theorem u1_apply (X AGG : FVec Ideal S50000x64 .f32) (NA : FVec Ideal S50000x9 .f32)
    (Wu1 : FVec Ideal S128x64 .f32) (Vu1 : FVec Ideal S9x64 .f32) (bu1 : FVec Ideal S64 .f32) (n : Fin 50000) (q : Fin 64) :
    u1 X AGG NA Wu1 Vu1 bu1 (ix2 n q)
      = (∑ k : Fin 128, cat2 X AGG n k * Wu1 (ix2 k q)) * (∑ r : Fin 9, NA (ix2 n r) * Vu1 (ix2 r q)) + bu1 (ix1 q) := by
  unfold u1
  rw [addf_apply, mulf_apply, rowN_apply,
    dot_apply dot_S50000x128_S128x64_S50000x64_1_0_0_1_n_n rfl rfl rfl rfl rfl rfl,
    dot_apply dot_S50000x9_S9x64_S50000x64_1_0_0_1_n_n rfl rfl rfl rfl rfl rfl]
  simp only [catN_apply]

/-- The second gated linear map blended with the old features, at entry (n, h). -/
theorem u2_apply (X U : FVec Ideal S50000x64 .f32) (NA : FVec Ideal S50000x9 .f32)
    (Wu2 : FVec Ideal S64x64 .f32) (Vu2 : FVec Ideal S9x64 .f32) (bu2 : FVec Ideal S64 .f32) (n : Fin 50000) (h : Fin 64) :
    u2 X U NA Wu2 Vu2 bu2 (ix2 n h)
      = c7 * X (ix2 n h)
        + c3 * ((∑ k : Fin 64, U (ix2 n k) * Wu2 (ix2 k h)) * (∑ r : Fin 9, NA (ix2 n r) * Vu2 (ix2 r h)) + bu2 (ix1 h)) := by
  unfold u2
  rw [addf_apply, mulf_apply, mulf_apply, addf_apply, mulf_apply, rowN_apply, constN_apply, constN_apply,
    dot_apply dot_S50000x64_S64x64_S50000x64_1_0_0_1_n_n rfl rfl rfl rfl rfl rfl,
    dot_apply dot_S50000x9_S9x64_S50000x64_1_0_0_1_n_n rfl rfl rfl rfl rfl rfl]
  rfl

/-! ## The update stage -/

/-- The reference's update stage on whole arrays is the specification's new features of all 50000 nodes. -/
theorem refUpd_eq (X AGG : FVec Ideal S50000x64 .f32) (NA : FVec Ideal S50000x9 .f32)
    (Wu1 : FVec Ideal S128x64 .f32) (Vu1 : FVec Ideal S9x64 .f32) (bu1 : FVec Ideal S64 .f32)
    (Wu2 : FVec Ideal S64x64 .f32) (Vu2 : FVec Ideal S9x64 .f32) (bu2 : FVec Ideal S64 .f32) :
    refUpd X AGG NA Wu1 Vu1 bu1 Wu2 Vu2 bu2 = updOut (R := 50000) X AGG NA Wu1 Vu1 bu1 Wu2 Vu2 bu2 := by
  funext j
  obtain ⟨n, h, rfl⟩ : ∃ (n : Fin 50000) (h : Fin 64), j = ix2 n h := ⟨j 0, j 1, eq_ix2 j⟩
  rw [updOut_apply]
  unfold refUpd updAt updHidden
  rw [u2_apply]
  simp only [swN_apply, u1_apply]

end Cert.ReferenceIdeal.RefUpd

end
-- ==== Proof.Bridge.lean ====
/-
  One layer of the kernel program and one layer of the reference are the same function of their whole-array inputs,
  when every edge index lies in 0..49999.

  The reference's message stage is the specification's messages over the rows it gathers (the 129-term contraction
  splits as the 128-term contraction of the two node rows plus the extra feature's term), its update stage is the
  specification's update; under the range hypothesis the kernel program's guarded gather is the reference's gather,
  and the two scatter-sums are one function.
-/
import proofs.«416160_j23089744183881_1_alg».proof.Proof.KerLayer
import proofs.«416160_j23089744183881_1_alg».proof.Proof.RefLayer
import proofs.«416160_j23089744183881_1_alg».proof.Proof.Take
import proofs.«416160_j23089744183881_1_alg».proof.Proof.RefMsg
import proofs.«416160_j23089744183881_1_alg».proof.Proof.RefUpd

noncomputable section

namespace Cert.Bridge

open Idealize.ShloMosaic MsgPass Cert.Take

open Cert.KernelIdeal Cert.KernelIdeal.Gen in
/-- The two programs' layers agree on edge indices in range. -/
theorem layer_eq (X : FVec Ideal S50000x64 .f32) (dst src : IVec S800000 32) (hd : InRange dst) (hs : InRange src)
    (AMF : FVec Ideal S800000x1 .f32) (EA : FVec Ideal S800000x9 .f32) (NA : FVec Ideal S50000x9 .f32)
    (W : FVec Ideal S129x64 .f32) (V1 : FVec Ideal S9x64 .f32) (b1 : FVec Ideal S64 .f32) (W2 : FVec Ideal S64x64 .f32) (V2 : FVec Ideal S9x64 .f32) (b2 : FVec Ideal S64 .f32)
    (Wu1 : FVec Ideal S128x64 .f32) (Vu1 : FVec Ideal S9x64 .f32) (bu1 : FVec Ideal S64 .f32) (Wu2 : FVec Ideal S64x64 .f32) (Vu2 : FVec Ideal S9x64 .f32) (bu2 : FVec Ideal S64 .f32) :
    Cert.KernelIdeal.Read.KLayer X dst src AMF EA NA W V1 b1 W2 V2 b2 Wu1 Vu1 bu1 Wu2 Vu2 bu2
      = Cert.ReferenceIdeal.Layers.RLayer X dst src AMF EA NA W V1 b1 W2 V2 b2 Wu1 Vu1 bu1 Wu2 Vu2 bu2 := by
  unfold Cert.KernelIdeal.Read.KLayer Cert.ReferenceIdeal.Layers.RLayer
  rw [Cert.ReferenceIdeal.RefUpd.refUpd_eq,
    Cert.ReferenceIdeal.RefMsg.refMsg_eq _ _ _ _ _ _ _ _ _ _ slices_S129x64_S128x64_0_0 slices_S129x64_S1x64_128_0 shapeCasts_S1x64_S64,
    ← takeK_eq_gatherR X dst hd, ← takeK_eq_gatherR X src hs, ← aggK_eq_aggR]
  rfl

end Cert.Bridge

end
-- ==== Proof.TakePre.lean ====
/-
  The precondition's last two conjuncts, read back: every entry of the two-row edge-index array lies in 0..49999.

  The precondition is an "and" of one all-entries test per input; the last two tests compare every entry of the
  edge-index array, read signed, with 0 (at least) and with 50000 (less than).  An "and" that is 1 has both its
  operands 1, and an all-entries test that is 1 had a 1 at every entry.
-/
import proofs.«416160_j23089744183881_1_alg».proof.Proof.Take
import proofs.«416160_j23089744183881_1_alg».proof.Proof.Gen.Pre_finite_inputs
import Idealize.ShloMosaic.Lib.ReduceAll
import Idealize.ShloMosaic.Lib.ValueIdx
import Idealize.ShloMosaic.PureOps.Ideal

namespace Cert.Take

open Idealize.ShloMosaic Cert.Pre_finite_inputs Cert.Pre_finite_inputs.Gen

/-- The shape of rank zero has one index. -/
instance subsingleton_S_ : Subsingleton S_.Idx := ⟨fun _ _ => funext fun d => d.elim0⟩

/-- Under the precondition every entry of the edge-index array lies in 0..49999. -/
theorem pre_inRange (a0 : FVec Ideal S50000x64 .f32) (a1 : FVec Ideal S800000x9 .f32) (a2 : FVec Ideal S50000x9 .f32)
    (a3 : FVec Ideal S800000x1 .f32) (a4 : FVec Ideal S2x129x64 .f32) (a5 : FVec Ideal S2x9x64 .f32)
    (a6 : FVec Ideal S2x64 .f32) (a7 : FVec Ideal S2x64x64 .f32) (a8 : FVec Ideal S2x9x64 .f32)
    (a9 : FVec Ideal S2x64 .f32) (a10 : FVec Ideal S2x128x64 .f32) (a11 : FVec Ideal S2x9x64 .f32)
    (a12 : FVec Ideal S2x64 .f32) (a13 : FVec Ideal S2x64x64 .f32) (a14 : FVec Ideal S2x9x64 .f32)
    (a15 : FVec Ideal S2x64 .f32) (a16 : IVec S2x800000 32)
    (h : Cert.Pre_finite_inputs.fn (F := Ideal) a0 a1 a2 a3 a4 a5 a6 a7 a8 a9 a10 a11 a12 a13 a14 a15 a16 = fun _ => 1#1) :
    InRange a16 := by
  have h0 := congrFun h ValueIdx.ix0
  dsimp only [fn, fn_part1, fn_part2, fn_part3, fn_part4, fn_part5] at h0
  obtain ⟨h82, h85⟩ := IntOp.andi_eq_one.1 h0
  obtain ⟨_, h81⟩ := IntOp.andi_eq_one.1 h82
  intro e
  have hge : (0#32 : BitVec 32).toInt ≤ (a16 e).toInt := IntOp.cmpi_sge.1 (Host.reduce_andi_all _ _ _ _ _ h81 e)
  have hlt : (a16 e).toInt < (50000#32 : BitVec 32).toInt := IntOp.cmpi_slt.1 (Host.reduce_andi_all _ _ _ _ _ h85 e)
  have e0 : (0#32 : BitVec 32).toInt = 0 := by decide
  have e1 : (50000#32 : BitVec 32).toInt = 50000 := by decide
  exact ⟨by omega, by omega⟩

end Cert.Take
-- ==== Proof.lean ====
/-
  The certificate of a two-layer graph network: a tiled kernel program against its whole-array reference.

  Both programs run two layers over 50000 nodes and 800000 edges.  A layer gathers the feature rows of each edge's two
  end nodes, forms the edge's message by two gated linear maps with swish activations (the first over the two rows
  side by side and the edge's extra feature), sums the messages into their target nodes, and updates every node by
  two more gated linear maps over its row and its summed messages, blending the result with the old row by two
  constants.  The kernel program computes the message stage in blocks of 4000 edges and the update stage in blocks of
  5000 nodes, with the extra feature's term added beside a 128-term contraction; the reference computes whole arrays,
  with a 129-term contraction.  At the ideal values a block of rows of a row-wise function is that function of the
  block's rows, and the 129-term sum is the 128-term sum plus the last term, so the two agree stage by stage.

  The kernel program's gather fills a row with the not-a-number word when its edge index falls outside 0..49999 while
  the reference's gather clamps the index; the precondition asks every edge index to lie in that range (outside it
  the reference indexes out of range), and under it the two gathers are the same array.

  The three frames are the generated ones (the reference's is its generated run with the result dropped); the
  idealization rewrote no operation, so its conjunct is trivial; the value claim joins the kernel program's run with
  its result (the four launches' output arrays read back to the launch contents) and the reference's generated run.
-/
import proofs.«416160_j23089744183881_1_alg».proof.Defs
import proofs.«416160_j23089744183881_1_alg».proof.Proof.Gen.Kernel
import proofs.«416160_j23089744183881_1_alg».proof.Proof.Gen.Kernel.Skeleton
import proofs.«416160_j23089744183881_1_alg».proof.Proof.Gen.Kernel.Launch
import proofs.«416160_j23089744183881_1_alg».proof.Proof.Gen.Kernel.Points
import proofs.«416160_j23089744183881_1_alg».proof.Proof.Gen.Kernel.Frame
import proofs.«416160_j23089744183881_1_alg».proof.Proof.Gen.KernelIdeal
import proofs.«416160_j23089744183881_1_alg».proof.Proof.Gen.KernelIdeal.Skeleton
import proofs.«416160_j23089744183881_1_alg».proof.Proof.Gen.KernelIdeal.Launch
import proofs.«416160_j23089744183881_1_alg».proof.Proof.Gen.KernelIdeal.Points
import proofs.«416160_j23089744183881_1_alg».proof.Proof.Gen.KernelIdeal.Frame
import proofs.«416160_j23089744183881_1_alg».proof.Proof.Gen.ReferenceIdeal
import proofs.«416160_j23089744183881_1_alg».proof.Proof.Gen.ReferenceIdeal.Run
import proofs.«416160_j23089744183881_1_alg».proof.Proof.Gen.Pre_finite_inputs
import proofs.«416160_j23089744183881_1_alg».proof.Proof.KernelRun
import proofs.«416160_j23089744183881_1_alg».proof.Proof.KernelValue
import proofs.«416160_j23089744183881_1_alg».proof.Proof.RefValue
import proofs.«416160_j23089744183881_1_alg».proof.Proof.Bridge
import proofs.«416160_j23089744183881_1_alg».proof.Proof.TakePre
import Idealize.ShloMosaic.Adequacy
import Idealize.ShloMosaic.Init

set_option maxRecDepth 16384

noncomputable section

namespace Cert.Proof

open Idealize.ShloMosaic Idealize.ShloMosaic.TcCoe Idealize.SL.Sem

/-- Under the precondition, with memories agreeing on the arguments, the reference's two layers over its launch
    contents are the kernel program's two layers over its own: the edge indices are in range, so layer by layer the
    two programs compute one function. -/
theorem ref_eq_kernel (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) = (fun _ => 1#1))
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    Cert.ReferenceIdeal.Layers.RVal (StableHlo.launchContents m' c) = Cert.KernelIdeal.Read.KVal m c := by
  obtain ⟨h0, h1, h2, h3, h4, h5, h6, h7, h8, h9, h10, h11, h12, h13, h14, h15, h16⟩ := hagree
  have hr := Cert.Take.pre_inRange _ _ _ _ _ _ _ _ _ _ _ _ _ _ _ _ _ hpre
  have hd : Cert.Take.InRange (Cert.KernelIdeal.Read.dstK m c) := Cert.Take.row1_inRange _ hr _ _
  have hs : Cert.Take.InRange (Cert.KernelIdeal.Read.srcK m c) := Cert.Take.row0_inRange _ hr _ _
  unfold Cert.KernelIdeal.Read.KVal
  rw [Cert.Bridge.layer_eq _ _ _ hd hs, Cert.Bridge.layer_eq _ _ _ hd hs]
  unfold Cert.ReferenceIdeal.Layers.RVal Cert.ReferenceIdeal.Layers.dstR Cert.ReferenceIdeal.Layers.srcR
    Cert.ReferenceIdeal.Layers.W129R0 Cert.ReferenceIdeal.Layers.V1R0 Cert.ReferenceIdeal.Layers.b1R0 Cert.ReferenceIdeal.Layers.W2R0 Cert.ReferenceIdeal.Layers.V2R0 Cert.ReferenceIdeal.Layers.b2R0
    Cert.ReferenceIdeal.Layers.Wu1R0 Cert.ReferenceIdeal.Layers.Vu1R0 Cert.ReferenceIdeal.Layers.bu1R0 Cert.ReferenceIdeal.Layers.Wu2R0 Cert.ReferenceIdeal.Layers.Vu2R0 Cert.ReferenceIdeal.Layers.bu2R0
    Cert.ReferenceIdeal.Layers.W129R1 Cert.ReferenceIdeal.Layers.V1R1 Cert.ReferenceIdeal.Layers.b1R1 Cert.ReferenceIdeal.Layers.W2R1 Cert.ReferenceIdeal.Layers.V2R1 Cert.ReferenceIdeal.Layers.b2R1
    Cert.ReferenceIdeal.Layers.Wu1R1 Cert.ReferenceIdeal.Layers.Vu1R1 Cert.ReferenceIdeal.Layers.bu1R1 Cert.ReferenceIdeal.Layers.Wu2R1 Cert.ReferenceIdeal.Layers.Vu2R1 Cert.ReferenceIdeal.Layers.bu2R1
  have e0 : StableHlo.launchContents m' c (Proc.devRef .tc Cert.ReferenceIdeal.main_arg0) = m ((c.tc : Thread Cert.KernelIdeal.nD Cert.KernelIdeal.τ).loc Cert.KernelIdeal.main_arg0) := h0
  have e1 : StableHlo.launchContents m' c (Proc.devRef .tc Cert.ReferenceIdeal.main_arg1) = m ((c.tc : Thread Cert.KernelIdeal.nD Cert.KernelIdeal.τ).loc Cert.KernelIdeal.main_arg1) := h1
  have e2 : StableHlo.launchContents m' c (Proc.devRef .tc Cert.ReferenceIdeal.main_arg2) = m ((c.tc : Thread Cert.KernelIdeal.nD Cert.KernelIdeal.τ).loc Cert.KernelIdeal.main_arg2) := h2
  have e3 : StableHlo.launchContents m' c (Proc.devRef .tc Cert.ReferenceIdeal.main_arg3) = m ((c.tc : Thread Cert.KernelIdeal.nD Cert.KernelIdeal.τ).loc Cert.KernelIdeal.main_arg3) := h3
  have e4 : StableHlo.launchContents m' c (Proc.devRef .tc Cert.ReferenceIdeal.main_arg4) = m ((c.tc : Thread Cert.KernelIdeal.nD Cert.KernelIdeal.τ).loc Cert.KernelIdeal.main_arg4) := h4
  have e5 : StableHlo.launchContents m' c (Proc.devRef .tc Cert.ReferenceIdeal.main_arg5) = m ((c.tc : Thread Cert.KernelIdeal.nD Cert.KernelIdeal.τ).loc Cert.KernelIdeal.main_arg5) := h5
  have e6 : StableHlo.launchContents m' c (Proc.devRef .tc Cert.ReferenceIdeal.main_arg6) = m ((c.tc : Thread Cert.KernelIdeal.nD Cert.KernelIdeal.τ).loc Cert.KernelIdeal.main_arg6) := h6
  have e7 : StableHlo.launchContents m' c (Proc.devRef .tc Cert.ReferenceIdeal.main_arg7) = m ((c.tc : Thread Cert.KernelIdeal.nD Cert.KernelIdeal.τ).loc Cert.KernelIdeal.main_arg7) := h7
  have e8 : StableHlo.launchContents m' c (Proc.devRef .tc Cert.ReferenceIdeal.main_arg8) = m ((c.tc : Thread Cert.KernelIdeal.nD Cert.KernelIdeal.τ).loc Cert.KernelIdeal.main_arg8) := h8
  have e9 : StableHlo.launchContents m' c (Proc.devRef .tc Cert.ReferenceIdeal.main_arg9) = m ((c.tc : Thread Cert.KernelIdeal.nD Cert.KernelIdeal.τ).loc Cert.KernelIdeal.main_arg9) := h9
  have e10 : StableHlo.launchContents m' c (Proc.devRef .tc Cert.ReferenceIdeal.main_arg10) = m ((c.tc : Thread Cert.KernelIdeal.nD Cert.KernelIdeal.τ).loc Cert.KernelIdeal.main_arg10) := h10
  have e11 : StableHlo.launchContents m' c (Proc.devRef .tc Cert.ReferenceIdeal.main_arg11) = m ((c.tc : Thread Cert.KernelIdeal.nD Cert.KernelIdeal.τ).loc Cert.KernelIdeal.main_arg11) := h11
  have e12 : StableHlo.launchContents m' c (Proc.devRef .tc Cert.ReferenceIdeal.main_arg12) = m ((c.tc : Thread Cert.KernelIdeal.nD Cert.KernelIdeal.τ).loc Cert.KernelIdeal.main_arg12) := h12
  have e13 : StableHlo.launchContents m' c (Proc.devRef .tc Cert.ReferenceIdeal.main_arg13) = m ((c.tc : Thread Cert.KernelIdeal.nD Cert.KernelIdeal.τ).loc Cert.KernelIdeal.main_arg13) := h13
  have e14 : StableHlo.launchContents m' c (Proc.devRef .tc Cert.ReferenceIdeal.main_arg14) = m ((c.tc : Thread Cert.KernelIdeal.nD Cert.KernelIdeal.τ).loc Cert.KernelIdeal.main_arg14) := h14
  have e15 : StableHlo.launchContents m' c (Proc.devRef .tc Cert.ReferenceIdeal.main_arg15) = m ((c.tc : Thread Cert.KernelIdeal.nD Cert.KernelIdeal.τ).loc Cert.KernelIdeal.main_arg15) := h15
  have e16 : StableHlo.launchContents m' c (Proc.devRef .tc Cert.ReferenceIdeal.main_arg16) = m ((c.tc : Thread Cert.KernelIdeal.nD Cert.KernelIdeal.τ).loc Cert.KernelIdeal.main_arg16) := h16
  rw [e0, e1, e2, e3, e4, e5, e6, e7, e8, e9, e10, e11, e12, e13, e14, e15, e16]
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the same result array: the kernel program's at its two layers over the launch contents,
    the reference's at its own two layers, which are the same function of arguments that agree. -/
theorem algebraic : Cert.algebraic_KernelIdeal_ReferenceIdeal := by
  intro m ρ m' ρ' hpre hagree
  refine ⟨fun c => Cert.KernelIdeal.Read.KVal m c, ?_, ?_⟩
  · exact (θ_run (Cert.KernelIdeal.defs (F := Ideal)) _ _).mono
      (fun r h c => ⟨(h c).1.trans (Cert.KernelIdeal.Read.kernel_value m ρ c), (h c).2⟩)
      (Cert.KernelIdeal.ValueRun.run_result (F := Ideal) m ρ)
  · exact (θ_run (Cert.ReferenceIdeal.defs (F := Ideal)) _ _).mono
      (fun r h c => ⟨(h c).1.trans (ref_eq_kernel m m' c (hpre c) (hagree c)), (h c).2⟩)
      (Cert.ReferenceIdeal.RefValue.run_value m' ρ')

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
